-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S64x512x512 : Shape := ⟨3, ![64, 512, 512]⟩
abbrev S64x512x3 : Shape := ⟨3, ![64, 512, 3]⟩
abbrev S1536x512 : Shape := ⟨2, ![1536, 512]⟩
abbrev S512 : Shape := ⟨1, ![512]⟩
abbrev S512x1536 : Shape := ⟨2, ![512, 1536]⟩
abbrev S1536 : Shape := ⟨1, ![1536]⟩
abbrev S512x512 : Shape := ⟨2, ![512, 512]⟩
abbrev S_ : Shape := ⟨0, ![]⟩
abbrev S64x512x1 : Shape := ⟨3, ![64, 512, 1]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  slices_S64x512x3_S64x512x1_0_0_0 : S64x512x3.Slices ![0, 0, 0] S64x512x1
  bcast_S_S64x512x1 : S_.BroadcastsInDim S64x512x1 (![] : Fin 0 → Fin S64x512x1.rank)
  reducesTo_S64x512x1_S_d0_1_2 : S64x512x1.ReducesTo [0, 1, 2] S_
  slices_S64x512x3_S64x512x1_0_0_2 : S64x512x3.Slices ![0, 0, 2] S64x512x1

variable [Facts]

def fn_part3 {F : FTy → Type} [FloatOps F] (main_arg2 : IVec S64x512x3 32) (main_v48 : IVec S_ 1) (main_v49 : IVec S64x512x1 32) (main_v50 : IVec S64x512x1 32) : IVec S_ 1 :=
  let main_v51 : IVec S64x512x1 1 := cmpi .sge main_v49 main_v50
  let main_v52 : IVec S64x512x1 32 := (extractStridedSlice S64x512x1 ![0, 0, 0] · slices_S64x512x3_S64x512x1_0_0_0) main_arg2
  let main_c_19 : IVec S_ 32 := constantI S_ 32 256#32
  let main_v53 : IVec S64x512x1 32 := broadcastInDim S64x512x1 ![] bcast_S_S64x512x1 main_c_19
  let main_v54 : IVec S64x512x1 1 := cmpi .slt main_v52 main_v53
  let main_v55 : IVec S64x512x1 1 := andi main_v51 main_v54
  let main_c_20 : IVec S_ 1 := constantI S_ 1 1#1
  let main_v56 : IVec S_ 1 := (fun x v => Host.reduce IntOp.andi x v reducesTo_S64x512x1_S_d0_1_2 h_S_) main_v55 main_c_20
  let main_v57 : IVec S_ 1 := andi main_v48 main_v56
  let main_v58 : IVec S64x512x1 32 := (extractStridedSlice S64x512x1 ![0, 0, 2] · slices_S64x512x3_S64x512x1_0_0_2) main_arg2
  let main_c_21 : IVec S_ 32 := constantI S_ 32 0#32
  let main_v59 : IVec S64x512x1 32 := broadcastInDim S64x512x1 ![] bcast_S_S64x512x1 main_c_21
  let main_v60 : IVec S64x512x1 1 := cmpi .sge main_v58 main_v59
  let main_v61 : IVec S64x512x1 32 := (extractStridedSlice S64x512x1 ![0, 0, 2] · slices_S64x512x3_S64x512x1_0_0_2) main_arg2
  let main_c_22 : IVec S_ 32 := constantI S_ 32 256#32
  let main_v62 : IVec S64x512x1 32 := broadcastInDim S64x512x1 ![] bcast_S_S64x512x1 main_c_22
  let main_v63 : IVec S64x512x1 1 := cmpi .slt main_v61 main_v62
  let main_v64 : IVec S64x512x1 1 := andi main_v60 main_v63
  let main_c_23 : IVec S_ 1 := constantI S_ 1 1#1
  let main_v65 : IVec S_ 1 := (fun x v => Host.reduce IntOp.andi x v reducesTo_S64x512x1_S_d0_1_2 h_S_) main_v64 main_c_23
  let main_v66 : IVec S_ 1 := andi main_v57 main_v65
  main_v66

def fn_part2 {F : FTy → Type} [FloatOps F] (main_arg2 : IVec S64x512x3 32) (main_arg8 : FVec F S512 .f32) (main_arg9 : FVec F S512x512 .f32) (main_arg10 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : IVec S64x512x1 32 := (extractStridedSlice S64x512x1 ![0, 0, 0] · slices_S64x512x3_S64x512x1_0_0_0) main_arg2
  let main_c_18 : IVec S_ 32 := constantI S_ 32 0#32
  let main_v50 : IVec S64x512x1 32 := broadcastInDim S64x512x1 ![] bcast_S_S64x512x1 main_c_18
  fn_part3 (F := F) main_arg2 main_v48 main_v49 main_v50

def fn_part1 {F : FTy → Type} [FloatOps F] (main_arg2 : IVec S64x512x3 32) (main_arg5 : FVec F S512x1536 .f32) (main_arg6 : FVec F S1536 .f32) (main_arg7 : FVec F S512x512 .f32) (main_arg8 : FVec F S512 .f32) (main_arg9 : FVec F S512x512 .f32) (main_arg10 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1536 .f32 := Host.absf main_arg5
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  let main_v24 : FVec F S1536 .f32 := Host.absf main_arg6
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S64x256x512 .f32) (main_arg1 : FVec F S64x512x512 .f32) (main_arg2 : IVec S64x512x3 32) (main_arg3 : FVec F S1536x512 .f32) (main_arg4 : FVec F S512 .f32) (main_arg5 : FVec F S512x1536 .f32) (main_arg6 : FVec F S1536 .f32) (main_arg7 : FVec F S512x512 .f32) (main_arg8 : FVec F S512 .f32) (main_arg9 : FVec F S512x512 .f32) (main_arg10 : FVec F S512 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S1536x512 .f32 := Host.absf main_arg3
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_v13 main_v16
-- ==== Kernel.lean ====
abbrev S64x256x512 : Shape := ⟨3, ![64, 256, 512]⟩
abbrev S64x512x512 : Shape := ⟨3, ![64, 512, 512]⟩
abbrev S64x512x3 : Shape := ⟨3, ![64, 512, 3]⟩
abbrev S1536x512 : Shape := ⟨2, ![1536, 512]⟩
abbrev S512 : Shape := ⟨1, ![512]⟩
abbrev S512x1536 : Shape := ⟨2, ![512, 1536]⟩
abbrev S1536 : Shape := ⟨1, ![1536]⟩
abbrev S512x512 : Shape := ⟨2, ![512, 512]⟩
abbrev S64x512x1 : Shape := ⟨3, ![64, 512, 1]⟩
abbrev S64x512 : Shape := ⟨2, ![64, 512]⟩
abbrev S64x1x512 : Shape := ⟨3, ![64, 1, 512]⟩
abbrev S512x1024 : Shape := ⟨2, ![512, 1024]⟩
abbrev S2x256x512 : Shape := ⟨3, ![2, 256, 512]⟩
abbrev S2x512x512 : Shape := ⟨3, ![2, 512, 512]⟩
abbrev S2x1x512 : Shape := ⟨3, ![2, 1, 512]⟩
abbrev S1x256x512 : Shape := ⟨3, ![1, 256, 512]⟩
abbrev S256x512 : Shape := ⟨2, ![256, 512]⟩
abbrev S1x512x512 : Shape := ⟨3, ![1, 512, 512]⟩
abbrev S1x1x512 : Shape := ⟨3, ![1, 1, 512]⟩
abbrev S512x256 : Shape := ⟨2, ![512, 256]⟩
abbrev S512x1 : Shape := ⟨2, ![512, 1]⟩
abbrev S256 : Shape := ⟨1, ![256]⟩
abbrev S256x1024 : Shape := ⟨2, ![256, 1024]⟩
abbrev S1x512 : Shape := ⟨2, ![1, 512]⟩
abbrev S256x1 : Shape := ⟨2, ![256, 1]⟩

abbrev nBuf : Space → Nat
  | .hbm => 37
  | .vmem => 25
  | .smem => 0
  | _ => 0

abbrev bufTy : (tb : Table) → Fin (tcTables nBuf tb) → BufTy
  | .hbm, ⟨0, _⟩ => ⟨S64x256x512, .f32⟩
  | .hbm, ⟨1, _⟩ => ⟨S64x512x512, .f32⟩
  | .hbm, ⟨2, _⟩ => ⟨S64x512x3, .i32⟩
  | .hbm, ⟨3, _⟩ => ⟨S1536x512, .f32⟩
  | .hbm, ⟨4, _⟩ => ⟨S512, .f32⟩
  | .hbm, ⟨5, _⟩ => ⟨S512x1536, .f32⟩
  | .hbm, ⟨6, _⟩ => ⟨S1536, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S64x512x1, .i32⟩
  | .hbm, ⟨12, _⟩ => ⟨S64x512, .i32⟩
  | .hbm, ⟨13, _⟩ => ⟨S64x1x512, .i32⟩
  | .hbm, ⟨14, _⟩ => ⟨S64x512x1, .i32⟩
  | .hbm, ⟨15, _⟩ => ⟨S64x512, .i32⟩
  | .hbm, ⟨16, _⟩ => ⟨S64x1x512, .i32⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S512x512, .f32⟩
  | .hbm, ⟨22, _⟩ => ⟨S512x512, .bf16⟩
  | .hbm, ⟨23, _⟩ => ⟨S512x1024, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S512x512, .f32⟩
  | .hbm, ⟨29, _⟩ => ⟨S512x512, .bf16⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512x512, .bf16⟩
  | .hbm, ⟨34, _⟩ => ⟨S512x512, .bf16⟩
  | .hbm, ⟨35, _⟩ => ⟨S64x256x512, .f32⟩
  | .hbm, ⟨36, _⟩ => ⟨S64x512x512, .f32⟩
  | .local _ .vmem, ⟨0, _⟩ => ⟨S2x256x512, .f32⟩
  | .local _ .vmem, ⟨1, _⟩ => ⟨S2x256x512, .f32⟩
  | .local _ .vmem, ⟨2, _⟩ => ⟨S2x512x512, .f32⟩
  | .local _ .vmem, ⟨3, _⟩ => ⟨S2x512x512, .f32⟩
  | .local _ .vmem, ⟨4, _⟩ => ⟨S2x1x512, .i32⟩
  | .local _ .vmem, ⟨5, _⟩ => ⟨S2x1x512, .i32⟩
  | .local _ .vmem, ⟨6, _⟩ => ⟨S2x1x512, .i32⟩
  | .local _ .vmem, ⟨7, _⟩ => ⟨S2x1x512, .i32⟩
  | .local _ .vmem, ⟨8, _⟩ => ⟨S512x1024, .bf16⟩
  | .local _ .vmem, ⟨9, _⟩ => ⟨S512x512, .bf16⟩
  | .local _ .vmem, ⟨10, _⟩ => ⟨S512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512x512, .bf16⟩
  | .local _ .vmem, ⟨18, _⟩ => ⟨S512, .f32⟩
  | .local _ .vmem, ⟨19, _⟩ => ⟨S512x512, .bf16⟩
  | .local _ .vmem, ⟨20, _⟩ => ⟨S512, .f32⟩
  | .local _ .vmem, ⟨21, _⟩ => ⟨S2x256x512, .f32⟩
  | .local _ .vmem, ⟨22, _⟩ => ⟨S2x256x512, .f32⟩
  | .local _ .vmem, ⟨23, _⟩ => ⟨S2x512x512, .f32⟩
  | .local _ .vmem, ⟨24, _⟩ => ⟨S2x512x512, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S64x512x3_S64x512x1_0_0_0 : S64x512x3.Slices ![0, 0, 0] S64x512x1
  shapeCasts_S64x512x1_S64x512 : S64x512x1.ShapeCasts S64x512
  shapeCasts_S64x512_S64x1x512 : S64x512.ShapeCasts S64x1x512
  slices_S64x512x3_S64x512x1_0_0_2 : S64x512x3.Slices ![0, 0, 2] S64x512x1
  slices_S1536x512_S512x512_0_0 : S1536x512.Slices ![0, 0] S512x512
  bitsLt_bf16_f32 : FTy.bits .bf16 < FTy.bits .f32
  slices_S1536x512_S512x512_512_0 : S1536x512.Slices ![512, 0] S512x512
  slices_S1536x512_S512x512_1024_0 : S1536x512.Slices ![1024, 0] S512x512
  concatenates_S512x512_S512x512_S512x1024_d1 : Shape.Concatenates [S512x512, S512x512] S512x1024 1
  slices_S512x1536_S512x512_0_0 : S512x1536.Slices ![0, 0] S512x512
  slices_S512x1536_S512x512_0_512 : S512x1536.Slices ![0, 512] S512x512
  slices_S512x1536_S512x512_0_1024 : S512x1536.Slices ![0, 1024] S512x512
  slices_S1536_S512_0 : S1536.Slices ![0] S512
  slices_S1536_S512_512 : S1536.Slices ![512] S512
  slices_S1536_S512_1024 : S1536.Slices ![1024] S512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  inb_S2x256x512_S1x256x512_0_0_0 : ∀ a, (![0, 0, 0] : Fin 3 → Nat) a + S1x256x512.size a ≤ S2x256x512.size a
  h_S1x256x512 : 0 < S1x256x512.numel
  shapeCasts_S1x256x512_S256x512 : S1x256x512.ShapeCasts S256x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S2x1x512_S1x1x512_0_0_0 : ∀ a, (![0, 0, 0] : Fin 3 → Nat) a + S1x1x512.size a ≤ S2x1x512.size a
  h_S1x1x512 : 0 < S1x1x512.numel
  shapeCasts_S1x1x512_S512 : S1x1x512.ShapeCasts S512
  iota_S512x256_d1_w32 : S512x256.Iotas .tc 32 [1]
  shapeCasts_S512_S512x1 : S512.ShapeCasts S512x1
  broadcasts_S512x1_S512x256 : S512x1.Broadcasts S512x256
  natLt_1_32 : 1 < 32
  reduces_S512x256_S256 : S512x256.Reduces [0] S256
  slices_S256x1024_o0_0_S256x512 : S256x1024.Slices ![0, 0] S256x512
  slices_S256x1024_o0_512_S256x512 : S256x1024.Slices ![0, 512] S256x512
  shapeCasts_S512_S1x512 : S512.ShapeCasts S1x512
  broadcasts_S1x512_S512x512 : S1x512.Broadcasts S512x512
  transposes_S512x256_p1_0_S256x512 : S512x256.Transposes [1, 0] S256x512
  shapeCasts_S256_S256x1 : S256.ShapeCasts S256x1
  broadcasts_S256x1_S256x512 : S256x1.Broadcasts S256x512
  broadcasts_S1x512_S256x512 : S1x512.Broadcasts S256x512
  shapeCasts_S256x512_S1x256x512 : S256x512.ShapeCasts S1x256x512
  shapeCasts_S512x512_S1x512x512 : S512x512.ShapeCasts S1x512x512
  inb_S2x256x512_S1x256x512_1_0_0 : ∀ a, (![1, 0, 0] : Fin 3 → Nat) a + S1x256x512.size a ≤ S2x256x512.size a
  inb_S2x512x512_S1x512x512_1_0_0 : ∀ a, (![1, 0, 0] : Fin 3 → Nat) a + S1x512x512.size a ≤ S2x512x512.size a
  inb_S2x1x512_S1x1x512_1_0_0 : ∀ a, (![1, 0, 0] : Fin 3 → Nat) a + S1x1x512.size a ≤ S2x1x512.size a
  dot_S256x512_S512x1024_S256x1024_1_0_0_1_n_n_wf : DotDims.WF S256x512 S512x1024 S256x1024 [1] [0] [0] [1] [] []
  dot_S512x256_S256x512_S512x512_1_0_0_1_n_n_wf : DotDims.WF S512x256 S256x512 S512x512 [1] [0] [0] [1] [] []
  dot_S512x512_S512x512_S512x512_1_0_0_1_n_n_wf : DotDims.WF S512x512 S512x512 S512x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x512.size a ≤ S64x256x512.size a
  hwx0_0 : ∀ i : grid0.Coords, EltTy.bits .f32 = 32 ∨ (Rect.block (s := S64x256x512) S2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .f32 = 32 ∨ (Rect.block (s := S64x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x512.size a ≤ S64x1x512.size a
  hwx0_2 : ∀ i : grid0.Coords, EltTy.bits .i32 = 32 ∨ (Rect.block (s := S64x1x512) S2x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x512.size a ≤ S64x1x512.size a
  hwx0_3 : ∀ i : grid0.Coords, EltTy.bits .i32 = 32 ∨ (Rect.block (s := S64x1x512) S2x1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .bf16 = 32 ∨ (Rect.block (s := S512x512) S512x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2x256x512.size a ≤ S64x256x512.size a
  hwx0_17 : ∀ i : grid0.Coords, EltTy.bits .f32 = 32 ∨ (Rect.block (s := S64x256x512) S2x256x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x512x512.size a ≤ S64x512x512.size a
  hwx0_18 : ∀ i : grid0.Coords, EltTy.bits .f32 = 32 ∨ (Rect.block (s := S64x512x512) S2x512x512.size (cc0_transform_18 i) (hinb0_18 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg8) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v23) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg10) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v24_0) S2x256x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v24_1) S2x512x512.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S64x512x512 : Shape := ⟨3, ![64, 512, 512]⟩
abbrev S64x512x3 : Shape := ⟨3, ![64, 512, 3]⟩
abbrev S1536x512 : Shape := ⟨2, ![1536, 512]⟩
abbrev S512 : Shape := ⟨1, ![512]⟩
abbrev S512x1536 : Shape := ⟨2, ![512, 1536]⟩
abbrev S1536 : Shape := ⟨1, ![1536]⟩
abbrev S512x512 : Shape := ⟨2, ![512, 512]⟩
abbrev S64x512x1 : Shape := ⟨3, ![64, 512, 1]⟩
abbrev S64x512 : Shape := ⟨2, ![64, 512]⟩
abbrev S_ : Shape := ⟨0, ![]⟩
abbrev S1 : Shape := ⟨1, ![1]⟩
abbrev S1x1x1 : Shape := ⟨3, ![1, 1, 1]⟩
abbrev S64x512x1536 : Shape := ⟨3, ![64, 512, 1536]⟩
abbrev S1x1x512 : Shape := ⟨3, ![1, 1, 512]⟩
abbrev S1x1x1536 : Shape := ⟨3, ![1, 1, 1536]⟩
abbrev S64 : Shape := ⟨1, ![64]⟩
abbrev S64x1 : Shape := ⟨2, ![64, 1]⟩
abbrev S64x512x2 : Shape := ⟨3, ![64, 512, 2]⟩
abbrev S64x256 : Shape := ⟨2, ![64, 256]⟩
abbrev S64x256x1 : Shape := ⟨3, ![64, 256, 1]⟩

abbrev nBuf : Space → Nat
  | .hbm => 183
  | .vmem => 0
  | .smem => 0
  | _ => 0

abbrev hbmTy0_0 (i : Nat) : BufTy := match i % 128 with
  | 0 => ⟨S64x256x512, .f32⟩
  | 1 => ⟨S64x512x512, .f32⟩
  | 2 => ⟨S64x512x3, .i32⟩
  | 3 => ⟨S1536x512, .f32⟩
  | 4 => ⟨S512, .f32⟩
  | 5 => ⟨S512x1536, .f32⟩
  | 6 => ⟨S1536, .f32⟩
  | 7 => ⟨S512x512, .f32⟩
  | 8 => ⟨S512, .f32⟩
  | 9 => ⟨S512x512, .f32⟩
  | 10 => ⟨S512, .f32⟩
  | 11 => ⟨S64x512x1, .i32⟩
  | 12 => ⟨S64x512, .i32⟩
  | 13 => ⟨S64x512x1, .i32⟩
  | 14 => ⟨S64x512, .i32⟩
  | 15 => ⟨S64x512x1, .i32⟩
  | 16 => ⟨S_, .i32⟩
  | 17 => ⟨S64x512x1, .i32⟩
  | 18 => ⟨S64x512x1, .i1⟩
  | 19 => ⟨S_, .i32⟩
  | 20 => ⟨S64x512x1, .i32⟩
  | 21 => ⟨S64x512x1, .i32⟩
  | 22 => ⟨S64x512x1, .i32⟩
  | 23 => ⟨S1, .i32⟩
  | 24 => ⟨S_, .i32⟩
  | 25 => ⟨S64x512x1, .i32⟩
  | 26 => ⟨S64x512x1, .i1⟩
  | 27 => ⟨S1x1x1, .i32⟩
  | 28 => ⟨S64x512x1, .i32⟩
  | 29 => ⟨S64x512x1, .i1⟩
  | 30 => ⟨S64x512x1, .i1⟩
  | 31 => ⟨S_, .i1⟩
  | 32 => ⟨S64x512, .i1⟩
  | 33 => ⟨S64x512x512, .f32⟩
  | 34 => ⟨S64x512x512, .i1⟩
  | 35 => ⟨S_, .f32⟩
  | 36 => ⟨S64x512x512, .f32⟩
  | 37 => ⟨S64x512x512, .f32⟩
  | 38 => ⟨S64x512x1, .i32⟩
  | 39 => ⟨S_, .i32⟩
  | 40 => ⟨S64x512x1, .i32⟩
  | 41 => ⟨S64x512x1, .i1⟩
  | 42 => ⟨S_, .i32⟩
  | 43 => ⟨S64x512x1, .i32⟩
  | 44 => ⟨S64x512x1, .i32⟩
  | 45 => ⟨S64x512x1, .i32⟩
  | 46 => ⟨S1, .i32⟩
  | 47 => ⟨S_, .i32⟩
  | 48 => ⟨S64x512x1, .i32⟩
  | 49 => ⟨S64x512x1, .i1⟩
  | 50 => ⟨S1x1x1, .i32⟩
  | 51 => ⟨S64x512x1, .i32⟩
  | 52 => ⟨S64x512x1, .i1⟩
  | 53 => ⟨S64x512x1, .i1⟩
  | 54 => ⟨S_, .i1⟩
  | 55 => ⟨S64x512, .i1⟩
  | 56 => ⟨S64x512x512, .f32⟩
  | 57 => ⟨S64x512x512, .i1⟩
  | 58 => ⟨S_, .f32⟩
  | 59 => ⟨S64x512x512, .f32⟩
  | 60 => ⟨S64x512x512, .f32⟩
  | 61 => ⟨S64x512x1536, .f32⟩
  | 62 => ⟨S64x512x512, .f32⟩
  | 63 => ⟨S1x1x512, .f32⟩
  | 64 => ⟨S64x512x512, .f32⟩
  | 65 => ⟨S64x512x512, .f32⟩
  | 66 => ⟨S_, .f32⟩
  | 67 => ⟨S64x512x512, .f32⟩
  | 68 => ⟨S64x512x512, .f32⟩
  | 69 => ⟨S64x512x1536, .f32⟩
  | 70 => ⟨S1x1x1536, .f32⟩
  | 71 => ⟨S64x512x1536, .f32⟩
  | 72 => ⟨S64x512x1536, .f32⟩
  | 73 => ⟨S_, .f32⟩
  | 74 => ⟨S64x512x1536, .f32⟩
  | 75 => ⟨S64x512x1536, .f32⟩
  | 76 => ⟨S64x512x512, .f32⟩
  | 77 => ⟨S64x512x512, .f32⟩
  | 78 => ⟨S64x512x512, .f32⟩
  | 79 => ⟨S64, .i32⟩
  | 80 => ⟨S64x1, .i32⟩
  | 81 => ⟨S_, .f32⟩
  | 82 => ⟨S64x256x512, .f32⟩
  | 83 => ⟨S_, .i32⟩
  | 84 => ⟨S64x1, .i32⟩
  | 85 => ⟨S64x1, .i1⟩
  | 86 => ⟨S_, .i32⟩
  | 87 => ⟨S64x1, .i32⟩
  | 88 => ⟨S64x1, .i32⟩
  | 89 => ⟨S64x1, .i32⟩
  | 90 => ⟨S_, .i32⟩
  | 91 => ⟨S64x512, .i32⟩
  | 92 => ⟨S64x512, .i1⟩
  | 93 => ⟨S_, .i32⟩
  | 94 => ⟨S64x512, .i32⟩
  | 95 => ⟨S64x512, .i32⟩
  | 96 => ⟨S64x512, .i32⟩
  | 97 => ⟨S64x512, .i32⟩
  | 98 => ⟨S64x512x1, .i32⟩
  | 99 => ⟨S64x512x1, .i32⟩
  | 100 => ⟨S64x512x2, .i32⟩
  | 101 => ⟨S64x256x512, .f32⟩
  | 102 => ⟨S_, .i32⟩
  | 103 => ⟨S64x1, .i32⟩
  | 104 => ⟨S64x1, .i1⟩
  | 105 => ⟨S_, .i32⟩
  | 106 => ⟨S64x1, .i32⟩
  | 107 => ⟨S64x1, .i32⟩
  | 108 => ⟨S64x1, .i32⟩
  | 109 => ⟨S_, .i32⟩
  | 110 => ⟨S64x512, .i32⟩
  | 111 => ⟨S64x512, .i1⟩
  | 112 => ⟨S_, .i32⟩
  | 113 => ⟨S64x512, .i32⟩
  | 114 => ⟨S64x512, .i32⟩
  | 115 => ⟨S64x512, .i32⟩
  | 116 => ⟨S64x512, .i32⟩
  | 117 => ⟨S64x512x1, .i32⟩
  | 118 => ⟨S64x512x1, .i32⟩
  | 119 => ⟨S64x512x2, .i32⟩
  | 120 => ⟨S64x256x512, .f32⟩
  | 121 => ⟨S_, .f32⟩
  | 122 => ⟨S64x512, .f32⟩
  | 123 => ⟨S_, .f32⟩
  | 124 => ⟨S64x256, .f32⟩
  | 125 => ⟨S_, .i32⟩
  | 126 => ⟨S64x1, .i32⟩
  | 127 => ⟨S64x1, .i1⟩
  | _ => ⟨S64x256x512, .f32⟩

abbrev hbmTy0_1 (i : Nat) : BufTy := match i % 128 with
  | 0 => ⟨S_, .i32⟩
  | 1 => ⟨S64x1, .i32⟩
  | 2 => ⟨S64x1, .i32⟩
  | 3 => ⟨S64x1, .i32⟩
  | 4 => ⟨S_, .i32⟩
  | 5 => ⟨S64x512, .i32⟩
  | 6 => ⟨S64x512, .i1⟩
  | 7 => ⟨S_, .i32⟩
  | 8 => ⟨S64x512, .i32⟩
  | 9 => ⟨S64x512, .i32⟩
  | 10 => ⟨S64x512, .i32⟩
  | 11 => ⟨S64x512, .i32⟩
  | 12 => ⟨S64x512x1, .i32⟩
  | 13 => ⟨S64x512x1, .i32⟩
  | 14 => ⟨S64x512x2, .i32⟩
  | 15 => ⟨S64x256, .f32⟩
  | 16 => ⟨S_, .i32⟩
  | 17 => ⟨S64x1, .i32⟩
  | 18 => ⟨S64x1, .i1⟩
  | 19 => ⟨S_, .i32⟩
  | 20 => ⟨S64x1, .i32⟩
  | 21 => ⟨S64x1, .i32⟩
  | 22 => ⟨S64x1, .i32⟩
  | 23 => ⟨S_, .i32⟩
  | 24 => ⟨S64x512, .i32⟩
  | 25 => ⟨S64x512, .i1⟩
  | 26 => ⟨S_, .i32⟩
  | 27 => ⟨S64x512, .i32⟩
  | 28 => ⟨S64x512, .i32⟩
  | 29 => ⟨S64x512, .i32⟩
  | 30 => ⟨S64x512, .i32⟩
  | 31 => ⟨S64x512x1, .i32⟩
  | 32 => ⟨S64x512x1, .i32⟩
  | 33 => ⟨S64x512x2, .i32⟩
  | 34 => ⟨S64x256, .f32⟩
  | 35 => ⟨S_, .f32⟩
  | 36 => ⟨S64x256, .f32⟩
  | 37 => ⟨S64x256, .f32⟩
  | 38 => ⟨S64x256x1, .f32⟩
  | 39 => ⟨S64x256x512, .f32⟩
  | 40 => ⟨S64x256x512, .f32⟩
  | 41 => ⟨S64x256x512, .f32⟩
  | 42 => ⟨S1x1x512, .f32⟩
  | 43 => ⟨S64x256x512, .f32⟩
  | 44 => ⟨S64x256x512, .f32⟩
  | 45 => ⟨S_, .f32⟩
  | 46 => ⟨S64x256x512, .f32⟩
  | 47 => ⟨S64x256x512, .f32⟩
  | 48 => ⟨S64x256x512, .f32⟩
  | 49 => ⟨S1x1x512, .f32⟩
  | 50 => ⟨S64x256x512, .f32⟩
  | 51 => ⟨S64x256x512, .f32⟩
  | 52 => ⟨S_, .f32⟩
  | 53 => ⟨S64x256x512, .f32⟩
  | 54 => ⟨S64x256x512, .f32⟩
  | _ => ⟨S64x256x512, .f32⟩

abbrev hbmTy (i : Nat) : BufTy := match i / 128 with
  | 0 => hbmTy0_0 i
  | 1 => hbmTy0_1 i
  | _ => ⟨S64x256x512, .f32⟩

abbrev bufTy : (tb : Table) → Fin (tcTables nBuf tb) → BufTy
  | .hbm, ⟨i, _⟩ => hbmTy i
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_c_2 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c_3 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v5 : Ref sig .tc := ⟨.hbm, 37, rfl⟩
abbrev main_v6 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_call2_cst : Ref sig .tc := ⟨.hbm, 66, rfl⟩
abbrev main_call2_v0 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_call3_cst : Ref sig .tc := ⟨.hbm, 73, rfl⟩
abbrev main_call3_v0 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_cst : Ref sig .tc := ⟨.hbm, 81, rfl⟩
abbrev main_v24 : Ref sig .tc := ⟨.hbm, 82, rfl⟩
abbrev main_c : Ref sig .tc := ⟨.hbm, 83, rfl⟩
abbrev main_v25 : Ref sig .tc := ⟨.hbm, 84, rfl⟩
abbrev main_v26 : Ref sig .tc := ⟨.hbm, 85, rfl⟩
abbrev main_c_0 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_c_1 : Ref sig .tc := ⟨.hbm, 90, rfl⟩
abbrev main_v30 : Ref sig .tc := ⟨.hbm, 91, rfl⟩
abbrev main_v31 : Ref sig .tc := ⟨.hbm, 92, rfl⟩
abbrev main_c_2 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_c_3 : Ref sig .tc := ⟨.hbm, 102, rfl⟩
abbrev main_v40 : Ref sig .tc := ⟨.hbm, 103, rfl⟩
abbrev main_v41 : Ref sig .tc := ⟨.hbm, 104, rfl⟩
abbrev main_c_4 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_c_5 : Ref sig .tc := ⟨.hbm, 109, rfl⟩
abbrev main_v45 : Ref sig .tc := ⟨.hbm, 110, rfl⟩
abbrev main_v46 : Ref sig .tc := ⟨.hbm, 111, rfl⟩
abbrev main_c_6 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_cst_7 : Ref sig .tc := ⟨.hbm, 121, rfl⟩
abbrev main_v55 : Ref sig .tc := ⟨.hbm, 122, rfl⟩
abbrev main_cst_8 : Ref sig .tc := ⟨.hbm, 123, rfl⟩
abbrev main_v56 : Ref sig .tc := ⟨.hbm, 124, rfl⟩
abbrev main_c_9 : Ref sig .tc := ⟨.hbm, 125, rfl⟩
abbrev main_v57 : Ref sig .tc := ⟨.hbm, 126, rfl⟩
abbrev main_v58 : Ref sig .tc := ⟨.hbm, 127, rfl⟩
abbrev main_c_10 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_c_11 : Ref sig .tc := ⟨.hbm, 132, rfl⟩
abbrev main_v62 : Ref sig .tc := ⟨.hbm, 133, rfl⟩
abbrev main_v63 : Ref sig .tc := ⟨.hbm, 134, rfl⟩
abbrev main_c_12 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_c_13 : Ref sig .tc := ⟨.hbm, 144, rfl⟩
abbrev main_v72 : Ref sig .tc := ⟨.hbm, 145, rfl⟩
abbrev main_v73 : Ref sig .tc := ⟨.hbm, 146, rfl⟩
abbrev main_c_14 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_c_15 : Ref sig .tc := ⟨.hbm, 151, rfl⟩
abbrev main_v77 : Ref sig .tc := ⟨.hbm, 152, rfl⟩
abbrev main_v78 : Ref sig .tc := ⟨.hbm, 153, rfl⟩
abbrev main_c_16 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_cst_17 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_call4_cst : Ref sig .tc := ⟨.hbm, 173, rfl⟩
abbrev main_call4_v0 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_call5_cst : Ref sig .tc := ⟨.hbm, 180, rfl⟩
abbrev main_call5_v0 : Ref sig .tc := ⟨.hbm, 181, rfl⟩
abbrev main_v101 : Ref sig .tc := ⟨.hbm, 182, rfl⟩

abbrev nD : Nat := 1
abbrev τ : Topo := Topo.v7x

variable {F : FTy → Type} [FloatOps F]

class Facts₀ : Prop where
  slices_S64x512x3_S64x512x1_0_0_0 : S64x512x3.Slices ![0, 0, 0] S64x512x1
  shapeCasts_S64x512x1_S64x512 : S64x512x1.ShapeCasts S64x512
  slices_S64x512x3_S64x512x1_0_0_2 : S64x512x3.Slices ![0, 0, 2] S64x512x1
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x512_0_1 : S64x512.BroadcastsInDim S64x512x512 (![0, 1] : Fin 2 → Fin S64x512x512.rank)
  bcast_S_S64x512x512 : S_.BroadcastsInDim S64x512x512 (![] : Fin 0 → Fin S64x512x512.rank)
  concatenates_S64x512x512_S64x512x512_S64x512x512_S64x512x1536_d2 : Shape.Concatenates [S64x512x512, S64x512x512, S64x512x512] S64x512x1536 2
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S1536_S1x1x1536_2 : S1536.BroadcastsInDim S1x1x1536 (![2] : Fin 1 → Fin S1x1x1536.rank)
  bcast_S1x1x1536_S64x512x1536_0_1_2 : S1x1x1536.BroadcastsInDim S64x512x1536 (![0, 1, 2] : Fin 3 → Fin S64x512x1536.rank)
  bcast_S_S64x512x1536 : S_.BroadcastsInDim S64x512x1536 (![] : Fin 0 → Fin S64x512x1536.rank)
  slices_S64x512x1536_S64x512x512_0_0_0 : S64x512x1536.Slices ![0, 0, 0] S64x512x512
  slices_S64x512x1536_S64x512x512_0_0_512 : S64x512x1536.Slices ![0, 0, 512] S64x512x512
  slices_S64x512x1536_S64x512x512_0_0_1024 : S64x512x1536.Slices ![0, 0, 1024] S64x512x512
  bcast_S64_S64x1_0 : S64.BroadcastsInDim S64x1 (![0] : Fin 1 → Fin S64x1.rank)
  bcast_S_S64x256x512 : S_.BroadcastsInDim S64x256x512 (![] : Fin 0 → Fin S64x256x512.rank)
  bcast_S_S64x1 : S_.BroadcastsInDim S64x1 (![] : Fin 0 → Fin S64x1.rank)
  bcast_S_S64x512 : S_.BroadcastsInDim S64x512 (![] : Fin 0 → Fin S64x512.rank)
  bcast_S64x1_S64x512_0_1 : S64x1.BroadcastsInDim S64x512 (![0, 1] : Fin 2 → Fin S64x512.rank)
  concatenates_S64x512x1_S64x512x1_S64x512x2_d2 : Shape.Concatenates [S64x512x1, S64x512x1] S64x512x2 2
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S64x256x1_S64x256x512_0_1_2 : S64x256x1.BroadcastsInDim S64x256x512 (![0, 1, 2] : Fin 3 → Fin S64x256x512.rank)
  bcast_S1x1x512_S64x256x512_0_1_2 : S1x1x512.BroadcastsInDim S64x256x512 (![0, 1, 2] : Fin 3 → Fin S64x256x512.rank)
  gather_S64x256x512_S64x512x1_S64x512x512_2_1_0_0_1_2_11512_wf : GatherDims.WF S64x256x512 S64x512x1 S64x512x512 [2] [1] [0] [1] [0] 2 ![1, 1, 512]
  dot_S64x512x1536_S1536x512_S64x512x512_2_0_01_1_n_n_wf : DotDims.WF S64x512x1536 S1536x512 S64x512x512 [2] [0] [0, 1] [1] [] []
  dot_S64x512x512_S512x1536_S64x512x1536_2_0_01_1_n_n_wf : DotDims.WF S64x512x512 S512x1536 S64x512x1536 [2] [0] [0, 1] [1] [] []
  scatter_S64x256x512_S64x512x2_S64x512x512_2_01_01_2_wf : ScatterDims.WF S64x256x512 S64x512x2 S64x512x512 [2] [0, 1] [0, 1] 2
  scatter_S64x256_S64x512x2_S64x512_n_01_01_2_wf : ScatterDims.WF S64x256 S64x512x2 S64x512 [] [0, 1] [0, 1] 2
  dot_S64x256x512_S512x512_S64x256x512_2_0_01_1_n_n_wf : DotDims.WF S64x256x512 S512x512 S64x256x512 [2] [0] [0, 1] [1] [] []

variable [Facts₀]

def gather_S64x256x512_S64x512x1_S64x512x512_2_1_0_0_1_2_11512 : GatherDims S64x256x512 S64x512x1 S64x512x512 where
  offsetDims := [2]
  collapsedSliceDims := [1]
  operandBatchingDims := [0]
  startIndicesBatchingDims := [0]
  startIndexMap := [1]
  indexVectorDim := 2
  sliceSizes := ![1, 1, 512]
  wf := gather_S64x256x512_S64x512x1_S64x512x512_2_1_0_0_1_2_11512_wf
def dot_S64x512x1536_S1536x512_S64x512x512_2_0_01_1_n_n : DotDims S64x512x1536 S1536x512 S64x512x512 where
  lhsContracting := [2]
  rhsContracting := [0]
  lhsNonContracting := [0, 1]
  rhsNonContracting := [1]
  lhsBatch := []
  rhsBatch := []
  wf := dot_S64x512x1536_S1536x512_S64x512x512_2_0_01_1_n_n_wf
def dot_S64x512x512_S512x1536_S64x512x1536_2_0_01_1_n_n : DotDims S64x512x512 S512x1536 S64x512x1536 where
  lhsContracting := [2]
  rhsContracting := [0]
  lhsNonContracting := [0, 1]
  rhsNonContracting := [1]
  lhsBatch := []
  rhsBatch := []
  wf := dot_S64x512x512_S512x1536_S64x512x1536_2_0_01_1_n_n_wf
def scatter_S64x256x512_S64x512x2_S64x512x512_2_01_01_2 : ScatterDims S64x256x512 S64x512x2 S64x512x512 where
  updateWindowDims := [2]
  insertedWindowDims := [0, 1]
  scatterDimsToOperandDims := [0, 1]
  indexVectorDim := 2
  wf := scatter_S64x256x512_S64x512x2_S64x512x512_2_01_01_2_wf
def scatter_S64x256_S64x512x2_S64x512_n_01_01_2 : ScatterDims S64x256 S64x512x2 S64x512 where
  updateWindowDims := []
  insertedWindowDims := [0, 1]
  scatterDimsToOperandDims := [0, 1]
  indexVectorDim := 2
  wf := scatter_S64x256_S64x512x2_S64x512_n_01_01_2_wf
def dot_S64x256x512_S512x512_S64x256x512_2_0_01_1_n_n : DotDims S64x256x512 S512x512 S64x256x512 where
  lhsContracting := [2]
  rhsContracting := [0]
  lhsNonContracting := [0, 1]
  rhsNonContracting := [1]
  lhsBatch := []
  rhsBatch := []
  wf := dot_S64x256x512_S512x512_S64x256x512_2_0_01_1_n_n_wf

class Facts : Prop extends Facts₀ where

variable [Facts]
-- ==== Proof.LibNary3.lean ====
/-
  A host operation over a LITERAL family of three references — a concatenation of three operands — leaves at its result
  reference its function of the three operands' contents, each read AT ITS OWN REFERENCE.

  The general statement for a family `xs : Fin n → Ref` gives the operands as `fun k => F (xs k)`; under that binder the
  reference `![x, a, b] k` is no literal, so nothing further can be said about the contents there. Spelling the family out
  (`Fin.cons` of the three contents) keeps each operand's contents at a literal reference, where the operations before it
  can be read in turn. The library states this for four references; this is the same statement for three.
-/
import Idealize.ShloMosaic.Lib.StableHlo.Run

noncomputable section

namespace Idealize.ShloMosaic.StableHlo

open Idealize.SL.Sem

variable {τ : Topo} {sig : RefSig} {Val : EltTy → Type} {x a b y : Ref sig .tc}

/-- The result of an operation over the three references `x`, `a`, `b`, with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a one-pass `simp` over an operation list uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Spec.lean ====
/-
  One layer of graph convolution over the (subject, predicate, object) triples of a scene graph, on the extended reals.

  A graph has 256 nodes carrying 512-vectors `x n` and 512 triples carrying 512-vectors `p t`; triple `t` joins its
  subject node `s t` to its object node `o t`. The first network maps the concatenation [x (s t) | p t | x (o t)] through
  a linear layer (its 1536 input rows split in three blocks `w1s | w1p | w1o`), a ReLU, and a second linear layer whose
  1536 output columns again split in three (`w2s | w2p | w2o`), with a ReLU: a new subject candidate `edgeS t`, the new
  triple vector `edgeP t` and a new object candidate `edgeO t`. Every node averages the candidates of the triples it
  occurs in, as subject and as object (`gathered n / degree n`, the degree at least 1), and the second network
  (linear, ReLU, linear, ReLU) maps that average to the node's new vector `nodeOut n`.

  The sums are plain finite sums of extended reals; a product with a node indicator is written as an `if`.
-/
import Idealize.ShloMosaic.PureOps.Ideal
import Idealize.ShloMosaic.Lib.ValueIdx

noncomputable section

open scoped BigOperators

namespace Cert.TripleConv

open Idealize.ShloMosaic Idealize.ShloMosaic.ValueIdx

/-- The parameters of the two networks, the first one's matrices split in their three row / column blocks. -/
structure Weights where
  w1s : Fin 512 → Fin 512 → EReal
  w1p : Fin 512 → Fin 512 → EReal
  w1o : Fin 512 → Fin 512 → EReal
  b1 : Fin 512 → EReal
  w2s : Fin 512 → Fin 512 → EReal
  w2p : Fin 512 → Fin 512 → EReal
  w2o : Fin 512 → Fin 512 → EReal
  b2s : Fin 512 → EReal
  b2p : Fin 512 → EReal
  b2o : Fin 512 → EReal
  u1 : Fin 512 → Fin 512 → EReal
  c1 : Fin 512 → EReal
  u2 : Fin 512 → Fin 512 → EReal
  c2 : Fin 512 → EReal

/-- One graph: node vectors, triple vectors, and each triple's subject and object node. -/
structure Graph where
  x : Fin 256 → Fin 512 → EReal
  p : Fin 512 → Fin 512 → EReal
  s : Fin 512 → Fin 256
  o : Fin 512 → Fin 256

variable (W : Weights) (g : Graph)

/-- The first network's hidden layer at triple `t`: the three blocks of the first matrix meet the subject's vector, the
    triple's vector and the object's vector. -/
def hidden (t h : Fin 512) : EReal :=
  max ((∑ d, g.x (g.s t) d * W.w1s d h) + (∑ d, g.p t d * W.w1p d h) + (∑ d, g.x (g.o t) d * W.w1o d h) + W.b1 h) 0

/-- The new subject candidate of triple `t`. -/
def edgeS (t k : Fin 512) : EReal := max ((∑ h, hidden W g t h * W.w2s h k) + W.b2s k) 0
/-- The new vector of triple `t`. -/
def edgeP (t k : Fin 512) : EReal := max ((∑ h, hidden W g t h * W.w2p h k) + W.b2p k) 0
/-- The new object candidate of triple `t`. -/
def edgeO (t k : Fin 512) : EReal := max ((∑ h, hidden W g t h * W.w2o h k) + W.b2o k) 0

/-- What node `n` collects: the subject candidates of the triples it is the subject of, plus the object candidates of
    the triples it is the object of. -/
def gathered (n : Fin 256) (h : Fin 512) : EReal :=
  (∑ t, if g.s t = n then edgeS W g t h else 0) + (∑ t, if g.o t = n then edgeO W g t h else 0)

/-- In how many triples node `n` occurs (a triple from a node to itself counts twice), at least 1. -/
def degree (n : Fin 256) : EReal :=
  max ((∑ t, if g.s t = n then (1 : EReal) else 0) + (∑ t, if g.o t = n then (1 : EReal) else 0)) 1

/-- The average candidate at node `n`. -/
def pooled (n : Fin 256) (h : Fin 512) : EReal := Ideal.div (gathered W g n h) (degree g n)

/-- The second network's hidden layer at node `n`. -/
def hidden2 (n : Fin 256) (k : Fin 512) : EReal := max ((∑ h, pooled W g n h * W.u1 h k) + W.c1 k) 0

/-- The new vector of node `n`. -/
def nodeOut (n : Fin 256) (j : Fin 512) : EReal := max ((∑ k, hidden2 W g n k * W.u2 k j) + W.c2 j) 0

/-! ## The arrays -/

/-- A node id word as a node: its value, folded into the node range (the identity on ids below 256). -/
def node (w : BitVec 32) : Fin 256 := ⟨w.toNat % 256, Nat.mod_lt _ (by decide)⟩

theorem node_val {w : BitVec 32} (h : w.toNat < 256) : (node w).val = w.toNat := Nat.mod_eq_of_lt h

/-- Rows (or columns) 0–511, 512–1023 and 1024–1535 of an axis of 1536. -/
def lo (d : Fin 512) : Fin 1536 := ⟨d.val, by omega⟩
def mid (d : Fin 512) : Fin 1536 := ⟨512 + d.val, by omega⟩
def hi (d : Fin 512) : Fin 1536 := ⟨1024 + d.val, by omega⟩

/-- The array types of the eleven arguments. -/
abbrev Nodes := (⟨3, ![64, 256, 512]⟩ : Shape).Idx → EReal
abbrev Triples := (⟨3, ![64, 512, 512]⟩ : Shape).Idx → EReal
abbrev Edges := (⟨3, ![64, 512, 3]⟩ : Shape).Idx → BitVec 32
abbrev Mat (r c : Nat) := (⟨2, ![r, c]⟩ : Shape).Idx → EReal
abbrev Row (n : Nat) := (⟨1, ![n]⟩ : Shape).Idx → EReal

/-- Every subject id (column 0) and object id (column 2) of the edge table names one of the 256 nodes. -/
def InRange (E : Edges) : Prop :=
  ∀ (b : Fin 64) (t : Fin 512), (E (ix3 b t (0 : Fin 3))).toNat < 256 ∧ (E (ix3 b t (2 : Fin 3))).toNat < 256

/-- The networks' parameters from the eight parameter arrays. -/
def weightsOf (W1 : Mat 1536 512) (B1 : Row 512) (W2 : Mat 512 1536) (B2 : Row 1536) (U1 : Mat 512 512) (C1 : Row 512)
    (U2 : Mat 512 512) (C2 : Row 512) : Weights where
  w1s d h := W1 (ix2 (lo d) h)
  w1p d h := W1 (ix2 (mid d) h)
  w1o d h := W1 (ix2 (hi d) h)
  b1 h := B1 (ix1 h)
  w2s h k := W2 (ix2 h (lo k))
  w2p h k := W2 (ix2 h (mid k))
  w2o h k := W2 (ix2 h (hi k))
  b2s k := B2 (ix1 (lo k))
  b2p k := B2 (ix1 (mid k))
  b2o k := B2 (ix1 (hi k))
  u1 h k := U1 (ix2 h k)
  c1 k := C1 (ix1 k)
  u2 k j := U2 (ix2 k j)
  c2 j := C2 (ix1 j)

/-- Graph `b` of the batch. -/
def graphOf (A0 : Nodes) (A1 : Triples) (E : Edges) (b : Fin 64) : Graph where
  x n d := A0 (ix3 b n d)
  p t d := A1 (ix3 b t d)
  s t := node (E (ix3 b t (0 : Fin 3)))
  o t := node (E (ix3 b t (2 : Fin 3)))

/-- The new node vectors of the whole batch, as an array. -/
def nodeArr (A0 : Nodes) (A1 : Triples) (E : Edges) (W1 : Mat 1536 512) (B1 : Row 512) (W2 : Mat 512 1536) (B2 : Row 1536)
    (U1 : Mat 512 512) (C1 : Row 512) (U2 : Mat 512 512) (C2 : Row 512) : Nodes :=
  fun i => nodeOut (weightsOf W1 B1 W2 B2 U1 C1 U2 C2) (graphOf A0 A1 E (i 0)) (i 1) (i 2)

/-- The new triple vectors of the whole batch, as an array. -/
def tripleArr (A0 : Nodes) (A1 : Triples) (E : Edges) (W1 : Mat 1536 512) (B1 : Row 512) (W2 : Mat 512 1536) (B2 : Row 1536)
    (U1 : Mat 512 512) (C1 : Row 512) (U2 : Mat 512 512) (C2 : Row 512) : Triples :=
  fun i => edgeP (weightsOf W1 B1 W2 B2 U1 C1 U2 C2) (graphOf A0 A1 E (i 0)) (i 1) (i 2)

end Cert.TripleConv

end
-- ==== Proof.PreRange.lean ====
/-
  The precondition, decoded: every subject id and every object id of the edge table names one of the 256 nodes.

  The printed precondition is a conjunction whose last two conjuncts say, of column 0 and of column 2 of the edge
  table, that every entry is at least 0 and below 256 as a signed word. A signed word in that range is below 256 as an
  unsigned word, which is how both programs read it.
-/
import proofs.«419139_j22110491640377_3_alg».proof.Defs
import proofs.«419139_j22110491640377_3_alg».proof.Proof.Gen.Pre_finite_inputs
import proofs.«419139_j22110491640377_3_alg».proof.Proof.Spec
import Idealize.ShloMosaic.Lib.ReduceAll
import Idealize.ShloMosaic.Lib.Pipeline.Value
import Idealize.ShloMosaic.Lib.StableHlo.Predicate

noncomputable section

namespace Cert.TripleConv.PreRange

open Cert.Pre_finite_inputs Cert.Pre_finite_inputs.Gen Cert.TripleConv
open Idealize.ShloMosaic Idealize.ShloMosaic.ValueIdx Idealize.ShloMosaic.StableHlo

/-- A word that is at least 0 and below 256 as a signed word is below 256 as a natural number. -/
theorem toNat_lt_of_signed (w : BitVec 32) (h0 : IntOp.cmpi .sge w 0#32 = 1#1) (h1 : IntOp.cmpi .slt w 256#32 = 1#1) :
    w.toNat < 256 := by
  have g0 : (0#32).sle w = true := (Predicate.ofBool_eq_one_iff _).mp h0
  have g1 : w.slt 256#32 = true := (Predicate.ofBool_eq_one_iff _).mp h1
  rw [BitVec.sle_iff_toInt_le] at g0
  rw [BitVec.slt_iff_toInt_lt] at g1
  have e0 : (0#32 : BitVec 32).toInt = 0 := by decide
  have e1 : (256#32 : BitVec 32).toInt = 256 := by decide
  rw [e0] at g0
  rw [e1] at g1
  have hw := w.isLt
  rw [BitVec.toInt_eq_toNat_cond] at g0 g1
  split at g0 <;> omega

instance : Subsingleton S_.Idx := ⟨fun a b => funext fun d => d.elim0⟩

/-- A one-column slice of the edge table at column 0 reads, at (b, t, 0), the subject id of triple `t` of graph `b`. -/
theorem slice_col0 (x2 : IVec S64x512x3 32) (hs : S64x512x3.Slices ![0, 0, 0] S64x512x1) (b : Fin 64) (t : Fin 512) :
    extractStridedSlice S64x512x1 ![0, 0, 0] x2 hs (ix3 b t (0 : Fin 1)) = x2 (ix3 b t (0 : Fin 3)) :=
  extractStridedSlice_apply ![0, 0, 0] x2 hs (ix3 b t (0 : Fin 1)) (ix3 b t (0 : Fin 3)) (fun a => match a with
    | ⟨0, _⟩ => by show b.val = 0 + b.val; omega
    | ⟨1, _⟩ => by show t.val = 0 + t.val; omega
    | ⟨2, _⟩ => by show 0 = 0 + 0; omega)

/-- The same at column 2: the object id. -/
theorem slice_col2 (x2 : IVec S64x512x3 32) (hs : S64x512x3.Slices ![0, 0, 2] S64x512x1) (b : Fin 64) (t : Fin 512) :
    extractStridedSlice S64x512x1 ![0, 0, 2] x2 hs (ix3 b t (0 : Fin 1)) = x2 (ix3 b t (2 : Fin 3)) :=
  extractStridedSlice_apply ![0, 0, 2] x2 hs (ix3 b t (0 : Fin 1)) (ix3 b t (2 : Fin 3)) (fun a => match a with
    | ⟨0, _⟩ => by show b.val = 0 + b.val; omega
    | ⟨1, _⟩ => by show t.val = 0 + t.val; omega
    | ⟨2, _⟩ => by show 2 = 2 + 0; omega)

/-- The precondition gives the range of the ids. -/
theorem inRange (x0 : FVec Ideal S64x256x512 .f32) (x1 : FVec Ideal S64x512x512 .f32) (x2 : IVec S64x512x3 32) (x3 : FVec Ideal S1536x512 .f32) (x4 : FVec Ideal S512 .f32) (x5 : FVec Ideal S512x1536 .f32) (x6 : FVec Ideal S1536 .f32) (x7 : FVec Ideal S512x512 .f32) (x8 : FVec Ideal S512 .f32) (x9 : FVec Ideal S512x512 .f32) (x10 : FVec Ideal S512 .f32)
    (h : Cert.Pre_finite_inputs.fn (F := Ideal) x0 x1 x2 x3 x4 x5 x6 x7 x8 x9 x10 = fun _ => 1#1) : InRange x2 := by
  have e := congrFun h ix0
  dsimp only [Cert.Pre_finite_inputs.fn, Cert.Pre_finite_inputs.fn_part1, Cert.Pre_finite_inputs.fn_part2,
    Cert.Pre_finite_inputs.fn_part3] at e
  obtain ⟨e57, e65⟩ := IntOp.andi_eq_one.mp e
  obtain ⟨-, e56⟩ := IntOp.andi_eq_one.mp e57
  intro b t
  constructor
  · have a := Host.reduce_andi_all _ _ reducesTo_S64x512x1_S_d0_1_2 h_S_ ix0 e56 (ix3 b t (0 : Fin 1))
    obtain ⟨a0, a1⟩ := IntOp.andi_eq_one.mp a
    refine toNat_lt_of_signed _ ?_ ?_
    · have := a0
      simp only [cmpi] at this
      rw [slice_col0, Predicate.bcast_scalar _ h_S_] at this
      exact this
    · have := a1
      simp only [cmpi] at this
      rw [slice_col0, Predicate.bcast_scalar _ h_S_] at this
      exact this
  · have a := Host.reduce_andi_all _ _ reducesTo_S64x512x1_S_d0_1_2 h_S_ ix0 e65 (ix3 b t (0 : Fin 1))
    obtain ⟨a0, a1⟩ := IntOp.andi_eq_one.mp a
    refine toNat_lt_of_signed _ ?_ ?_
    · have := a0
      simp only [cmpi] at this
      rw [slice_col2, Predicate.bcast_scalar _ h_S_] at this
      exact this
    · have := a1
      simp only [cmpi] at this
      rw [slice_col2, Predicate.bcast_scalar _ h_S_] at this
      exact this

end Cert.TripleConv.PreRange

end
-- ==== Proof.KerTerms.lean ====
/-
  The kernel body at one grid point, in the vocabulary of the specification.

  A grid point stages two graphs of the batch and all the parameters: seventeen input blocks. The body computes, for
  each of the two graphs, the new node vectors and the new triple vectors, and stores each as one piece of the two
  output blocks. Here the seventeen blocks are bundled (`Blocks`), the networks' parameters and the two graphs are read
  off them (`bodyWeights`, `bodyGraph`: the first matrix's subject and object blocks arrive side by side in one
  512 × 1024 block, the subject and object ids as two rows of words), and the four stored pieces are named.
-/
import proofs.«419139_j22110491640377_3_alg».proof.Proof.Gen.KernelIdeal.Frame
import proofs.«419139_j22110491640377_3_alg».proof.Proof.Spec

noncomputable section

namespace Cert.KernelIdeal.Body

open Cert.KernelIdeal Cert.KernelIdeal.Gen Cert.TripleConv
open Idealize.ShloMosaic Idealize.ShloMosaic.ValueIdx Idealize.SL.Sem

/-- The seventeen input blocks of one grid point. -/
structure Blocks where
  x0 : Vec Ideal S2x256x512 .f32
  x1 : Vec Ideal S2x512x512 .f32
  x2 : Vec Ideal S2x1x512 .i32
  x3 : Vec Ideal S2x1x512 .i32
  x4 : Vec Ideal S512x1024 .bf16
  x5 : Vec Ideal S512x512 .bf16
  x6 : Vec Ideal S512 .f32
  x7 : Vec Ideal S512x512 .bf16
  x8 : Vec Ideal S512x512 .bf16
  x9 : Vec Ideal S512x512 .bf16
  x10 : Vec Ideal S512 .f32
  x11 : Vec Ideal S512 .f32
  x12 : Vec Ideal S512 .f32
  x13 : Vec Ideal S512x512 .bf16
  x14 : Vec Ideal S512 .f32
  x15 : Vec Ideal S512x512 .bf16
  x16 : Vec Ideal S512 .f32

/-- Columns 0–511 and 512–1023 of an axis of 1024. -/
def colL (h : Fin 512) : Fin 1024 := ⟨h.val, by omega⟩
def colR (h : Fin 512) : Fin 1024 := ⟨512 + h.val, by omega⟩

/-- The networks' parameters as the body finds them in its blocks. -/
def bodyWeights (B : Blocks) : Weights where
  w1s d h := B.x4 (ix2 d (colL h))
  w1p d h := B.x5 (ix2 d h)
  w1o d h := B.x4 (ix2 d (colR h))
  b1 h := B.x6 (ix1 h)
  w2s h k := B.x7 (ix2 h k)
  w2p h k := B.x8 (ix2 h k)
  w2o h k := B.x9 (ix2 h k)
  b2s k := B.x10 (ix1 k)
  b2p k := B.x11 (ix1 k)
  b2o k := B.x12 (ix1 k)
  u1 h k := B.x13 (ix2 h k)
  c1 k := B.x14 (ix1 k)
  u2 k j := B.x15 (ix2 k j)
  c2 j := B.x16 (ix1 j)

/-- Graph `i` (of the two) of the grid point. -/
def bodyGraph (B : Blocks) (i : Fin 2) : Graph where
  x n d := B.x0 (ix3 i n d)
  p t d := B.x1 (ix3 i t d)
  s t := node (B.x2 (ix3 i (0 : Fin 1) t))
  o t := node (B.x3 (ix3 i (0 : Fin 1) t))

/-- The new node vectors of the first graph, as stored. -/
def nodePiece0 (B : Blocks) : FVec Ideal S1x256x512 .f32 :=
  k0_pay22 (k0_pay7 (View.ld B.x9 r0_1)) (k0_pay10 (View.ld B.x12 r0_2)) (k0_pay11 (View.ld B.x13 r0_1)) (View.ld B.x14 r0_2) (k0_pay12 (View.ld B.x15 r0_1)) (View.ld B.x16 r0_2) (k0_pay17 (View.ld B.x2 r0_5) (View.ld B.x3 r0_5)) (k0_pay18 (View.ld B.x2 r0_5)) (k0_pay19 (View.ld B.x3 r0_5)) (k0_pay20 (k0_pay3 (View.ld B.x4 r0_0)) (k0_pay4 (View.ld B.x5 r0_1)) (View.ld B.x6 r0_2) (k0_pay13 (View.ld B.x0 r0_3)) (k0_pay14 (View.ld B.x1 r0_4)) (View.ld B.x2 r0_5) (View.ld B.x3 r0_5)) (k0_pay21 (k0_pay3 (View.ld B.x4 r0_0)) (k0_pay4 (View.ld B.x5 r0_1)) (View.ld B.x6 r0_2) (k0_pay5 (View.ld B.x7 r0_1)) (k0_pay8 (View.ld B.x10 r0_2)) (k0_pay13 (View.ld B.x0 r0_3)) (k0_pay14 (View.ld B.x1 r0_4)) (View.ld B.x2 r0_5) (View.ld B.x3 r0_5))

/-- The new node vectors of the second graph, as stored. -/
def nodePiece1 (B : Blocks) : FVec Ideal S1x256x512 .f32 :=
  k0_pay1 (k0_pay34 (View.ld B.x6 r0_2) (k0_pay5 (View.ld B.x7 r0_1)) (k0_pay7 (View.ld B.x9 r0_1)) (k0_pay8 (View.ld B.x10 r0_2)) (k0_pay10 (View.ld B.x12 r0_2)) (k0_pay11 (View.ld B.x13 r0_1)) (View.ld B.x14 r0_2) (k0_pay12 (View.ld B.x15 r0_1)) (View.ld B.x16 r0_2) (k0_pay26 (View.ld B.x2 r0_8) (View.ld B.x3 r0_8)) (k0_pay27 (View.ld B.x2 r0_8)) (k0_pay28 (View.ld B.x3 r0_8)) (k0_pay30 (k0_pay3 (View.ld B.x4 r0_0)) (k0_pay4 (View.ld B.x5 r0_1)) (View.ld B.x0 r0_6) (View.ld B.x1 r0_7) (View.ld B.x2 r0_8)) (k0_pay31 (k0_pay3 (View.ld B.x4 r0_0)) (View.ld B.x0 r0_6) (View.ld B.x3 r0_8))) (Scalar.ofBits .f32 0x00000000#32)

/-- The new triple vectors of the first graph, as stored. -/
def triplePiece0 (B : Blocks) : FVec Ideal S1x512x512 .f32 :=
  k0_pay23 (k0_pay6 (View.ld B.x8 r0_1)) (k0_pay9 (View.ld B.x11 r0_2)) (k0_pay20 (k0_pay3 (View.ld B.x4 r0_0)) (k0_pay4 (View.ld B.x5 r0_1)) (View.ld B.x6 r0_2) (k0_pay13 (View.ld B.x0 r0_3)) (k0_pay14 (View.ld B.x1 r0_4)) (View.ld B.x2 r0_5) (View.ld B.x3 r0_5))

/-- The new triple vectors of the second graph, as stored. -/
def triplePiece1 (B : Blocks) : FVec Ideal S1x512x512 .f32 :=
  k0_pay2 (k0_pay33 (View.ld B.x6 r0_2) (k0_pay6 (View.ld B.x8 r0_1)) (k0_pay9 (View.ld B.x11 r0_2)) (k0_pay30 (k0_pay3 (View.ld B.x4 r0_0)) (k0_pay4 (View.ld B.x5 r0_1)) (View.ld B.x0 r0_6) (View.ld B.x1 r0_7) (View.ld B.x2 r0_8)) (k0_pay31 (k0_pay3 (View.ld B.x4 r0_0)) (View.ld B.x0 r0_6) (View.ld B.x3 r0_8)))

/-- The node output block after the body: the second graph's piece over the first graph's. -/
theorem out17_eq (B : Blocks) :
    out0_17 B.x0 B.x1 B.x2 B.x3 B.x4 B.x5 B.x6 B.x7 B.x8 B.x9 B.x10 B.x11 B.x12 B.x13 B.x14 B.x15 B.x16
      = View.canon [⟨r0_6, nodePiece1 B⟩, ⟨r0_3, nodePiece0 B⟩] := rfl

/-- The triple output block after the body. -/
theorem out18_eq (B : Blocks) :
    out0_18 B.x0 B.x1 B.x2 B.x3 B.x4 B.x5 B.x6 B.x7 B.x8 B.x9 B.x10 B.x11 B.x12 B.x13 B.x14 B.x15 B.x16
      = View.canon [⟨r0_7, triplePiece1 B⟩, ⟨r0_4, triplePiece0 B⟩] := rfl

end Cert.KernelIdeal.Body

end
-- ==== Proof.KerGlue.lean ====
/-
  What a grid point's blocks hold, in terms of the argument arrays: grid point `t` stages graphs `2t` and `2t + 1` of
  the batch and, at every point, the whole parameter arrays as the host operations before the launch sliced them.
-/
import proofs.«419139_j22110491640377_3_alg».proof.Proof.KerTerms
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.KernelIdeal.Body

open Cert.KernelIdeal Cert.KernelIdeal.Gen Cert.TripleConv
open Idealize.ShloMosaic Idealize.ShloMosaic.TcCoe Idealize.ShloMosaic.ValueIdx Idealize.SL.Sem

variable (m : (ℓ : Loc nD τ sig) → Buf (Elt Ideal) ℓ)

/-- The blocks grid point `t` finds. -/
def blocksAt (c : Dev nD) (t : Fin cfg0.N) : Blocks :=
  ⟨iblk m c 0 t, iblk m c 1 t, iblk m c 2 t, iblk m c 3 t, iblk m c 4 t, iblk m c 5 t, iblk m c 6 t, iblk m c 7 t, iblk m c 8 t,
   iblk m c 9 t, iblk m c 10 t, iblk m c 11 t, iblk m c 12 t, iblk m c 13 t, iblk m c 14 t, iblk m c 15 t, iblk m c 16 t⟩

/-- The batch index of graph `i` of grid point `t`. -/
def batchOf (t : Fin cfg0.N) (i : Fin 2) : Fin 64 :=
  ⟨2 * t.val + i.val, by have h : t.val < 32 := lt_of_lt_of_eq t.isLt N_0; have := i.isLt; omega⟩

/-- The windows' block indices over the grid: the graph windows move one block a point along the batch axis. -/
theorem idx_graph : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Node vectors: block `t` of the node array holds graphs `2t` and `2t + 1`. -/
theorem x0_at (c : Dev nD) (t : Fin cfg0.N) (i : Fin 2) (n : Fin 256) (d : Fin 512) :
    (blocksAt m c t).x0 (ix3 i n d) = (m ((c : Thread nD τ).loc main_arg0)) (ix3 (batchOf t i) n d) := by
  show V m c main_arg0 (((cfg0.win 0).blk t).view.emb (ix3 i n d)) = _
  rw [V_main_arg0]
  obtain ⟨e0, e1, e2, -⟩ := idx_graph t
  refine congrArg _ (funext fun a => Fin.ext ?_)
  match a with
  | ⟨0, _⟩ => show win0_0.index t (0 : Fin 3) * 2 + 1 * i.val = 2 * t.val + i.val; omega
  | ⟨1, _⟩ => show win0_0.index t (1 : Fin 3) * 256 + 1 * n.val = n.val; omega
  | ⟨2, _⟩ => show win0_0.index t (2 : Fin 3) * 512 + 1 * d.val = d.val; omega

/-- Triple vectors: block `t` of the triple array holds graphs `2t` and `2t + 1`. -/
theorem x1_at (c : Dev nD) (t : Fin cfg0.N) (i : Fin 2) (k : Fin 512) (d : Fin 512) :
    (blocksAt m c t).x1 (ix3 i k d) = (m ((c : Thread nD τ).loc main_arg1)) (ix3 (batchOf t i) k d) := by
  show V m c main_arg1 (((cfg0.win 1).blk t).view.emb (ix3 i k d)) = _
  rw [V_main_arg1]
  obtain ⟨-, -, -, e0, e1, e2, -⟩ := idx_graph t
  refine congrArg _ (funext fun a => Fin.ext ?_)
  match a with
  | ⟨0, _⟩ => show win0_1.index t (0 : Fin 3) * 2 + 1 * i.val = 2 * t.val + i.val; omega
  | ⟨1, _⟩ => show win0_1.index t (1 : Fin 3) * 512 + 1 * k.val = k.val; omega
  | ⟨2, _⟩ => show win0_1.index t (2 : Fin 3) * 512 + 1 * d.val = d.val; omega

/-- The subject id rows as the host operations make them: column 0 of the id table, reshaped to one row a graph. -/
theorem v2_eq (c : Dev nD) : (V m c main_v2 : S64x1x512.Idx → BitVec 32) = shapeCast S64x1x512 (shapeCast S64x512 (extractStridedSlice S64x512x1 ![0, 0, 0] (m ((c : Thread nD τ).loc main_arg2)) slices_S64x512x3_S64x512x1_0_0_0) shapeCasts_S64x512x1_S64x512) shapeCasts_S64x512_S64x1x512 := by
  dsimp only [Gen.V, Gen.hostOps0]
  after_results
  rfl

/-- The object id rows as the host operations make them: column 2 of the id table, reshaped to one row a graph. -/
theorem v5_eq (c : Dev nD) : (V m c main_v5 : S64x1x512.Idx → BitVec 32) = shapeCast S64x1x512 (shapeCast S64x512 (extractStridedSlice S64x512x1 ![0, 0, 2] (m ((c : Thread nD τ).loc main_arg2)) slices_S64x512x3_S64x512x1_0_0_2) shapeCasts_S64x512x1_S64x512) shapeCasts_S64x512_S64x1x512 := by
  dsimp only [Gen.V, Gen.hostOps0]
  after_results
  rfl

/-- Row `b` of a column of the id table, reshaped, at position `k`: the table's entry `(b, k, column)`. -/
theorem idRow_apply {α : Type} (E : S64x512x3.Idx → α) (col : Fin 3) (h1 : S64x512x3.Slices ![0, 0, col.val] S64x512x1)
    (b : Fin 64) (k : Fin 512) :
    shapeCast S64x1x512 (shapeCast S64x512 (extractStridedSlice S64x512x1 ![0, 0, col.val] E h1) shapeCasts_S64x512x1_S64x512) shapeCasts_S64x512_S64x1x512 (ix3 b (0 : Fin 1) k) = E (ix3 b k col) := by
  refine (shapeCast_apply _ shapeCasts_S64x512_S64x1x512 (ix3 b (0 : Fin 1) k) (ix2 b k) ?_).trans ?_
  · rw [Shape.rowMajor_val_two, Shape.rowMajor_val_three]
    show b.val * 512 + k.val = (b.val * 1 + 0) * 512 + k.val
    omega
  refine (shapeCast_apply _ shapeCasts_S64x512x1_S64x512 (ix2 b k) (ix3 b k (0 : Fin 1)) ?_).trans ?_
  · rw [Shape.rowMajor_val_two, Shape.rowMajor_val_three]
    show (b.val * 512 + k.val) * 1 + 0 = b.val * 512 + k.val
    omega
  refine extractStridedSlice_apply _ E h1 (ix3 b k (0 : Fin 1)) (ix3 b k col) fun a => ?_
  match a with
  | ⟨0, _⟩ => show b.val = 0 + b.val; omega
  | ⟨1, _⟩ => show k.val = 0 + k.val; omega
  | ⟨2, _⟩ => show col.val = col.val + 0; omega

/-- The subject id words of graph `i` of grid point `t`. -/
theorem subj_at (c : Dev nD) (t : Fin cfg0.N) (i : Fin 2) (k : Fin 512) :
    (blocksAt m c t).x2 (ix3 i (0 : Fin 1) k) = (m ((c : Thread nD τ).loc main_arg2)) (ix3 (batchOf t i) k (0 : Fin 3)) := by
  show V m c main_v2 (((cfg0.win 2).blk t).view.emb (ix3 i (0 : Fin 1) k)) = _
  have e : ((cfg0.win 2).blk t).view.emb (ix3 i (0 : Fin 1) k) = ix3 (batchOf t i) (0 : Fin 1) k := by
    obtain ⟨-, -, -, -, -, -, e0, e1, e2, -⟩ := idx_graph t
    refine funext fun a => Fin.ext ?_
    match a with
    | ⟨0, _⟩ => show win0_2.index t (0 : Fin 3) * 2 + 1 * i.val = 2 * t.val + i.val; omega
    | ⟨1, _⟩ => show win0_2.index t (1 : Fin 3) * 1 + 1 * 0 = 0; omega
    | ⟨2, _⟩ => show win0_2.index t (2 : Fin 3) * 512 + 1 * k.val = k.val; omega
  rw [e, v2_eq]
  exact idRow_apply (m ((c : Thread nD τ).loc main_arg2)) (0 : Fin 3) slices_S64x512x3_S64x512x1_0_0_0 (batchOf t i) k

/-- The object id words of graph `i` of grid point `t`. -/
theorem obj_at (c : Dev nD) (t : Fin cfg0.N) (i : Fin 2) (k : Fin 512) :
    (blocksAt m c t).x3 (ix3 i (0 : Fin 1) k) = (m ((c : Thread nD τ).loc main_arg2)) (ix3 (batchOf t i) k (2 : Fin 3)) := by
  show V m c main_v5 (((cfg0.win 3).blk t).view.emb (ix3 i (0 : Fin 1) k)) = _
  have e : ((cfg0.win 3).blk t).view.emb (ix3 i (0 : Fin 1) k) = ix3 (batchOf t i) (0 : Fin 1) k := by
    obtain ⟨-, -, -, -, -, -, -, -, -, e0, e1, e2⟩ := idx_graph t
    refine funext fun a => Fin.ext ?_
    match a with
    | ⟨0, _⟩ => show win0_3.index t (0 : Fin 3) * 2 + 1 * i.val = 2 * t.val + i.val; omega
    | ⟨1, _⟩ => show win0_3.index t (1 : Fin 3) * 1 + 1 * 0 = 0; omega
    | ⟨2, _⟩ => show win0_3.index t (2 : Fin 3) * 512 + 1 * k.val = k.val; omega
  rw [e, v5_eq]
  exact idRow_apply (m ((c : Thread nD τ).loc main_arg2)) (2 : Fin 3) slices_S64x512x3_S64x512x1_0_0_2 (batchOf t i) k

/-- Two graphs with the same node vectors, triple vectors, subjects and objects are one graph. -/
theorem graph_ext {g g' : Graph} (hx : g.x = g'.x) (hp : g.p = g'.p) (hs : g.s = g'.s) (ho : g.o = g'.o) : g = g' := by
  obtain ⟨x, p, s, o⟩ := g
  obtain ⟨x', p', s', o'⟩ := g'
  dsimp only at hx hp hs ho
  subst hx hp hs ho
  rfl

/-- Graph `i` of grid point `t` is graph `2t + i` of the batch. -/
theorem graph_at (c : Dev nD) (t : Fin cfg0.N) (i : Fin 2) :
    bodyGraph (blocksAt m c t) i = graphOf (m ((c : Thread nD τ).loc main_arg0)) (m ((c : Thread nD τ).loc main_arg1)) (m ((c : Thread nD τ).loc main_arg2)) (batchOf t i) :=
  graph_ext (funext fun n => funext fun d => x0_at m c t i n d) (funext fun k => funext fun d => x1_at m c t i k d)
    (funext fun k => congrArg node (subj_at m c t i k)) (funext fun k => congrArg node (obj_at m c t i k))

/-! The parameter windows stage their whole arrays at every grid point. -/

theorem idx_w4 : ∀ t : Fin cfg0.N, win0_4.index t (0 : Fin 2) = 0 ∧ win0_4.index t (1 : Fin 2) = 0 :=
  (by decide +kernel : ∀ t : Fin grid0.N, _)

theorem x4_at (c : Dev nD) (t : Fin cfg0.N) (j : S512x1024.Idx) : (blocksAt m c t).x4 j = V m c main_v12 j := by
  show V m c main_v12 (((cfg0.win 4).blk t).view.emb j) = V m c main_v12 j
  obtain ⟨e0, e1⟩ := idx_w4 t
  refine congrArg _ (funext fun a => Fin.ext ?_)
  match a with
  | ⟨0, _⟩ => show win0_4.index t (0 : Fin 2) * 512 + 1 * (j 0).val = (j 0).val; omega
  | ⟨1, _⟩ => show win0_4.index t (1 : Fin 2) * 1024 + 1 * (j 1).val = (j 1).val; omega

theorem idx_w5 : ∀ t : Fin cfg0.N, win0_5.index t (0 : Fin 2) = 0 ∧ win0_5.index t (1 : Fin 2) = 0 :=
  (by decide +kernel : ∀ t : Fin grid0.N, _)

theorem x5_at (c : Dev nD) (t : Fin cfg0.N) (j : S512x512.Idx) : (blocksAt m c t).x5 j = V m c main_v9 j := by
  show V m c main_v9 (((cfg0.win 5).blk t).view.emb j) = V m c main_v9 j
  obtain ⟨e0, e1⟩ := idx_w5 t
  refine congrArg _ (funext fun a => Fin.ext ?_)
  match a with
  | ⟨0, _⟩ => show win0_5.index t (0 : Fin 2) * 512 + 1 * (j 0).val = (j 0).val; omega
  | ⟨1, _⟩ => show win0_5.index t (1 : Fin 2) * 512 + 1 * (j 1).val = (j 1).val; omega

theorem idx_w7 : ∀ t : Fin cfg0.N, win0_7.index t (0 : Fin 2) = 0 ∧ win0_7.index t (1 : Fin 2) = 0 :=
  (by decide +kernel : ∀ t : Fin grid0.N, _)

theorem x7_at (c : Dev nD) (t : Fin cfg0.N) (j : S512x512.Idx) : (blocksAt m c t).x7 j = V m c main_v14 j := by
  show V m c main_v14 (((cfg0.win 7).blk t).view.emb j) = V m c main_v14 j
  obtain ⟨e0, e1⟩ := idx_w7 t
  refine congrArg _ (funext fun a => Fin.ext ?_)
  match a with
  | ⟨0, _⟩ => show win0_7.index t (0 : Fin 2) * 512 + 1 * (j 0).val = (j 0).val; omega
  | ⟨1, _⟩ => show win0_7.index t (1 : Fin 2) * 512 + 1 * (j 1).val = (j 1).val; omega

theorem idx_w8 : ∀ t : Fin cfg0.N, win0_8.index t (0 : Fin 2) = 0 ∧ win0_8.index t (1 : Fin 2) = 0 :=
  (by decide +kernel : ∀ t : Fin grid0.N, _)

theorem x8_at (c : Dev nD) (t : Fin cfg0.N) (j : S512x512.Idx) : (blocksAt m c t).x8 j = V m c main_v16 j := by
  show V m c main_v16 (((cfg0.win 8).blk t).view.emb j) = V m c main_v16 j
  obtain ⟨e0, e1⟩ := idx_w8 t
  refine congrArg _ (funext fun a => Fin.ext ?_)
  match a with
  | ⟨0, _⟩ => show win0_8.index t (0 : Fin 2) * 512 + 1 * (j 0).val = (j 0).val; omega
  | ⟨1, _⟩ => show win0_8.index t (1 : Fin 2) * 512 + 1 * (j 1).val = (j 1).val; omega

theorem idx_w9 : ∀ t : Fin cfg0.N, win0_9.index t (0 : Fin 2) = 0 ∧ win0_9.index t (1 : Fin 2) = 0 :=
  (by decide +kernel : ∀ t : Fin grid0.N, _)

theorem x9_at (c : Dev nD) (t : Fin cfg0.N) (j : S512x512.Idx) : (blocksAt m c t).x9 j = V m c main_v18 j := by
  show V m c main_v18 (((cfg0.win 9).blk t).view.emb j) = V m c main_v18 j
  obtain ⟨e0, e1⟩ := idx_w9 t
  refine congrArg _ (funext fun a => Fin.ext ?_)
  match a with
  | ⟨0, _⟩ => show win0_9.index t (0 : Fin 2) * 512 + 1 * (j 0).val = (j 0).val; omega
  | ⟨1, _⟩ => show win0_9.index t (1 : Fin 2) * 512 + 1 * (j 1).val = (j 1).val; omega

theorem idx_w13 : ∀ t : Fin cfg0.N, win0_13.index t (0 : Fin 2) = 0 ∧ win0_13.index t (1 : Fin 2) = 0 :=
  (by decide +kernel : ∀ t : Fin grid0.N, _)

theorem x13_at (c : Dev nD) (t : Fin cfg0.N) (j : S512x512.Idx) : (blocksAt m c t).x13 j = V m c main_v22 j := by
  show V m c main_v22 (((cfg0.win 13).blk t).view.emb j) = V m c main_v22 j
  obtain ⟨e0, e1⟩ := idx_w13 t
  refine congrArg _ (funext fun a => Fin.ext ?_)
  match a with
  | ⟨0, _⟩ => show win0_13.index t (0 : Fin 2) * 512 + 1 * (j 0).val = (j 0).val; omega
  | ⟨1, _⟩ => show win0_13.index t (1 : Fin 2) * 512 + 1 * (j 1).val = (j 1).val; omega

theorem idx_w15 : ∀ t : Fin cfg0.N, win0_15.index t (0 : Fin 2) = 0 ∧ win0_15.index t (1 : Fin 2) = 0 :=
  (by decide +kernel : ∀ t : Fin grid0.N, _)

theorem x15_at (c : Dev nD) (t : Fin cfg0.N) (j : S512x512.Idx) : (blocksAt m c t).x15 j = V m c main_v23 j := by
  show V m c main_v23 (((cfg0.win 15).blk t).view.emb j) = V m c main_v23 j
  obtain ⟨e0, e1⟩ := idx_w15 t
  refine congrArg _ (funext fun a => Fin.ext ?_)
  match a with
  | ⟨0, _⟩ => show win0_15.index t (0 : Fin 2) * 512 + 1 * (j 0).val = (j 0).val; omega
  | ⟨1, _⟩ => show win0_15.index t (1 : Fin 2) * 512 + 1 * (j 1).val = (j 1).val; omega

theorem idx_w6 : ∀ t : Fin cfg0.N, win0_6.index t (0 : Fin 1) = 0 :=
  (by decide +kernel : ∀ t : Fin grid0.N, _)

theorem x6_at (c : Dev nD) (t : Fin cfg0.N) (j : S512.Idx) : (blocksAt m c t).x6 j = V m c main_arg4 j := by
  show V m c main_arg4 (((cfg0.win 6).blk t).view.emb j) = V m c main_arg4 j
  have e0 := idx_w6 t
  refine congrArg _ (funext fun a => Fin.ext ?_)
  match a with
  | ⟨0, _⟩ => show win0_6.index t (0 : Fin 1) * 512 + 1 * (j 0).val = (j 0).val; omega

theorem idx_w10 : ∀ t : Fin cfg0.N, win0_10.index t (0 : Fin 1) = 0 :=
  (by decide +kernel : ∀ t : Fin grid0.N, _)

theorem x10_at (c : Dev nD) (t : Fin cfg0.N) (j : S512.Idx) : (blocksAt m c t).x10 j = V m c main_v19 j := by
  show V m c main_v19 (((cfg0.win 10).blk t).view.emb j) = V m c main_v19 j
  have e0 := idx_w10 t
  refine congrArg _ (funext fun a => Fin.ext ?_)
  match a with
  | ⟨0, _⟩ => show win0_10.index t (0 : Fin 1) * 512 + 1 * (j 0).val = (j 0).val; omega

theorem idx_w11 : ∀ t : Fin cfg0.N, win0_11.index t (0 : Fin 1) = 0 :=
  (by decide +kernel : ∀ t : Fin grid0.N, _)

theorem x11_at (c : Dev nD) (t : Fin cfg0.N) (j : S512.Idx) : (blocksAt m c t).x11 j = V m c main_v20 j := by
  show V m c main_v20 (((cfg0.win 11).blk t).view.emb j) = V m c main_v20 j
  have e0 := idx_w11 t
  refine congrArg _ (funext fun a => Fin.ext ?_)
  match a with
  | ⟨0, _⟩ => show win0_11.index t (0 : Fin 1) * 512 + 1 * (j 0).val = (j 0).val; omega

theorem idx_w12 : ∀ t : Fin cfg0.N, win0_12.index t (0 : Fin 1) = 0 :=
  (by decide +kernel : ∀ t : Fin grid0.N, _)

theorem x12_at (c : Dev nD) (t : Fin cfg0.N) (j : S512.Idx) : (blocksAt m c t).x12 j = V m c main_v21 j := by
  show V m c main_v21 (((cfg0.win 12).blk t).view.emb j) = V m c main_v21 j
  have e0 := idx_w12 t
  refine congrArg _ (funext fun a => Fin.ext ?_)
  match a with
  | ⟨0, _⟩ => show win0_12.index t (0 : Fin 1) * 512 + 1 * (j 0).val = (j 0).val; omega

theorem idx_w14 : ∀ t : Fin cfg0.N, win0_14.index t (0 : Fin 1) = 0 :=
  (by decide +kernel : ∀ t : Fin grid0.N, _)

theorem x14_at (c : Dev nD) (t : Fin cfg0.N) (j : S512.Idx) : (blocksAt m c t).x14 j = V m c main_arg8 j := by
  show V m c main_arg8 (((cfg0.win 14).blk t).view.emb j) = V m c main_arg8 j
  have e0 := idx_w14 t
  refine congrArg _ (funext fun a => Fin.ext ?_)
  match a with
  | ⟨0, _⟩ => show win0_14.index t (0 : Fin 1) * 512 + 1 * (j 0).val = (j 0).val; omega

theorem idx_w16 : ∀ t : Fin cfg0.N, win0_16.index t (0 : Fin 1) = 0 :=
  (by decide +kernel : ∀ t : Fin grid0.N, _)

theorem x16_at (c : Dev nD) (t : Fin cfg0.N) (j : S512.Idx) : (blocksAt m c t).x16 j = V m c main_arg10 j := by
  show V m c main_arg10 (((cfg0.win 16).blk t).view.emb j) = V m c main_arg10 j
  have e0 := idx_w16 t
  refine congrArg _ (funext fun a => Fin.ext ?_)
  match a with
  | ⟨0, _⟩ => show win0_16.index t (0 : Fin 1) * 512 + 1 * (j 0).val = (j 0).val; omega

/-! The parameter arrays as the host operations make them (a conversion of format is the identity on the extended reals). -/

theorem v12_eq (c : Dev nD) : (V m c main_v12 : S512x1024.Idx → EReal) =
    concatenate S512x1024 1
      [⟨S512x512, extractStridedSlice S512x512 ![0, 0] (m ((c : Thread nD τ).loc main_arg3)) slices_S1536x512_S512x512_0_0⟩,
       ⟨S512x512, extractStridedSlice S512x512 ![1024, 0] (m ((c : Thread nD τ).loc main_arg3)) slices_S1536x512_S512x512_1024_0⟩]
      concatenates_S512x512_S512x512_S512x1024_d1 := by
  dsimp only [Gen.V, Gen.hostOps0]
  after_results
  rfl

theorem v9_eq (c : Dev nD) : (V m c main_v9 : S512x512.Idx → EReal) =
    extractStridedSlice S512x512 ![512, 0] (m ((c : Thread nD τ).loc main_arg3)) slices_S1536x512_S512x512_512_0 := by
  dsimp only [Gen.V, Gen.hostOps0]
  after_results
  rfl

theorem v14_eq (c : Dev nD) : (V m c main_v14 : S512x512.Idx → EReal) =
    extractStridedSlice S512x512 ![0, 0] (m ((c : Thread nD τ).loc main_arg5)) slices_S512x1536_S512x512_0_0 := by
  dsimp only [Gen.V, Gen.hostOps0]
  after_results
  rfl

theorem v16_eq (c : Dev nD) : (V m c main_v16 : S512x512.Idx → EReal) =
    extractStridedSlice S512x512 ![0, 512] (m ((c : Thread nD τ).loc main_arg5)) slices_S512x1536_S512x512_0_512 := by
  dsimp only [Gen.V, Gen.hostOps0]
  after_results
  rfl

theorem v18_eq (c : Dev nD) : (V m c main_v18 : S512x512.Idx → EReal) =
    extractStridedSlice S512x512 ![0, 1024] (m ((c : Thread nD τ).loc main_arg5)) slices_S512x1536_S512x512_0_1024 := by
  dsimp only [Gen.V, Gen.hostOps0]
  after_results
  rfl

theorem v19_eq (c : Dev nD) : (V m c main_v19 : S512.Idx → EReal) =
    extractStridedSlice S512 ![0] (m ((c : Thread nD τ).loc main_arg6)) slices_S1536_S512_0 := by
  dsimp only [Gen.V, Gen.hostOps0]
  after_results

theorem v20_eq (c : Dev nD) : (V m c main_v20 : S512.Idx → EReal) =
    extractStridedSlice S512 ![512] (m ((c : Thread nD τ).loc main_arg6)) slices_S1536_S512_512 := by
  dsimp only [Gen.V, Gen.hostOps0]
  after_results

theorem v21_eq (c : Dev nD) : (V m c main_v21 : S512.Idx → EReal) =
    extractStridedSlice S512 ![1024] (m ((c : Thread nD τ).loc main_arg6)) slices_S1536_S512_1024 := by
  dsimp only [Gen.V, Gen.hostOps0]
  after_results

theorem v22_eq (c : Dev nD) : (V m c main_v22 : S512x512.Idx → EReal) = m ((c : Thread nD τ).loc main_arg7) := by
  dsimp only [Gen.V, Gen.hostOps0]
  after_results
  rfl

theorem v23_eq (c : Dev nD) : (V m c main_v23 : S512x512.Idx → EReal) = m ((c : Thread nD τ).loc main_arg9) := by
  dsimp only [Gen.V, Gen.hostOps0]
  after_results
  rfl

/-! A block of rows, of columns, of a row's entries, read at an index. -/

theorem rowBlock_apply {α : Type} (A : S1536x512.Idx → α) (off : Nat) (h : S1536x512.Slices ![off, 0] S512x512)
    (d k : Fin 512) (r : Fin 1536) (hr : r.val = off + d.val) :
    extractStridedSlice S512x512 ![off, 0] A h (ix2 d k) = A (ix2 r k) := by
  refine extractStridedSlice_apply _ A h (ix2 d k) (ix2 r k) fun a => ?_
  match a with
  | ⟨0, _⟩ => exact hr
  | ⟨1, _⟩ => show k.val = 0 + k.val; omega

theorem colBlock_apply {α : Type} (A : S512x1536.Idx → α) (off : Nat) (h : S512x1536.Slices ![0, off] S512x512)
    (d k : Fin 512) (r : Fin 1536) (hr : r.val = off + k.val) :
    extractStridedSlice S512x512 ![0, off] A h (ix2 d k) = A (ix2 d r) := by
  refine extractStridedSlice_apply _ A h (ix2 d k) (ix2 d r) fun a => ?_
  match a with
  | ⟨0, _⟩ => show d.val = 0 + d.val; omega
  | ⟨1, _⟩ => exact hr

theorem seg_apply {α : Type} (A : S1536.Idx → α) (off : Nat) (h : S1536.Slices ![off] S512)
    (k : Fin 512) (r : Fin 1536) (hr : r.val = off + k.val) :
    extractStridedSlice S512 ![off] A h (ix1 k) = A (ix1 r) := by
  refine extractStridedSlice_apply _ A h (ix1 k) (ix1 r) fun a => ?_
  match a with
  | ⟨0, _⟩ => exact hr

/-- Two matrices side by side, read in the left half and in the right half. -/
theorem sideBySide_left {α : Type} (a b : S512x512.Idx → α) (d h : Fin 512) :
    concatenate S512x1024 1 [⟨S512x512, a⟩, ⟨S512x512, b⟩] concatenates_S512x512_S512x512_S512x1024_d1 (ix2 d (colL h)) = a (ix2 d h) := by
  refine concatenate_pair_apply_left (1 : Fin 2) a b concatenates_S512x512_S512x512_S512x1024_d1 (ix2 d (colL h)) rfl (ix2 d h) fun q => ?_
  match q with
  | ⟨0, _⟩ => rfl
  | ⟨1, _⟩ => rfl

theorem sideBySide_right {α : Type} (a b : S512x512.Idx → α) (d h : Fin 512) :
    concatenate S512x1024 1 [⟨S512x512, a⟩, ⟨S512x512, b⟩] concatenates_S512x512_S512x512_S512x1024_d1 (ix2 d (colR h)) = b (ix2 d h) := by
  refine concatenate_pair_apply_right (1 : Fin 2) a b concatenates_S512x512_S512x512_S512x1024_d1 (ix2 d (colR h)) rfl rfl (ix2 d h) (fun q hq => ?_) ?_
  · match q with
    | ⟨0, _⟩ => rfl
    | ⟨1, _⟩ => exact absurd rfl hq
  · show h.val + 512 = 512 + h.val
    omega

/-! The networks' parameters, field by field. -/

theorem w1s_at (c : Dev nD) (t : Fin cfg0.N) (d h : Fin 512) :
    (blocksAt m c t).x4 (ix2 d (colL h)) = (m ((c : Thread nD τ).loc main_arg3)) (ix2 (lo d) h) :=
  (x4_at m c t _).trans <| (congrFun (v12_eq m c) _).trans <| (sideBySide_left _ _ d h).trans <|
    rowBlock_apply _ 0 slices_S1536x512_S512x512_0_0 d h (lo d) (by show d.val = 0 + d.val; omega)

theorem w1p_at (c : Dev nD) (t : Fin cfg0.N) (d h : Fin 512) :
    (blocksAt m c t).x5 (ix2 d h) = (m ((c : Thread nD τ).loc main_arg3)) (ix2 (mid d) h) :=
  (x5_at m c t _).trans <| (congrFun (v9_eq m c) _).trans <|
    rowBlock_apply _ 512 slices_S1536x512_S512x512_512_0 d h (mid d) rfl

theorem w1o_at (c : Dev nD) (t : Fin cfg0.N) (d h : Fin 512) :
    (blocksAt m c t).x4 (ix2 d (colR h)) = (m ((c : Thread nD τ).loc main_arg3)) (ix2 (hi d) h) :=
  (x4_at m c t _).trans <| (congrFun (v12_eq m c) _).trans <| (sideBySide_right _ _ d h).trans <|
    rowBlock_apply _ 1024 slices_S1536x512_S512x512_1024_0 d h (hi d) rfl

theorem b1_at (c : Dev nD) (t : Fin cfg0.N) (h : Fin 512) :
    (blocksAt m c t).x6 (ix1 h) = (m ((c : Thread nD τ).loc main_arg4)) (ix1 h) :=
  (x6_at m c t _).trans (congrFun (V_main_arg4 m c) _)

theorem w2s_at (c : Dev nD) (t : Fin cfg0.N) (h k : Fin 512) :
    (blocksAt m c t).x7 (ix2 h k) = (m ((c : Thread nD τ).loc main_arg5)) (ix2 h (lo k)) :=
  (x7_at m c t _).trans <| (congrFun (v14_eq m c) _).trans <|
    colBlock_apply _ 0 slices_S512x1536_S512x512_0_0 h k (lo k) (by show k.val = 0 + k.val; omega)

theorem w2p_at (c : Dev nD) (t : Fin cfg0.N) (h k : Fin 512) :
    (blocksAt m c t).x8 (ix2 h k) = (m ((c : Thread nD τ).loc main_arg5)) (ix2 h (mid k)) :=
  (x8_at m c t _).trans <| (congrFun (v16_eq m c) _).trans <|
    colBlock_apply _ 512 slices_S512x1536_S512x512_0_512 h k (mid k) rfl

theorem w2o_at (c : Dev nD) (t : Fin cfg0.N) (h k : Fin 512) :
    (blocksAt m c t).x9 (ix2 h k) = (m ((c : Thread nD τ).loc main_arg5)) (ix2 h (hi k)) :=
  (x9_at m c t _).trans <| (congrFun (v18_eq m c) _).trans <|
    colBlock_apply _ 1024 slices_S512x1536_S512x512_0_1024 h k (hi k) rfl

theorem b2s_at (c : Dev nD) (t : Fin cfg0.N) (k : Fin 512) :
    (blocksAt m c t).x10 (ix1 k) = (m ((c : Thread nD τ).loc main_arg6)) (ix1 (lo k)) :=
  (x10_at m c t _).trans <| (congrFun (v19_eq m c) _).trans <|
    seg_apply _ 0 slices_S1536_S512_0 k (lo k) (by show k.val = 0 + k.val; omega)

theorem b2p_at (c : Dev nD) (t : Fin cfg0.N) (k : Fin 512) :
    (blocksAt m c t).x11 (ix1 k) = (m ((c : Thread nD τ).loc main_arg6)) (ix1 (mid k)) :=
  (x11_at m c t _).trans <| (congrFun (v20_eq m c) _).trans <|
    seg_apply _ 512 slices_S1536_S512_512 k (mid k) rfl

theorem b2o_at (c : Dev nD) (t : Fin cfg0.N) (k : Fin 512) :
    (blocksAt m c t).x12 (ix1 k) = (m ((c : Thread nD τ).loc main_arg6)) (ix1 (hi k)) :=
  (x12_at m c t _).trans <| (congrFun (v21_eq m c) _).trans <|
    seg_apply _ 1024 slices_S1536_S512_1024 k (hi k) rfl

theorem u1_at (c : Dev nD) (t : Fin cfg0.N) (h k : Fin 512) :
    (blocksAt m c t).x13 (ix2 h k) = (m ((c : Thread nD τ).loc main_arg7)) (ix2 h k) :=
  (x13_at m c t _).trans (congrFun (v22_eq m c) _)

theorem c1_at (c : Dev nD) (t : Fin cfg0.N) (k : Fin 512) :
    (blocksAt m c t).x14 (ix1 k) = (m ((c : Thread nD τ).loc main_arg8)) (ix1 k) :=
  (x14_at m c t _).trans (congrFun (V_main_arg8 m c) _)

theorem u2_at (c : Dev nD) (t : Fin cfg0.N) (k j : Fin 512) :
    (blocksAt m c t).x15 (ix2 k j) = (m ((c : Thread nD τ).loc main_arg9)) (ix2 k j) :=
  (x15_at m c t _).trans (congrFun (v23_eq m c) _)

theorem c2_at (c : Dev nD) (t : Fin cfg0.N) (j : Fin 512) :
    (blocksAt m c t).x16 (ix1 j) = (m ((c : Thread nD τ).loc main_arg10)) (ix1 j) :=
  (x16_at m c t _).trans (congrFun (V_main_arg10 m c) _)

/-- Two parameter sets with the same fourteen fields are one. -/
theorem weights_ext {W W' : Weights} (h1 : W.w1s = W'.w1s) (h2 : W.w1p = W'.w1p) (h3 : W.w1o = W'.w1o) (h4 : W.b1 = W'.b1)
    (h5 : W.w2s = W'.w2s) (h6 : W.w2p = W'.w2p) (h7 : W.w2o = W'.w2o) (h8 : W.b2s = W'.b2s) (h9 : W.b2p = W'.b2p)
    (h10 : W.b2o = W'.b2o) (h11 : W.u1 = W'.u1) (h12 : W.c1 = W'.c1) (h13 : W.u2 = W'.u2) (h14 : W.c2 = W'.c2) : W = W' := by
  obtain ⟨a1, a2, a3, a4, a5, a6, a7, a8, a9, a10, a11, a12, a13, a14⟩ := W
  obtain ⟨b1, b2, b3, b4, b5, b6, b7, b8, b9, b10, b11, b12, b13, b14⟩ := W'
  dsimp only at h1 h2 h3 h4 h5 h6 h7 h8 h9 h10 h11 h12 h13 h14
  subst h1 h2 h3 h4 h5 h6 h7 h8 h9 h10 h11 h12 h13 h14
  rfl

/-- The parameters read off any blocks whose entries are the parameter arrays' entries are the arrays' parameters. -/
theorem weights_of_fields (B : Blocks) (W1 : Mat 1536 512) (B1 : Row 512) (W2 : Mat 512 1536) (B2 : Row 1536) (U1 : Mat 512 512)
    (C1 : Row 512) (U2 : Mat 512 512) (C2 : Row 512)
    (h1 : ∀ d h : Fin 512, B.x4 (ix2 d (colL h)) = W1 (ix2 (lo d) h))
    (h2 : ∀ d h : Fin 512, B.x5 (ix2 d h) = W1 (ix2 (mid d) h))
    (h3 : ∀ d h : Fin 512, B.x4 (ix2 d (colR h)) = W1 (ix2 (hi d) h))
    (h4 : ∀ h : Fin 512, B.x6 (ix1 h) = B1 (ix1 h))
    (h5 : ∀ h k : Fin 512, B.x7 (ix2 h k) = W2 (ix2 h (lo k)))
    (h6 : ∀ h k : Fin 512, B.x8 (ix2 h k) = W2 (ix2 h (mid k)))
    (h7 : ∀ h k : Fin 512, B.x9 (ix2 h k) = W2 (ix2 h (hi k)))
    (h8 : ∀ k : Fin 512, B.x10 (ix1 k) = B2 (ix1 (lo k)))
    (h9 : ∀ k : Fin 512, B.x11 (ix1 k) = B2 (ix1 (mid k)))
    (h10 : ∀ k : Fin 512, B.x12 (ix1 k) = B2 (ix1 (hi k)))
    (h11 : ∀ h k : Fin 512, B.x13 (ix2 h k) = U1 (ix2 h k))
    (h12 : ∀ k : Fin 512, B.x14 (ix1 k) = C1 (ix1 k))
    (h13 : ∀ k j : Fin 512, B.x15 (ix2 k j) = U2 (ix2 k j))
    (h14 : ∀ j : Fin 512, B.x16 (ix1 j) = C2 (ix1 j)) :
    bodyWeights B = weightsOf W1 B1 W2 B2 U1 C1 U2 C2 :=
  weights_ext (funext fun d => funext fun h => h1 d h) (funext fun d => funext fun h => h2 d h)
    (funext fun d => funext fun h => h3 d h) (funext fun h => h4 h)
    (funext fun h => funext fun k => h5 h k) (funext fun h => funext fun k => h6 h k)
    (funext fun h => funext fun k => h7 h k) (funext fun k => h8 k) (funext fun k => h9 k)
    (funext fun k => h10 k) (funext fun h => funext fun k => h11 h k) (funext fun k => h12 k)
    (funext fun k => funext fun j => h13 k j) (funext fun j => h14 j)

/-- At every grid point the parameter blocks are the parameter arrays' blocks. -/
theorem weights_at (c : Dev nD) (t : Fin cfg0.N) :
    bodyWeights (blocksAt m c t) = weightsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  weights_of_fields (blocksAt m c t) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (w1s_at m c t) (w1p_at m c t) (w1o_at m c t) (b1_at m c t) (w2s_at m c t) (w2p_at m c t) (w2o_at m c t)
    (b2s_at m c t) (b2p_at m c t) (b2o_at m c t) (u1_at m c t) (c1_at m c t) (u2_at m c t) (c2_at m c t)

end Cert.KernelIdeal.Body

end
-- ==== Proof.SumLaws.lean ====
/-
  Three facts about finite sums of extended reals that both programs' arrangements rest on.

  A sum over an axis of 1536 is the sum of the sums over its three blocks of 512. A sum over the 256 nodes of a node
  indicator times a value keeps the one term at the indicated node: on the extended reals `0 · x = 0` and `1 · x = x` for
  every `x`, the infinities included, so no finiteness is needed. And an indicator times a value is an `if`.
-/
import proofs.«419139_j22110491640377_3_alg».proof.Proof.Spec
import Mathlib.Algebra.BigOperators.Fin

noncomputable section

open scoped BigOperators

namespace Cert.TripleConv

/-- An indicator times a value. -/
theorem ind_mul (c : Prop) [Decidable c] (x : EReal) : (if c then (1 : EReal) else 0) * x = if c then x else 0 := by
  split <;> simp

/-- A value times an indicator. -/
theorem mul_ind (c : Prop) [Decidable c] (x : EReal) : x * (if c then (1 : EReal) else 0) = if c then x else 0 := by
  split <;> simp

/-- Selecting node `s` by its indicator. -/
theorem sum_ind_mul (s : Fin 256) (y : Fin 256 → EReal) : (∑ n, (if s = n then (1 : EReal) else 0) * y n) = y s := by
  simp only [ind_mul, Finset.sum_ite_eq, Finset.mem_univ, if_true]

/-- The same with the indicator's equation read the other way. -/
theorem sum_ind_mul' (s : Fin 256) (y : Fin 256 → EReal) : (∑ n, (if n = s then (1 : EReal) else 0) * y n) = y s := by
  simp only [ind_mul, Finset.sum_ite_eq', Finset.mem_univ, if_true]

/-- A sum over an axis of 1536 by its three blocks of 512. -/
theorem sum_split3 (f : Fin 1536 → EReal) :
    (∑ k, f k) = (∑ d : Fin 512, f (lo d)) + (∑ d : Fin 512, f (mid d)) + (∑ d : Fin 512, f (hi d)) := by
  have e : (∑ k : Fin 1536, f k) = ∑ k : Fin (512 + 512 + 512), f (Fin.cast (by norm_num) k) :=
    (Fintype.sum_equiv (finCongr (by norm_num : 512 + 512 + 512 = 1536)) _ _ (fun k => rfl)).symm
  rw [e, Fin.sum_univ_add, Fin.sum_univ_add]
  congr 1

end Cert.TripleConv

end
-- ==== Proof.KerOps.lean ====
/-
  The body's operations read at an index, over variables of the literal block types: its four shapes of matrix product
  into a zero accumulator as plain sums over the contracted axis; the one-hot matrices (an id row compared with the node
  positions, the bit widened and converted) as node indicators; the clamped incidence counts; and the loads through the
  literal rectangles of the body (a whole parameter block, or one of the two graphs of a batch block).
-/
import proofs.«419139_j22110491640377_3_alg».proof.Proof.KerTerms
import proofs.«419139_j22110491640377_3_alg».proof.Proof.SumLaws
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

open scoped BigOperators

namespace Cert.KernelIdeal.Body

open Cert.KernelIdeal Cert.KernelIdeal.Gen Cert.TripleConv
open Idealize.ShloMosaic Idealize.ShloMosaic.ValueIdx Idealize.SL.Sem

/-! ## Matrix products into a zero accumulator -/

theorem lhs_256x512_512x1024_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhs_256x512_512x1024_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhs_256x512_512x1024_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhs_256x512_512x1024_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

theorem matmul_256x512_512x1024 (a : FVec Ideal S256x512 .bf16) (b : FVec Ideal S512x1024 .bf16) (i : Fin 256) (j : Fin 1024) :
    matmul dot_S256x512_S512x1024_S256x1024_1_0_0_1_n_n none a b (constant S256x1024 .f32 0x00000000#32) (ix2 i j)
      = ∑ k : Fin 512, a (ix2 i k) * b (ix2 k j) := by
  simp only [matmul]
  rw [Ideal.matmul_constant_zero_apply, ← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 i j) ((contrEquiv1 dot_S256x512_S512x1024_S256x1024_1_0_0_1_n_n 512 rfl rfl).symm k) = ix2 i k := funext fun a => Fin.ext (by
    match a with
    | ⟨0, _⟩ => exact lhs_256x512_512x1024_0 _ _
    | ⟨1, _⟩ => exact (lhs_256x512_512x1024_1 _ _).trans hk)
  have er : dot_S256x512_S512x1024_S256x1024_1_0_0_1_n_n.rhsIdx (ix2 i j) ((contrEquiv1 dot_S256x512_S512x1024_S256x1024_1_0_0_1_n_n 512 rfl rfl).symm k) = ix2 k j := funext fun a => Fin.ext (by
    match a with
    | ⟨0, _⟩ => exact (rhs_256x512_512x1024_0 _ _).trans hk
    | ⟨1, _⟩ => exact rhs_256x512_512x1024_1 _ _)
  rw [el, er]

theorem lhs_512x256_256x512_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_512x256_256x512_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_512x256_256x512_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_512x256_256x512_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

theorem matmul_512x256_256x512 (a : FVec Ideal S512x256 .bf16) (b : FVec Ideal S256x512 .bf16) (i j : Fin 512) :
    matmul dot_S512x256_S256x512_S512x512_1_0_0_1_n_n none a b (constant S512x512 .f32 0x00000000#32) (ix2 i j)
      = ∑ k : Fin 256, a (ix2 i k) * b (ix2 k j) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 i j) ((contrEquiv1 dot_S512x256_S256x512_S512x512_1_0_0_1_n_n 256 rfl rfl).symm k) = ix2 i k := funext fun a => Fin.ext (by
    match a with
    | ⟨0, _⟩ => exact lhs_512x256_256x512_0 _ _
    | ⟨1, _⟩ => exact (lhs_512x256_256x512_1 _ _).trans hk)
  have er : dot_S512x256_S256x512_S512x512_1_0_0_1_n_n.rhsIdx (ix2 i j) ((contrEquiv1 dot_S512x256_S256x512_S512x512_1_0_0_1_n_n 256 rfl rfl).symm k) = ix2 k j := funext fun a => Fin.ext (by
    match a with
    | ⟨0, _⟩ => exact (rhs_512x256_256x512_0 _ _).trans hk
    | ⟨1, _⟩ => exact rhs_512x256_256x512_1 _ _)
  rw [el, er]

theorem lhs_512x512_512x512_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_512x512_512x512_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_512x512_512x512_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_512x512_512x512_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

theorem matmul_512x512_512x512 (a : FVec Ideal S512x512 .bf16) (b : FVec Ideal S512x512 .bf16) (i j : Fin 512) :
    matmul dot_S512x512_S512x512_S512x512_1_0_0_1_n_n none a b (constant S512x512 .f32 0x00000000#32) (ix2 i j)
      = ∑ k : Fin 512, a (ix2 i k) * b (ix2 k j) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 i j) ((contrEquiv1 dot_S512x512_S512x512_S512x512_1_0_0_1_n_n 512 rfl rfl).symm k) = ix2 i k := funext fun a => Fin.ext (by
    match a with
    | ⟨0, _⟩ => exact lhs_512x512_512x512_0 _ _
    | ⟨1, _⟩ => exact (lhs_512x512_512x512_1 _ _).trans hk)
  have er : dot_S512x512_S512x512_S512x512_1_0_0_1_n_n.rhsIdx (ix2 i j) ((contrEquiv1 dot_S512x512_S512x512_S512x512_1_0_0_1_n_n 512 rfl rfl).symm k) = ix2 k j := funext fun a => Fin.ext (by
    match a with
    | ⟨0, _⟩ => exact (rhs_512x512_512x512_0 _ _).trans hk
    | ⟨1, _⟩ => exact rhs_512x512_512x512_1 _ _)
  rw [el, er]

theorem lhs_256x512_512x512_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_256x512_512x512_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs_256x512_512x512_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs_256x512_512x512_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

theorem matmul_256x512_512x512 (a : FVec Ideal S256x512 .bf16) (b : FVec Ideal S512x512 .bf16) (i : Fin 256) (j : Fin 512) :
    matmul dot_S256x512_S512x512_S256x512_1_0_0_1_n_n none a b (constant S256x512 .f32 0x00000000#32) (ix2 i j)
      = ∑ k : Fin 512, a (ix2 i k) * b (ix2 k j) := by
  simp only [matmul]
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 i j) ((contrEquiv1 dot_S256x512_S512x512_S256x512_1_0_0_1_n_n 512 rfl rfl).symm k) = ix2 i k := funext fun a => Fin.ext (by
    match a with
    | ⟨0, _⟩ => exact lhs_256x512_512x512_0 _ _
    | ⟨1, _⟩ => exact (lhs_256x512_512x512_1 _ _).trans hk)
  have er : dot_S256x512_S512x512_S256x512_1_0_0_1_n_n.rhsIdx (ix2 i j) ((contrEquiv1 dot_S256x512_S512x512_S256x512_1_0_0_1_n_n 512 rfl rfl).symm k) = ix2 k j := funext fun a => Fin.ext (by
    match a with
    | ⟨0, _⟩ => exact (rhs_256x512_512x512_0 _ _).trans hk
    | ⟨1, _⟩ => exact rhs_256x512_512x512_1 _ _)
  rw [el, er]

/-! ## The one-hot matrices as node indicators -/

/-- A column broadcast along its rows: a `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: an `[a]` array cast to `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A word equals the word of a node position exactly when its value is that position. -/
theorem word_eq_iff (w : BitVec 32) (n : Fin 256) : w = BitVec.ofNat 32 n.val ↔ w.toNat = n.val := by
  have hn : n.val % 2 ^ 32 = n.val := Nat.mod_eq_of_lt (lt_trans n.isLt (by norm_num))
  constructor
  · intro h; rw [h, BitVec.toNat_ofNat, hn]
  · intro h; apply BitVec.eq_of_toNat_eq; rw [BitVec.toNat_ofNat, hn, h]

/-- A one-bit condition, widened and converted signed, is 1 where it holds and 0 where it does not. -/
theorem bit_real (c : BitVec 1) : (((c.setWidth 32).toInt : ℝ) : EReal) = if c = 1#1 then (1 : EReal) else 0 := by
  by_cases h : c = 1#1
  · subst h
    rw [if_pos rfl]
    have e : ((1#1 : BitVec 1).setWidth 32).toInt = 1 := by decide
    rw [e]; simp
  · have h0 := eq_zero_of_ne_one h
    subst h0
    rw [if_neg h]
    have e : ((0#1 : BitVec 1).setWidth 32).toInt = 0 := by decide
    rw [e]; simp

/-- The mask's bit at triple `t` and node position `n`: the id word of `t` compared with the word of `n`. -/
theorem pay15_at (v : Vec Ideal S1x1x512 .i32) (t : Fin 512) (n : Fin 256) :
    k0_pay15 (F := Ideal) v (ix2 t n) = IntOp.cmpi .eq (v (ix3 (0 : Fin 1) (0 : Fin 1) t)) (BitVec.ofNat 32 n.val) := by
  unfold k0_pay15
  show IntOp.cmpi .eq (broadcastTo S512x256 (shapeCast S512x1 (shapeCast S512 v shapeCasts_S1x1x512_S512) shapeCasts_S512_S512x1) broadcasts_S512x1_S512x256 (ix2 t n))
      (iota .tc S512x256 32 [1] iota_S512x256_d1_w32 (ix2 t n)) = _
  rw [broadcastTo_a1_ab_apply, shapeCast_a_a1_apply, shapeCast_11a_a_apply, iota_single_apply]

theorem pay16_eq (v : Vec Ideal S1x1x512 .i32) : k0_pay16 (F := Ideal) v = k0_pay15 (F := Ideal) v := rfl
theorem pay24_eq (v : Vec Ideal S1x1x512 .i32) : k0_pay24 (F := Ideal) v = k0_pay15 (F := Ideal) v := rfl
theorem pay25_eq (v : Vec Ideal S1x1x512 .i32) : k0_pay25 (F := Ideal) v = k0_pay15 (F := Ideal) v := rfl

/-- The mask's bit, widened and converted, is the indicator that triple `t`'s id names node position `n`. -/
theorem onehot_at (v : Vec Ideal S1x1x512 .i32) (t : Fin 512) (n : Fin 256) :
    (((k0_pay15 (F := Ideal) v (ix2 t n)).setWidth 32).toInt : ℝ) = (if (v (ix3 (0 : Fin 1) (0 : Fin 1) t)).toNat = n.val then (1 : EReal) else 0) := by
  rw [bit_real, pay15_at]
  by_cases h : (v (ix3 (0 : Fin 1) (0 : Fin 1) t)).toNat = n.val
  · rw [if_pos h, if_pos (StableHlo.Predicate.cmpi_eq_iff.mpr ((word_eq_iff _ n).mpr h))]
  · rw [if_neg h, if_neg (fun hc => h ((word_eq_iff _ n).mp (StableHlo.Predicate.cmpi_eq_iff.mp hc)))]

theorem pay18_at (v : Vec Ideal S1x1x512 .i32) (t : Fin 512) (n : Fin 256) :
    k0_pay18 (F := Ideal) v (ix2 t n) = if (v (ix3 (0 : Fin 1) (0 : Fin 1) t)).toNat = n.val then (1 : EReal) else 0 := by
  exact onehot_at v t n

theorem pay19_at (v : Vec Ideal S1x1x512 .i32) (t : Fin 512) (n : Fin 256) :
    k0_pay19 (F := Ideal) v (ix2 t n) = if (v (ix3 (0 : Fin 1) (0 : Fin 1) t)).toNat = n.val then (1 : EReal) else 0 := by
  exact onehot_at v t n

theorem pay27_at (v : Vec Ideal S1x1x512 .i32) (t : Fin 512) (n : Fin 256) :
    k0_pay27 (F := Ideal) v (ix2 t n) = if (v (ix3 (0 : Fin 1) (0 : Fin 1) t)).toNat = n.val then (1 : EReal) else 0 := by
  exact onehot_at v t n

theorem pay28_at (v : Vec Ideal S1x1x512 .i32) (t : Fin 512) (n : Fin 256) :
    k0_pay28 (F := Ideal) v (ix2 t n) = if (v (ix3 (0 : Fin 1) (0 : Fin 1) t)).toNat = n.val then (1 : EReal) else 0 := by
  exact onehot_at v t n

/-! ## The incidence counts, clamped below at 1 -/

/-- The literal 1.0. -/
theorem one_f32 : Ideal.ofBits .f32 0x3F800000#32 = 1 := by
  simp [Ideal.ofBits, Ideal.ieee, -EReal.coe_mul]; norm_num

/-- The converted mask summed over the triples, at node position `n`: in how many triples the id names `n`. -/
theorem count_at (v : Vec Ideal S1x1x512 .i32) (n : Fin 256) :
    multiReduction .add [0] S256 (sitofp .f32 (extui 32 (k0_pay15 (F := Ideal) v) natLt_1_32) : FVec Ideal S512x256 .f32)
        0x00000000#32 reduces_S512x256_S256 (.inl rfl) rfl (ix1 n)
      = ∑ t : Fin 512, if (v (ix3 (0 : Fin 1) (0 : Fin 1) t)).toNat = n.val then (1 : EReal) else 0 := by
  refine (Ideal.multiReduction_add_single (sitofp .f32 (extui 32 (k0_pay15 (F := Ideal) v) natLt_1_32) : FVec Ideal S512x256 .f32)
    0x00000000#32 reduces_S512x256_S256 (.inl rfl) rfl (ix1 n)).trans ?_
  refine Finset.sum_congr rfl fun t _ => ?_
  have e : reduces_S512x256_S256.lift (ix1 n) t = ix2 t n := funext fun a => Fin.ext (by
    match a with
    | ⟨0, _⟩ => rfl
    | ⟨1, _⟩ => rfl)
  rw [e]
  exact onehot_at v t n

theorem pay17_at (v w : Vec Ideal S1x1x512 .i32) (n : Fin 256) :
    k0_pay17 (F := Ideal) v w (ix1 n)
      = max ((∑ t : Fin 512, if (v (ix3 (0 : Fin 1) (0 : Fin 1) t)).toNat = n.val then (1 : EReal) else 0) + (∑ t : Fin 512, if (w (ix3 (0 : Fin 1) (0 : Fin 1) t)).toNat = n.val then (1 : EReal) else 0)) 1 := by
  exact congrArg₂ max (congrArg₂ (· + ·) (count_at v n) (count_at w n)) one_f32

theorem pay26_at (v w : Vec Ideal S1x1x512 .i32) (n : Fin 256) :
    k0_pay26 (F := Ideal) v w (ix1 n)
      = max ((∑ t : Fin 512, if (v (ix3 (0 : Fin 1) (0 : Fin 1) t)).toNat = n.val then (1 : EReal) else 0) + (∑ t : Fin 512, if (w (ix3 (0 : Fin 1) (0 : Fin 1) t)).toNat = n.val then (1 : EReal) else 0)) 1 := by
  exact congrArg₂ max (congrArg₂ (· + ·) (count_at v n) (count_at w n)) one_f32

/-! ## Loads through the body's rectangles -/

theorem ld_r0_0 (x : Vec Ideal S512x1024 .bf16) : View.ld x r0_0 = x := by
  exact View.ld_unit_zero (funext fun a => by match a with | ⟨0, _⟩ => rfl | ⟨1, _⟩ => rfl) _ x
theorem ld_r0_1 (x : Vec Ideal S512x512 .bf16) : View.ld x r0_1 = x := by
  exact View.ld_unit_zero (funext fun a => by match a with | ⟨0, _⟩ => rfl | ⟨1, _⟩ => rfl) _ x
theorem ld_r0_2 (x : Vec Ideal S512 .f32) : View.ld x r0_2 = x := by
  exact View.ld_unit_zero (funext fun a => by match a with | ⟨0, _⟩ => rfl) _ x
theorem ld_r0_3 (x : Vec Ideal S2x256x512 .f32) (n : Fin 256) (d : Fin 512) :
    View.ld x r0_3 (ix3 (0 : Fin 1) n d) = x (ix3 (0 : Fin 2) n d) := by
  refine congrArg x (funext fun a => Fin.ext ?_)
  match a with
  | ⟨0, _⟩ => rfl
  | ⟨1, _⟩ => show 0 + 1 * n.val = n.val; omega
  | ⟨2, _⟩ => show 0 + 1 * d.val = d.val; omega
theorem ld_r0_6 (x : Vec Ideal S2x256x512 .f32) (n : Fin 256) (d : Fin 512) :
    View.ld x r0_6 (ix3 (0 : Fin 1) n d) = x (ix3 (1 : Fin 2) n d) := by
  refine congrArg x (funext fun a => Fin.ext ?_)
  match a with
  | ⟨0, _⟩ => rfl
  | ⟨1, _⟩ => show 0 + 1 * n.val = n.val; omega
  | ⟨2, _⟩ => show 0 + 1 * d.val = d.val; omega
theorem ld_r0_4 (x : Vec Ideal S2x512x512 .f32) (t d : Fin 512) :
    View.ld x r0_4 (ix3 (0 : Fin 1) t d) = x (ix3 (0 : Fin 2) t d) := by
  refine congrArg x (funext fun a => Fin.ext ?_)
  match a with
  | ⟨0, _⟩ => rfl
  | ⟨1, _⟩ => show 0 + 1 * t.val = t.val; omega
  | ⟨2, _⟩ => show 0 + 1 * d.val = d.val; omega
theorem ld_r0_7 (x : Vec Ideal S2x512x512 .f32) (t d : Fin 512) :
    View.ld x r0_7 (ix3 (0 : Fin 1) t d) = x (ix3 (1 : Fin 2) t d) := by
  refine congrArg x (funext fun a => Fin.ext ?_)
  match a with
  | ⟨0, _⟩ => rfl
  | ⟨1, _⟩ => show 0 + 1 * t.val = t.val; omega
  | ⟨2, _⟩ => show 0 + 1 * d.val = d.val; omega
theorem ld_r0_5 (x : Vec Ideal S2x1x512 .i32) (t : Fin 512) :
    View.ld x r0_5 (ix3 (0 : Fin 1) (0 : Fin 1) t) = x (ix3 (0 : Fin 2) (0 : Fin 1) t) := by
  refine congrArg x (funext fun a => Fin.ext ?_)
  match a with
  | ⟨0, _⟩ => rfl
  | ⟨1, _⟩ => rfl
  | ⟨2, _⟩ => show 0 + 1 * t.val = t.val; omega
theorem ld_r0_8 (x : Vec Ideal S2x1x512 .i32) (t : Fin 512) :
    View.ld x r0_8 (ix3 (0 : Fin 1) (0 : Fin 1) t) = x (ix3 (1 : Fin 2) (0 : Fin 1) t) := by
  refine congrArg x (funext fun a => Fin.ext ?_)
  match a with
  | ⟨0, _⟩ => rfl
  | ⟨1, _⟩ => rfl
  | ⟨2, _⟩ => show 0 + 1 * t.val = t.val; omega

end Cert.KernelIdeal.Body

end
-- ==== Proof.KerBody0.lean ====
/-
  The stored pieces of graph 0 of a grid point ARE the specification's functions of that graph.
-/
import proofs.«419139_j22110491640377_3_alg».proof.Proof.KerTerms
import proofs.«419139_j22110491640377_3_alg».proof.Proof.KerOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Cert.TripleConv
open Idealize.ShloMosaic Idealize.ShloMosaic.ValueIdx Idealize.SL.Sem

/-- The triple vectors at an index: the hidden layer against the triple block of the second matrix, plus the bias,
    clamped below at 0. -/
private theorem pay23_at (v8 : FVec Ideal S512x512 .bf16) (v14 : FVec Ideal S512 .f32) (v70 : FVec Ideal S512x512 .bf16) (t j : Fin 512) :
    k0_pay23 (F := Ideal) v8 v14 v70 (ix3 (0 : Fin 1) t j)
      = max ((∑ h : Fin 512, v70 (ix2 t h) * v8 (ix2 h j)) + v14 (ix1 j)) 0 := by
  unfold k0_pay23
  refine (shapeCast_ab_1ab_apply _ shapeCasts_S512x512_S1x512x512 (0 : Fin 1) t j).trans ?_
  refine congrArg₂ max (congrArg₂ (· + ·) (matmul_512x512_512x512 v70 v8 t j) ?_) Ideal.ofBits_zero_f32
  exact (broadcastTo_1b_ab_apply _ broadcasts_S1x512_S512x512 t j).trans (shapeCast_a_1a_apply v14 shapeCasts_S512_S1x512 (0 : Fin 1) j)

/-- A row of 512 broadcast over the rows of a matrix, at an index. -/
private theorem bias_at {a : Nat} (v : Vec Ideal S512 .f32) (h : S1x512.Broadcasts ⟨2, ![a, 512]⟩) (p : Fin a) (c : Fin 512) :
    broadcastTo ⟨2, ![a, 512]⟩ (shapeCast S1x512 v shapeCasts_S512_S1x512) h (ix2 p c) = v (ix1 c) :=
  (broadcastTo_1b_ab_apply _ h p c).trans (shapeCast_a_1a_apply v shapeCasts_S512_S1x512 (0 : Fin 1) c)

/-- The first hidden layer at an index: the one-hot rows select the subject's and the object's products with the two
    halves of the side-by-side first matrix; the triple's own product and the bias are added; clamped below at 0. -/
private theorem pay20_at (v1 : FVec Ideal S512x1024 .bf16) (v3 : FVec Ideal S512x512 .bf16) (v4 : Vec Ideal S512 .f32)
    (v27 : FVec Ideal S256x512 .bf16) (v28 : FVec Ideal S512x512 .bf16) (v29 v31 : Vec Ideal S1x1x512 .i32) (t h : Fin 512) :
    k0_pay20 (F := Ideal) v1 v3 v4 v27 v28 v29 v31 (ix2 t h)
      = max ((∑ n : Fin 256, (if (v29 (ix3 (0 : Fin 1) (0 : Fin 1) t)).toNat = n.val then (1 : EReal) else 0)
                * ∑ d : Fin 512, v27 (ix2 n d) * v1 (ix2 d (colL h)))
            + (∑ d : Fin 512, v28 (ix2 t d) * v3 (ix2 d h))
            + (∑ n : Fin 256, (if (v31 (ix3 (0 : Fin 1) (0 : Fin 1) t)).toNat = n.val then (1 : EReal) else 0)
                * ∑ d : Fin 512, v27 (ix2 n d) * v1 (ix2 d (colR h)))
            + v4 (ix1 h)) 0 := by
  unfold k0_pay20
  refine congrArg₂ max (congrArg₂ (· + ·) (congrArg₂ (· + ·) (congrArg₂ (· + ·) ?_ (matmul_512x512_512x512 v28 v3 t h)) ?_)
    (bias_at v4 broadcasts_S1x512_S512x512 t h)) Ideal.ofBits_zero_f32
  · refine (matmul_512x256_256x512 _ _ t h).trans (Finset.sum_congr rfl fun n _ => congrArg₂ (· * ·) (pay18_at v29 t n) ?_)
    refine (truncf_apply _ bitsLt_bf16_f32 (ix2 n h)).trans ?_
    refine (slice2_axis1_eq 0 _ slices_S256x1024_o0_0_S256x512 n h).trans ?_
    refine Eq.trans (congrArg _ (congrArg (ix2 n) (Fin.ext (Nat.zero_add _) : _ = colL h))) ?_
    exact matmul_256x512_512x1024 v27 v1 n (colL h)
  · refine (matmul_512x256_256x512 _ _ t h).trans (Finset.sum_congr rfl fun n _ => congrArg₂ (· * ·) (pay19_at v31 t n) ?_)
    refine (truncf_apply _ bitsLt_bf16_f32 (ix2 n h)).trans ?_
    refine (slice2_axis1_eq 512 _ slices_S256x1024_o0_512_S256x512 n h).trans ?_
    exact matmul_256x512_512x1024 v27 v1 n (colR h)

/-! ## The parameter blocks as loaded, and the two batch blocks' first graph -/

private theorem pay3_eq (v : Vec Ideal S512x1024 .bf16) : k0_pay3 (F := Ideal) v = v := shapeCast_self v _
private theorem pay4_eq (v : Vec Ideal S512x512 .bf16) : k0_pay4 (F := Ideal) v = v := shapeCast_self v _
private theorem pay5_eq (v : Vec Ideal S512x512 .bf16) : k0_pay5 (F := Ideal) v = v := shapeCast_self v _
private theorem pay6_eq (v : Vec Ideal S512x512 .bf16) : k0_pay6 (F := Ideal) v = v := shapeCast_self v _
private theorem pay7_eq (v : Vec Ideal S512x512 .bf16) : k0_pay7 (F := Ideal) v = v := shapeCast_self v _
private theorem pay8_eq (v : Vec Ideal S512 .f32) : k0_pay8 (F := Ideal) v = v := shapeCast_self v _
private theorem pay9_eq (v : Vec Ideal S512 .f32) : k0_pay9 (F := Ideal) v = v := shapeCast_self v _
private theorem pay10_eq (v : Vec Ideal S512 .f32) : k0_pay10 (F := Ideal) v = v := shapeCast_self v _
private theorem pay11_eq (v : Vec Ideal S512x512 .bf16) : k0_pay11 (F := Ideal) v = v := shapeCast_self v _
private theorem pay12_eq (v : Vec Ideal S512x512 .bf16) : k0_pay12 (F := Ideal) v = v := shapeCast_self v _

private theorem pay13_at (v : Vec Ideal S1x256x512 .f32) (n : Fin 256) (d : Fin 512) :
    k0_pay13 (F := Ideal) v (ix2 n d) = v (ix3 (0 : Fin 1) n d) :=
  shapeCast_1ab_ab_apply v shapeCasts_S1x256x512_S256x512 n d

private theorem pay14_at (v : Vec Ideal S1x512x512 .f32) (t d : Fin 512) :
    k0_pay14 (F := Ideal) v (ix2 t d) = v (ix3 (0 : Fin 1) t d) :=
  shapeCast_1ab_ab_apply v shapeCasts_S1x512x512_S512x512 t d

/-- A sum over the nodes against the indicator of an id word in range keeps the term at that word's node. -/
private theorem sel_sum (w : BitVec 32) (hw : w.toNat < 256) (y : Fin 256 → EReal) :
    (∑ n : Fin 256, (if w.toNat = n.val then (1 : EReal) else 0) * y n) = y (node w) := by
  refine Eq.trans (Finset.sum_congr rfl fun n _ => congrArg₂ (· * ·) (if_congr ?_ rfl rfl) rfl) (sum_ind_mul (node w) y)
  rw [Fin.ext_iff, node_val hw]

/-- The indicator of an id word in range, by its node. -/
private theorem ind_node (w : BitVec 32) (hw : w.toNat < 256) (n : Fin 256) :
    (if w.toNat = n.val then (1 : EReal) else 0) = if node w = n then (1 : EReal) else 0 :=
  if_congr (by rw [Fin.ext_iff, node_val hw]) rfl rfl

private theorem x0_at (B : Blocks) (n : Fin 256) (d : Fin 512) :
    k0_pay13 (F := Ideal) (View.ld B.x0 r0_3) (ix2 n d) = B.x0 (ix3 (0 : Fin 2) n d) :=
  (pay13_at _ n d).trans (ld_r0_3 B.x0 n d)

private theorem x1_at (B : Blocks) (t d : Fin 512) :
    k0_pay14 (F := Ideal) (View.ld B.x1 r0_4) (ix2 t d) = B.x1 (ix3 (0 : Fin 2) t d) :=
  (pay14_at _ t d).trans (ld_r0_4 B.x1 t d)

/-- The first hidden layer of graph 0, as the body computes it, is the specification's. -/
private theorem hidden0_apply (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (t h : Fin 512) :
    k0_pay20 (F := Ideal) (k0_pay3 (View.ld B.x4 r0_0)) (k0_pay4 (View.ld B.x5 r0_1)) (View.ld B.x6 r0_2) (k0_pay13 (View.ld B.x0 r0_3))
        (k0_pay14 (View.ld B.x1 r0_4)) (View.ld B.x2 r0_5) (View.ld B.x3 r0_5) (ix2 t h)
      = hidden (bodyWeights B) (bodyGraph B 0) t h := by
  refine (pay20_at _ _ _ _ _ _ _ t h).trans ?_
  unfold TripleConv.hidden
  dsimp only [bodyWeights, bodyGraph]
  rw [ld_r0_5 B.x2 t, ld_r0_5 B.x3 t, pay3_eq, pay4_eq, ld_r0_0, ld_r0_1, ld_r0_2]
  refine congrArg₂ max (congrArg₂ (· + ·) (congrArg₂ (· + ·) (congrArg₂ (· + ·) ?_ ?_) ?_) rfl) rfl
  · refine Eq.trans (Finset.sum_congr rfl fun n _ => congrArg₂ (· * ·) rfl
      (Finset.sum_congr rfl fun d _ => congrArg₂ (· * ·) (x0_at B n d) rfl)) ?_
    exact sel_sum _ (hs t) (fun n => ∑ d : Fin 512, B.x0 (ix3 (0 : Fin 2) n d) * B.x4 (ix2 d (colL h)))
  · exact Finset.sum_congr rfl fun d _ => congrArg₂ (· * ·) (x1_at B t d) rfl
  · refine Eq.trans (Finset.sum_congr rfl fun n _ => congrArg₂ (· * ·) rfl
      (Finset.sum_congr rfl fun d _ => congrArg₂ (· * ·) (x0_at B n d) rfl)) ?_
    exact sel_sum _ (ho t) (fun n => ∑ d : Fin 512, B.x0 (ix3 (0 : Fin 2) n d) * B.x4 (ix2 d (colR h)))

/-- The subject candidates at an index, over the first hidden layer. -/
private theorem pay21_at (v1 : FVec Ideal S512x1024 .bf16) (v3 : FVec Ideal S512x512 .bf16) (v4 : Vec Ideal S512 .f32)
    (v6 : FVec Ideal S512x512 .bf16) (v12 : FVec Ideal S512 .f32) (v27 : FVec Ideal S256x512 .bf16) (v28 : FVec Ideal S512x512 .bf16)
    (v29 v31 : Vec Ideal S1x1x512 .i32) (t k : Fin 512) :
    k0_pay21 (F := Ideal) v1 v3 v4 v6 v12 v27 v28 v29 v31 (ix2 t k)
      = max ((∑ h : Fin 512, k0_pay20 (F := Ideal) v1 v3 v4 v27 v28 v29 v31 (ix2 t h) * v6 (ix2 h k)) + v12 (ix1 k)) 0 := by
  unfold k0_pay21
  exact congrArg₂ max (congrArg₂ (· + ·) (matmul_512x512_512x512 _ v6 t k) (bias_at v12 broadcasts_S1x512_S512x512 t k))
    Ideal.ofBits_zero_f32

/-- A column of 256 broadcast over the columns of a matrix, at an index. -/
private theorem col_at (v : FVec Ideal S256 .f32) (n : Fin 256) (h : Fin 512) :
    broadcastTo S256x512 (shapeCast S256x1 v shapeCasts_S256_S256x1) broadcasts_S256x1_S256x512 (ix2 n h) = v (ix1 n) := by
  refine (broadcastTo_apply _ broadcasts_S256x1_S256x512 (ix2 n h) (ix2 n (0 : Fin 1)) fun ax => ?_).trans
    (shapeCast_apply v shapeCasts_S256_S256x1 (ix2 n (0 : Fin 1)) (ix1 n) ?_)
  · match ax with
    | ⟨0, _⟩ => rfl
    | ⟨1, _⟩ => rfl
  · rw [Shape.rowMajor_val_two, Shape.rowMajor_val_one]
    show n.val = n.val * 1 + 0
    omega

/-- The new node vectors at an index: the transposed one-hot matrices sum the candidates of the triples a node occurs in,
    the sum is divided by the clamped count, and the second network's two layers follow. -/
private theorem pay22_at (v10 : FVec Ideal S512x512 .bf16) (v16 : FVec Ideal S512 .f32) (v18 : FVec Ideal S512x512 .bf16) (v19 : Vec Ideal S512 .f32)
    (v21 : FVec Ideal S512x512 .bf16) (v22 : Vec Ideal S512 .f32) (v48 : FVec Ideal S256 .f32) (v51 v54 : FVec Ideal S512x256 .bf16)
    (v70 : FVec Ideal S512x512 .bf16) (v76 : FVec Ideal S512x512 .f32) (n : Fin 256) (j : Fin 512) :
    k0_pay22 (F := Ideal) v10 v16 v18 v19 v21 v22 v48 v51 v54 v70 v76 (ix3 (0 : Fin 1) n j)
      = max ((∑ k : Fin 512,
              max ((∑ h : Fin 512,
                    Ideal.div ((∑ t : Fin 512, v51 (ix2 t n) * v76 (ix2 t h))
                              + (∑ t : Fin 512, v54 (ix2 t n) * max ((∑ h' : Fin 512, v70 (ix2 t h') * v10 (ix2 h' h)) + v16 (ix1 h)) 0))
                      (v48 (ix1 n)) * v18 (ix2 h k)) + v19 (ix1 k)) 0 * v21 (ix2 k j)) + v22 (ix1 j)) 0 := by
  unfold k0_pay22
  refine (shapeCast_ab_1ab_apply _ shapeCasts_S256x512_S1x256x512 (0 : Fin 1) n j).trans ?_
  refine congrArg₂ max (congrArg₂ (· + ·) ?_ (bias_at v22 broadcasts_S1x512_S256x512 n j)) Ideal.ofBits_zero_f32
  refine (matmul_256x512_512x512 _ v21 n j).trans (Finset.sum_congr rfl fun k _ => congrArg₂ (· * ·) ?_ rfl)
  refine (truncf_apply _ bitsLt_bf16_f32 (ix2 n k)).trans ?_
  refine congrArg₂ max (congrArg₂ (· + ·) ?_ (bias_at v19 broadcasts_S1x512_S256x512 n k)) Ideal.ofBits_zero_f32
  refine (matmul_256x512_512x512 _ v18 n k).trans (Finset.sum_congr rfl fun h _ => congrArg₂ (· * ·) ?_ rfl)
  refine (truncf_apply _ bitsLt_bf16_f32 (ix2 n h)).trans ?_
  refine (divf_apply _ _ (ix2 n h)).trans ?_
  refine congrArg₂ Ideal.div (congrArg₂ (· + ·) ?_ ?_) (col_at v48 n h)
  · refine (matmul_256x512_512x512 _ _ n h).trans (Finset.sum_congr rfl fun t _ => congrArg₂ (· * ·) ?_ ?_)
    · exact transpose_ix2_apply v51 transposes_S512x256_p1_0_S256x512 n t
    · exact truncf_apply v76 bitsLt_bf16_f32 (ix2 t h)
  · refine (matmul_256x512_512x512 _ _ n h).trans (Finset.sum_congr rfl fun t _ => congrArg₂ (· * ·) ?_ ?_)
    · exact transpose_ix2_apply v54 transposes_S512x256_p1_0_S256x512 n t
    · refine (truncf_apply _ bitsLt_bf16_f32 (ix2 t h)).trans ?_
      exact congrArg₂ max (congrArg₂ (· + ·) (matmul_512x512_512x512 v70 v10 t h) (bias_at v16 broadcasts_S1x512_S512x512 t h))
        Ideal.ofBits_zero_f32

/-- The subject one-hot matrix of graph 0 at an index. -/
private theorem s0_at (B : Blocks) (t : Fin 512) (n : Fin 256) :
    k0_pay18 (F := Ideal) (View.ld B.x2 r0_5) (ix2 t n)
      = if (B.x2 (ix3 (0 : Fin 2) (0 : Fin 1) t)).toNat = n.val then (1 : EReal) else 0 := by
  rw [pay18_at, ld_r0_5]

/-- The object one-hot matrix of graph 0 at an index. -/
private theorem o0_at (B : Blocks) (t : Fin 512) (n : Fin 256) :
    k0_pay19 (F := Ideal) (View.ld B.x3 r0_5) (ix2 t n)
      = if (B.x3 (ix3 (0 : Fin 2) (0 : Fin 1) t)).toNat = n.val then (1 : EReal) else 0 := by
  rw [pay19_at, ld_r0_5]

/-- The indicator of an id word in range times a value. -/
private theorem onehot_mul (w : BitVec 32) (hw : w.toNat < 256) (n : Fin 256) (x : EReal) :
    (if w.toNat = n.val then (1 : EReal) else 0) * x = if node w = n then x else 0 :=
  (ind_mul _ x).trans (if_congr (by rw [Fin.ext_iff, node_val hw]) rfl rfl)

/-- The subject candidates of graph 0, as the body computes them, are the specification's. -/
private theorem edgeS0_apply (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (t k : Fin 512) :
    k0_pay21 (F := Ideal) (k0_pay3 (View.ld B.x4 r0_0)) (k0_pay4 (View.ld B.x5 r0_1)) (View.ld B.x6 r0_2) (k0_pay5 (View.ld B.x7 r0_1))
        (k0_pay8 (View.ld B.x10 r0_2)) (k0_pay13 (View.ld B.x0 r0_3)) (k0_pay14 (View.ld B.x1 r0_4)) (View.ld B.x2 r0_5)
        (View.ld B.x3 r0_5) (ix2 t k)
      = edgeS (bodyWeights B) (bodyGraph B 0) t k := by
  refine (pay21_at _ _ _ _ _ _ _ _ _ t k).trans ?_
  unfold TripleConv.edgeS
  refine congrArg₂ max (congrArg₂ (· + ·) (Finset.sum_congr rfl fun h _ => congrArg₂ (· * ·) (hidden0_apply B hs ho t h) ?_) ?_) rfl
  · rw [pay5_eq, ld_r0_1]; rfl
  · rw [pay8_eq, ld_r0_2]; rfl

/-- The object candidates of graph 0, as the body computes them, are the specification's. -/
private theorem edgeO0_apply (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (t k : Fin 512) :
    max ((∑ h : Fin 512, k0_pay20 (F := Ideal) (k0_pay3 (View.ld B.x4 r0_0)) (k0_pay4 (View.ld B.x5 r0_1)) (View.ld B.x6 r0_2)
            (k0_pay13 (View.ld B.x0 r0_3)) (k0_pay14 (View.ld B.x1 r0_4)) (View.ld B.x2 r0_5) (View.ld B.x3 r0_5) (ix2 t h)
          * k0_pay7 (F := Ideal) (View.ld B.x9 r0_1) (ix2 h k)) + k0_pay10 (F := Ideal) (View.ld B.x12 r0_2) (ix1 k)) 0
      = edgeO (bodyWeights B) (bodyGraph B 0) t k := by
  unfold TripleConv.edgeO
  refine congrArg₂ max (congrArg₂ (· + ·) (Finset.sum_congr rfl fun h _ => congrArg₂ (· * ·) (hidden0_apply B hs ho t h) ?_) ?_) rfl
  · rw [pay7_eq, ld_r0_1]; rfl
  · rw [pay10_eq, ld_r0_2]; rfl

/-- The clamped incidence count of graph 0, as the body computes it, is the specification's degree. -/
private theorem degree0_apply (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (n : Fin 256) :
    k0_pay17 (F := Ideal) (View.ld B.x2 r0_5) (View.ld B.x3 r0_5) (ix1 n) = degree (bodyGraph B 0) n := by
  refine (pay17_at _ _ n).trans ?_
  unfold TripleConv.degree
  refine congrArg₂ max (congrArg₂ (· + ·) (Finset.sum_congr rfl fun t _ => ?_) (Finset.sum_congr rfl fun t _ => ?_)) rfl
  · rw [ld_r0_5 B.x2 t]; exact ind_node _ (hs t) n
  · rw [ld_r0_5 B.x3 t]; exact ind_node _ (ho t) n

/-- The new node vectors of graph 0 of the grid point, as stored, are the specification's, when the graph's subject and
    object ids name nodes. -/
theorem nodePiece0_apply (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (n : Fin 256) (j : Fin 512) :
    nodePiece0 B (ix3 (0 : Fin 1) n j) = nodeOut (bodyWeights B) (bodyGraph B 0) n j := by
  unfold nodePiece0
  refine (pay22_at _ _ _ _ _ _ _ _ _ _ _ n j).trans ?_
  unfold TripleConv.nodeOut
  refine congrArg₂ max (congrArg₂ (· + ·) (Finset.sum_congr rfl fun k _ => congrArg₂ (· * ·) ?_ ?_) ?_) rfl
  · unfold TripleConv.hidden2
    refine congrArg₂ max (congrArg₂ (· + ·) (Finset.sum_congr rfl fun h _ => congrArg₂ (· * ·) ?_ ?_) ?_) rfl
    · unfold TripleConv.pooled
      refine congrArg₂ Ideal.div ?_ (degree0_apply B hs ho n)
      unfold TripleConv.gathered
      refine congrArg₂ (· + ·) (Finset.sum_congr rfl fun t _ => ?_) (Finset.sum_congr rfl fun t _ => ?_)
      · exact (congrArg₂ (· * ·) (s0_at B t n) (edgeS0_apply B hs ho t h)).trans (onehot_mul _ (hs t) n _)
      · exact (congrArg₂ (· * ·) (o0_at B t n) (edgeO0_apply B hs ho t h)).trans (onehot_mul _ (ho t) n _)
    · rw [pay11_eq, ld_r0_1]; rfl
    · rw [ld_r0_2]; rfl
  · rw [pay12_eq, ld_r0_1]; rfl
  · rw [ld_r0_2]; rfl

/-- The new triple vectors of graph 0 of the grid point, as stored, are the specification's. -/
theorem triplePiece0_apply (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (t j : Fin 512) :
    triplePiece0 B (ix3 (0 : Fin 1) t j) = edgeP (bodyWeights B) (bodyGraph B 0) t j := by
  unfold triplePiece0
  refine (pay23_at _ _ _ t j).trans ?_
  unfold edgeP
  refine congrArg₂ max (congrArg₂ (· + ·) (Finset.sum_congr rfl fun h _ => congrArg₂ (· * ·) (hidden0_apply B hs ho t h) ?_) ?_) rfl
  · rw [pay6_eq, ld_r0_1]; rfl
  · rw [pay9_eq, ld_r0_2]; rfl

end Cert.KernelIdeal.Body

end
-- ==== Proof.KerBody1.lean ====
/-
  The stored pieces of graph 1 of a grid point ARE the specification's functions of that graph.

  Each value the body computes for graph 1 is read at an index as a closed formula in the values before it: a matrix
  product into a zero accumulator is a plain sum over the contracted axis, a bias is a row added to every row, a ReLU
  is a maximum with 0, the slices of the 256 × 1024 product are its columns 0–511 and 512–1023. A one-hot matrix is the
  indicator of a node id, so its product with the node rows selects the row of the subject (or object) node — on the
  extended reals 0 · x = 0 and 1 · x = x for every x —, and its transpose times the candidates sums the candidates of
  the triples that node occurs in. With the ids in range, an id equals a node's position exactly when its node is that
  node, and the formulas fold into the specification's hidden layer, candidates, gathered sums, degree, average and
  second network.
-/
import proofs.«419139_j22110491640377_3_alg».proof.Proof.KerTerms
import proofs.«419139_j22110491640377_3_alg».proof.Proof.KerOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Cert.TripleConv
open Idealize.ShloMosaic Idealize.ShloMosaic.ValueIdx Idealize.SL.Sem

namespace Graph1

/-! ## The parameter blocks pass through a shape cast to their own shape -/

/-- A parameter matrix cast to its own shape is itself. -/
theorem pay3_at (v : Vec Ideal S512x1024 .bf16) (i : S512x1024.Idx) : k0_pay3 (F := Ideal) v i = v i :=
  shapeCast_apply v shapeCasts_S512x1024_S512x1024 i i rfl

/-- A parameter matrix cast to its own shape is itself. -/
theorem pay4_at (v : Vec Ideal S512x512 .bf16) (i : S512x512.Idx) : k0_pay4 (F := Ideal) v i = v i :=
  shapeCast_apply v shapeCasts_S512x512_S512x512 i i rfl

/-- A parameter matrix cast to its own shape is itself. -/
theorem pay5_at (v : Vec Ideal S512x512 .bf16) (i : S512x512.Idx) : k0_pay5 (F := Ideal) v i = v i :=
  shapeCast_apply v shapeCasts_S512x512_S512x512 i i rfl

/-- A parameter matrix cast to its own shape is itself. -/
theorem pay6_at (v : Vec Ideal S512x512 .bf16) (i : S512x512.Idx) : k0_pay6 (F := Ideal) v i = v i :=
  shapeCast_apply v shapeCasts_S512x512_S512x512 i i rfl

/-- A parameter matrix cast to its own shape is itself. -/
theorem pay7_at (v : Vec Ideal S512x512 .bf16) (i : S512x512.Idx) : k0_pay7 (F := Ideal) v i = v i :=
  shapeCast_apply v shapeCasts_S512x512_S512x512 i i rfl

/-- A bias vector cast to its own shape is itself. -/
theorem pay8_at (v : Vec Ideal S512 .f32) (i : S512.Idx) : k0_pay8 (F := Ideal) v i = v i :=
  shapeCast_apply v shapeCasts_S512_S512 i i rfl

/-- A bias vector cast to its own shape is itself. -/
theorem pay9_at (v : Vec Ideal S512 .f32) (i : S512.Idx) : k0_pay9 (F := Ideal) v i = v i :=
  shapeCast_apply v shapeCasts_S512_S512 i i rfl

/-- A bias vector cast to its own shape is itself. -/
theorem pay10_at (v : Vec Ideal S512 .f32) (i : S512.Idx) : k0_pay10 (F := Ideal) v i = v i :=
  shapeCast_apply v shapeCasts_S512_S512 i i rfl

/-- A parameter matrix cast to its own shape is itself. -/
theorem pay11_at (v : Vec Ideal S512x512 .bf16) (i : S512x512.Idx) : k0_pay11 (F := Ideal) v i = v i :=
  shapeCast_apply v shapeCasts_S512x512_S512x512 i i rfl

/-- A parameter matrix cast to its own shape is itself. -/
theorem pay12_at (v : Vec Ideal S512x512 .bf16) (i : S512x512.Idx) : k0_pay12 (F := Ideal) v i = v i :=
  shapeCast_apply v shapeCasts_S512x512_S512x512 i i rfl

/-! ## The two stored casts -/

/-- The triple piece is the triple vectors under a leading unit axis. -/
theorem pay2_at (v : FVec Ideal S512x512 .f32) (t j : Fin 512) :
    k0_pay2 (F := Ideal) v (ix3 (0 : Fin 1) t j) = v (ix2 t j) :=
  shapeCast_ab_1ab_apply v shapeCasts_S512x512_S1x512x512 (0 : Fin 1) t j

/-- The node piece is the last ReLU under a leading unit axis. -/
theorem pay1_at (v : FVec Ideal S256x512 .f32) (c : Ideal .f32) (n : Fin 256) (j : Fin 512) :
    k0_pay1 (F := Ideal) v c (ix3 (0 : Fin 1) n j) = max (v (ix2 n j)) c :=
  shapeCast_ab_1ab_apply (maximumf v (broadcast S256x512 c)) shapeCasts_S256x512_S1x256x512 (0 : Fin 1) n j

/-! ## The node vectors times the first matrix's subject and object blocks -/

/-- The node rows times the 512 × 1024 block: a sum over the 512 input coordinates. -/
theorem pay29_at (v1 : FVec Ideal S512x1024 .bf16) (v119 : Vec Ideal S1x256x512 .f32) (n : Fin 256) (c : Fin 1024) :
    k0_pay29 (F := Ideal) v1 v119 (ix2 n c) = ∑ d : Fin 512, v119 (ix3 (0 : Fin 1) n d) * v1 (ix2 d c) := by
  unfold k0_pay29
  refine (matmul_256x512_512x1024 _ v1 n c).trans ?_
  refine Finset.sum_congr rfl fun d _ => ?_
  refine congrArg (· * v1 (ix2 d c)) ?_
  exact shapeCast_1ab_ab_apply v119 shapeCasts_S1x256x512_S256x512 n d

/-! ## A bias row added to every row, and a linear layer with its ReLU -/

/-- A bias as a row, added to each of 512 rows. -/
theorem bias_row512 (v : FVec Ideal S512 .f32) (t h : Fin 512) :
    broadcastTo S512x512 (shapeCast S1x512 v shapeCasts_S512_S1x512) broadcasts_S1x512_S512x512 (ix2 t h) = v (ix1 h) :=
  (broadcastTo_1b_ab_apply _ broadcasts_S1x512_S512x512 t h).trans (shapeCast_a_1a_apply v shapeCasts_S512_S1x512 (0 : Fin 1) h)

/-- A bias as a row, added to each of 256 rows. -/
theorem bias_row256 (v : FVec Ideal S512 .f32) (n : Fin 256) (h : Fin 512) :
    broadcastTo S256x512 (shapeCast S1x512 v shapeCasts_S512_S1x512) broadcasts_S1x512_S256x512 (ix2 n h) = v (ix1 h) :=
  (broadcastTo_1b_ab_apply _ broadcasts_S1x512_S256x512 n h).trans (shapeCast_a_1a_apply v shapeCasts_S512_S1x512 (0 : Fin 1) h)

/-- A linear layer over 512 rows with its bias and ReLU, at an entry. -/
theorem dense512 (a w : FVec Ideal S512x512 .bf16) (b : FVec Ideal S512 .f32) (t j : Fin 512) :
    maximumf (addf (matmul dot_S512x512_S512x512_S512x512_1_0_0_1_n_n none a w (constant S512x512 .f32 0x00000000#32))
        (broadcastTo S512x512 (shapeCast S1x512 b shapeCasts_S512_S1x512) broadcasts_S1x512_S512x512))
      (broadcast S512x512 (Scalar.ofBits .f32 0x00000000#32)) (ix2 t j)
      = max ((∑ h : Fin 512, a (ix2 t h) * w (ix2 h j)) + b (ix1 j)) 0 :=
  congrArg₂ max (congrArg₂ (· + ·) (matmul_512x512_512x512 a w t j) (bias_row512 b t j)) Ideal.ofBits_zero_f32

/-! ## The first network -/

/-- The first hidden layer: the three partial products, the bias, the ReLU. -/
theorem pay32_at (v4 : Vec Ideal S512 .f32) (v158 v159 : FVec Ideal S512x512 .f32) (t h : Fin 512) :
    k0_pay32 (F := Ideal) v4 v158 v159 (ix2 t h) = max (v158 (ix2 t h) + v159 (ix2 t h) + v4 (ix1 h)) 0 := by
  unfold k0_pay32
  exact congrArg₂ max (congrArg (v158 (ix2 t h) + v159 (ix2 t h) + ·) (bias_row512 v4 t h)) Ideal.ofBits_zero_f32

/-- The new triple vectors: the hidden layer through the triple block of the second matrix. -/
theorem pay33_at (v4 : Vec Ideal S512 .f32) (v8 : FVec Ideal S512x512 .bf16) (v14 : FVec Ideal S512 .f32)
    (v158 v159 : FVec Ideal S512x512 .f32) (t j : Fin 512) :
    k0_pay33 (F := Ideal) v4 v8 v14 v158 v159 (ix2 t j)
      = max ((∑ h : Fin 512, k0_pay32 (F := Ideal) v4 v158 v159 (ix2 t h) * v8 (ix2 h j)) + v14 (ix1 j)) 0 := by
  unfold k0_pay33
  exact dense512 (k0_pay32 v4 v158 v159) v8 v14 t j

/-- The subject rows selected by the one-hot product (columns 0–511), plus the triple vectors' product. -/
theorem pay30_at (v1 : FVec Ideal S512x1024 .bf16) (v3 : FVec Ideal S512x512 .bf16) (v119 : Vec Ideal S1x256x512 .f32)
    (v121 : Vec Ideal S1x512x512 .f32) (v125 : Vec Ideal S1x1x512 .i32) (t h : Fin 512) :
    k0_pay30 (F := Ideal) v1 v3 v119 v121 v125 (ix2 t h)
      = (∑ n : Fin 256, k0_pay27 (F := Ideal) v125 (ix2 t n) * k0_pay29 (F := Ideal) v1 v119 (ix2 n (colL h)))
        + ∑ d : Fin 512, v121 (ix3 (0 : Fin 1) t d) * v3 (ix2 d h) := by
  unfold k0_pay30
  refine congrArg₂ (· + ·) ?_ ?_
  · refine (matmul_512x256_256x512 (k0_pay27 v125) _ t h).trans ?_
    refine Finset.sum_congr rfl fun n _ => congrArg (k0_pay27 (F := Ideal) v125 (ix2 t n) * ·) ?_
    exact slice2_axis1_apply 0 (k0_pay29 v1 v119) slices_S256x1024_o0_0_S256x512 n h (colL h) (Nat.zero_add _).symm
  · refine (matmul_512x512_512x512 _ v3 t h).trans ?_
    refine Finset.sum_congr rfl fun d _ => congrArg (· * v3 (ix2 d h)) ?_
    exact shapeCast_1ab_ab_apply v121 shapeCasts_S1x512x512_S512x512 t d

/-- The object rows selected by the one-hot product (columns 512–1023). -/
theorem pay31_at (v1 : FVec Ideal S512x1024 .bf16) (v119 : Vec Ideal S1x256x512 .f32) (v127 : Vec Ideal S1x1x512 .i32)
    (t h : Fin 512) :
    k0_pay31 (F := Ideal) v1 v119 v127 (ix2 t h)
      = ∑ n : Fin 256, k0_pay28 (F := Ideal) v127 (ix2 t n) * k0_pay29 (F := Ideal) v1 v119 (ix2 n (colR h)) := by
  unfold k0_pay31
  refine (matmul_512x256_256x512 (k0_pay28 v127) _ t h).trans ?_
  refine Finset.sum_congr rfl fun n _ => congrArg (k0_pay28 (F := Ideal) v127 (ix2 t n) * ·) ?_
  exact slice2_axis1_apply 512 (k0_pay29 v1 v119) slices_S256x1024_o0_512_S256x512 n h (colR h) rfl

/-! ## Node ids and their indicators -/

/-- An id in range names node `n` exactly when its value is `n`'s position. -/
theorem node_eq_iff {w : BitVec 32} (hw : w.toNat < 256) (n : Fin 256) : node w = n ↔ w.toNat = n.val := by
  rw [Fin.ext_iff, node_val hw]

/-- Selecting a node's row by its id's indicator. -/
theorem sum_id_mul {w : BitVec 32} (hw : w.toNat < 256) (y : Fin 256 → EReal) :
    (∑ n : Fin 256, (if w.toNat = n.val then (1 : EReal) else 0) * y n) = y (node w) := by
  refine Eq.trans (Finset.sum_congr rfl fun n _ => ?_) (sum_ind_mul (node w) y)
  exact congrArg (· * y n) (if_congr (node_eq_iff hw n).symm rfl rfl)

/-- An id's indicator times a value, as an `if` on the node. -/
theorem id_mul {w : BitVec 32} (hw : w.toNat < 256) (n : Fin 256) (x : EReal) :
    (if w.toNat = n.val then (1 : EReal) else 0) * x = if node w = n then x else 0 :=
  (ind_mul _ x).trans (if_congr (node_eq_iff hw n).symm rfl rfl)

/-- The clamped count column broadcast along the rows. -/
theorem col_bcast256 (v : FVec Ideal S256 .f32) (n : Fin 256) (k : Fin 512) :
    broadcastTo S256x512 (shapeCast S256x1 v shapeCasts_S256_S256x1) broadcasts_S256x1_S256x512 (ix2 n k) = v (ix1 n) := by
  refine (broadcastTo_apply _ broadcasts_S256x1_S256x512 (ix2 n k) (ix2 n (0 : Fin 1)) fun ax => ?_).trans ?_
  · match ax with
    | ⟨0, _⟩ => rfl
    | ⟨1, _⟩ => rfl
  · refine shapeCast_apply v shapeCasts_S256_S256x1 (ix2 n (0 : Fin 1)) (ix1 n) ?_
    rw [Shape.rowMajor_val_one, Shape.rowMajor_val_two]
    show n.val = n.val * 1 + 0
    omega

/-! ## The rest of the body: candidates, scatter, average, second network -/

/-- The node side after the hidden layer: both candidates, their sums over the triples of each node by the transposed
    one-hot matrices, the division by the clamped count, and the second network up to its last bias. -/
theorem pay34_at (v4 : Vec Ideal S512 .f32) (v6 v10 : FVec Ideal S512x512 .bf16) (v12 v16 : FVec Ideal S512 .f32)
    (v18 : FVec Ideal S512x512 .bf16) (v19 : Vec Ideal S512 .f32) (v21 : FVec Ideal S512x512 .bf16) (v22 : Vec Ideal S512 .f32)
    (v144 : FVec Ideal S256 .f32) (v147 v150 : FVec Ideal S512x256 .bf16) (v158 v159 : FVec Ideal S512x512 .f32)
    (n : Fin 256) (j : Fin 512) :
    k0_pay34 (F := Ideal) v4 v6 v10 v12 v16 v18 v19 v21 v22 v144 v147 v150 v158 v159 (ix2 n j)
      = (∑ k' : Fin 512,
          max ((∑ k : Fin 512,
              Ideal.div
                ((∑ t : Fin 512, v147 (ix2 t n)
                    * max ((∑ h : Fin 512, k0_pay32 (F := Ideal) v4 v158 v159 (ix2 t h) * v6 (ix2 h k)) + v12 (ix1 k)) 0)
                  + ∑ t : Fin 512, v150 (ix2 t n)
                    * max ((∑ h : Fin 512, k0_pay32 (F := Ideal) v4 v158 v159 (ix2 t h) * v10 (ix2 h k)) + v16 (ix1 k)) 0)
                (v144 (ix1 n)) * v18 (ix2 k k')) + v19 (ix1 k')) 0 * v21 (ix2 k' j))
        + v22 (ix1 j) := by
  unfold k0_pay34
  refine congrArg₂ (· + ·) ?_ (bias_row256 v22 n j)
  refine (matmul_256x512_512x512 _ v21 n j).trans ?_
  refine Finset.sum_congr rfl fun k' _ => congrArg (· * v21 (ix2 k' j)) ?_
  refine congrArg₂ max (congrArg₂ (· + ·) ?_ (bias_row256 v19 n k')) Ideal.ofBits_zero_f32
  refine (matmul_256x512_512x512 _ v18 n k').trans ?_
  refine Finset.sum_congr rfl fun k _ => congrArg (· * v18 (ix2 k k')) ?_
  refine congrArg₂ Ideal.div (congrArg₂ (· + ·) ?_ ?_) (col_bcast256 v144 n k)
  · refine (matmul_256x512_512x512 _ _ n k).trans ?_
    refine Finset.sum_congr rfl fun t _ => congrArg₂ (· * ·) ?_ ?_
    · exact transpose_ix2_apply v147 transposes_S512x256_p1_0_S256x512 n t
    · exact dense512 (k0_pay32 v4 v158 v159) v6 v12 t k
  · refine (matmul_256x512_512x512 _ _ n k).trans ?_
    refine Finset.sum_congr rfl fun t _ => congrArg₂ (· * ·) ?_ ?_
    · exact transpose_ix2_apply v150 transposes_S512x256_p1_0_S256x512 n t
    · exact dense512 (k0_pay32 v4 v158 v159) v10 v16 t k

/-! ## Graph 1 of the grid point: the body's values are the specification's -/

/-- The subject one-hot matrix of graph 1 is the indicator of the subject id. -/
theorem onehot_s1 (B : Blocks) (t : Fin 512) (n : Fin 256) :
    k0_pay27 (F := Ideal) (View.ld B.x2 r0_8) (ix2 t n)
      = if (B.x2 (ix3 (1 : Fin 2) (0 : Fin 1) t)).toNat = n.val then (1 : EReal) else 0 := by
  rw [pay27_at, ld_r0_8]

/-- The object one-hot matrix of graph 1 is the indicator of the object id. -/
theorem onehot_o1 (B : Blocks) (t : Fin 512) (n : Fin 256) :
    k0_pay28 (F := Ideal) (View.ld B.x3 r0_8) (ix2 t n)
      = if (B.x3 (ix3 (1 : Fin 2) (0 : Fin 1) t)).toNat = n.val then (1 : EReal) else 0 := by
  rw [pay28_at, ld_r0_8]

/-- Graph 1's node vectors times the side-by-side subject and object blocks of the first matrix. -/
theorem xw1_at (B : Blocks) (n : Fin 256) (c : Fin 1024) :
    k0_pay29 (F := Ideal) (k0_pay3 (View.ld B.x4 r0_0)) (View.ld B.x0 r0_6) (ix2 n c)
      = ∑ d : Fin 512, B.x0 (ix3 (1 : Fin 2) n d) * B.x4 (ix2 d c) :=
  (pay29_at _ _ n c).trans (Finset.sum_congr rfl fun d _ =>
    congrArg₂ (· * ·) (ld_r0_6 B.x0 n d) ((pay3_at _ _).trans (congrFun (ld_r0_0 B.x4) _)))

/-- The first network's hidden layer of graph 1: the one-hot products select the subject's and the object's rows. -/
theorem hidden1_at (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (t h : Fin 512) :
    k0_pay32 (F := Ideal) (View.ld B.x6 r0_2)
        (k0_pay30 (F := Ideal) (k0_pay3 (View.ld B.x4 r0_0)) (k0_pay4 (View.ld B.x5 r0_1)) (View.ld B.x0 r0_6) (View.ld B.x1 r0_7) (View.ld B.x2 r0_8))
        (k0_pay31 (F := Ideal) (k0_pay3 (View.ld B.x4 r0_0)) (View.ld B.x0 r0_6) (View.ld B.x3 r0_8)) (ix2 t h)
      = TripleConv.hidden (bodyWeights B) (bodyGraph B 1) t h := by
  refine (pay32_at _ _ _ t h).trans ?_
  unfold TripleConv.hidden
  refine congrArg (max · 0) ?_
  refine congrArg₂ (· + ·) (congrArg₂ (· + ·) ?_ ?_) (congrFun (ld_r0_2 B.x6) (ix1 h))
  · refine (pay30_at _ _ _ _ _ t h).trans (congrArg₂ (· + ·) ?_ ?_)
    · refine Eq.trans (Finset.sum_congr rfl fun n _ => congrArg₂ (· * ·) (onehot_s1 B t n) (xw1_at B n (colL h))) ?_
      exact sum_id_mul (hs t) (fun n => ∑ d : Fin 512, B.x0 (ix3 (1 : Fin 2) n d) * B.x4 (ix2 d (colL h)))
    · exact Finset.sum_congr rfl fun d _ =>
        congrArg₂ (· * ·) (ld_r0_7 B.x1 t d) ((pay4_at _ _).trans (congrFun (ld_r0_1 B.x5) _))
  · refine (pay31_at _ _ _ t h).trans ?_
    refine Eq.trans (Finset.sum_congr rfl fun n _ => congrArg₂ (· * ·) (onehot_o1 B t n) (xw1_at B n (colR h))) ?_
    exact sum_id_mul (ho t) (fun n => ∑ d : Fin 512, B.x0 (ix3 (1 : Fin 2) n d) * B.x4 (ix2 d (colR h)))

/-- The new subject candidates of graph 1. -/
theorem edgeS1_at (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (t k : Fin 512) :
    max ((∑ h : Fin 512, k0_pay32 (F := Ideal) (View.ld B.x6 r0_2)
        (k0_pay30 (F := Ideal) (k0_pay3 (View.ld B.x4 r0_0)) (k0_pay4 (View.ld B.x5 r0_1)) (View.ld B.x0 r0_6) (View.ld B.x1 r0_7) (View.ld B.x2 r0_8))
        (k0_pay31 (F := Ideal) (k0_pay3 (View.ld B.x4 r0_0)) (View.ld B.x0 r0_6) (View.ld B.x3 r0_8)) (ix2 t h)
        * k0_pay5 (F := Ideal) (View.ld B.x7 r0_1) (ix2 h k)) + k0_pay8 (F := Ideal) (View.ld B.x10 r0_2) (ix1 k)) 0
      = edgeS (bodyWeights B) (bodyGraph B 1) t k := by
  unfold edgeS
  refine congrArg (max · 0) (congrArg₂ (· + ·)
    (Finset.sum_congr rfl fun h _ => congrArg₂ (· * ·) (hidden1_at B hs ho t h) ?_) ?_)
  · exact (pay5_at _ _).trans (congrFun (ld_r0_1 B.x7) _)
  · exact (pay8_at _ _).trans (congrFun (ld_r0_2 B.x10) _)

/-- The new triple vectors of graph 1. -/
theorem edgeP1_at (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (t k : Fin 512) :
    max ((∑ h : Fin 512, k0_pay32 (F := Ideal) (View.ld B.x6 r0_2)
        (k0_pay30 (F := Ideal) (k0_pay3 (View.ld B.x4 r0_0)) (k0_pay4 (View.ld B.x5 r0_1)) (View.ld B.x0 r0_6) (View.ld B.x1 r0_7) (View.ld B.x2 r0_8))
        (k0_pay31 (F := Ideal) (k0_pay3 (View.ld B.x4 r0_0)) (View.ld B.x0 r0_6) (View.ld B.x3 r0_8)) (ix2 t h)
        * k0_pay6 (F := Ideal) (View.ld B.x8 r0_1) (ix2 h k)) + k0_pay9 (F := Ideal) (View.ld B.x11 r0_2) (ix1 k)) 0
      = edgeP (bodyWeights B) (bodyGraph B 1) t k := by
  unfold edgeP
  refine congrArg (max · 0) (congrArg₂ (· + ·)
    (Finset.sum_congr rfl fun h _ => congrArg₂ (· * ·) (hidden1_at B hs ho t h) ?_) ?_)
  · exact (pay6_at _ _).trans (congrFun (ld_r0_1 B.x8) _)
  · exact (pay9_at _ _).trans (congrFun (ld_r0_2 B.x11) _)

/-- The new object candidates of graph 1. -/
theorem edgeO1_at (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (t k : Fin 512) :
    max ((∑ h : Fin 512, k0_pay32 (F := Ideal) (View.ld B.x6 r0_2)
        (k0_pay30 (F := Ideal) (k0_pay3 (View.ld B.x4 r0_0)) (k0_pay4 (View.ld B.x5 r0_1)) (View.ld B.x0 r0_6) (View.ld B.x1 r0_7) (View.ld B.x2 r0_8))
        (k0_pay31 (F := Ideal) (k0_pay3 (View.ld B.x4 r0_0)) (View.ld B.x0 r0_6) (View.ld B.x3 r0_8)) (ix2 t h)
        * k0_pay7 (F := Ideal) (View.ld B.x9 r0_1) (ix2 h k)) + k0_pay10 (F := Ideal) (View.ld B.x12 r0_2) (ix1 k)) 0
      = edgeO (bodyWeights B) (bodyGraph B 1) t k := by
  unfold edgeO
  refine congrArg (max · 0) (congrArg₂ (· + ·)
    (Finset.sum_congr rfl fun h _ => congrArg₂ (· * ·) (hidden1_at B hs ho t h) ?_) ?_)
  · exact (pay7_at _ _).trans (congrFun (ld_r0_1 B.x9) _)
  · exact (pay10_at _ _).trans (congrFun (ld_r0_2 B.x12) _)

end Graph1

open Graph1

/-- The new node vectors of graph 1 of the grid point, as stored, are the specification's, when the graph's subject and
    object ids name nodes. -/
theorem nodePiece1_apply (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (n : Fin 256) (j : Fin 512) :
    nodePiece1 B (ix3 (0 : Fin 1) n j) = nodeOut (bodyWeights B) (bodyGraph B 1) n j := by
  unfold nodePiece1
  refine (pay1_at _ _ n j).trans ?_
  unfold nodeOut
  refine congrArg₂ max ?_ Ideal.ofBits_zero_f32
  refine (pay34_at _ _ _ _ _ _ _ _ _ _ _ _ _ _ n j).trans ?_
  refine congrArg₂ (· + ·) (Finset.sum_congr rfl fun k' _ => congrArg₂ (· * ·) ?_
    ((pay12_at _ _).trans (congrFun (ld_r0_1 B.x15) _))) (congrFun (ld_r0_2 B.x16) (ix1 j))
  unfold hidden2
  refine congrArg (max · 0) (congrArg₂ (· + ·) (Finset.sum_congr rfl fun k _ => congrArg₂ (· * ·) ?_
    ((pay11_at _ _).trans (congrFun (ld_r0_1 B.x13) _))) (congrFun (ld_r0_2 B.x14) (ix1 k')))
  unfold pooled
  refine congrArg₂ Ideal.div ?_ ?_
  · unfold gathered
    refine congrArg₂ (· + ·) (Finset.sum_congr rfl fun t _ => ?_) (Finset.sum_congr rfl fun t _ => ?_)
    · rw [onehot_s1, edgeS1_at B hs ho t k]
      exact id_mul (hs t) n _
    · rw [onehot_o1, edgeO1_at B hs ho t k]
      exact id_mul (ho t) n _
  · unfold degree
    refine (pay26_at _ _ n).trans ?_
    refine congrArg (max · 1) (congrArg₂ (· + ·) (Finset.sum_congr rfl fun t _ => ?_) (Finset.sum_congr rfl fun t _ => ?_))
    · rw [ld_r0_8]
      exact if_congr (node_eq_iff (hs t) n).symm rfl rfl
    · rw [ld_r0_8]
      exact if_congr (node_eq_iff (ho t) n).symm rfl rfl

/-- The new triple vectors of graph 1 of the grid point, as stored, are the specification's. -/
theorem triplePiece1_apply (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (t j : Fin 512) :
    triplePiece1 B (ix3 (0 : Fin 1) t j) = edgeP (bodyWeights B) (bodyGraph B 1) t j := by
  unfold triplePiece1
  refine (pay2_at _ t j).trans ?_
  refine (pay33_at _ _ _ _ _ t j).trans ?_
  exact edgeP1_at B hs ho t j

end Cert.KernelIdeal.Body

end
-- ==== Proof.KerValue.lean ====
/-
  The kernel's two result arrays after its run ARE the specification's arrays of the argument arrays: every grid point
  writes back two graphs' worth of each, the 32 points' blocks cover the arrays.
-/
import proofs.«419139_j22110491640377_3_alg».proof.Proof.Gen.KernelIdeal.Value
import proofs.«419139_j22110491640377_3_alg».proof.Proof.KerGlue
import proofs.«419139_j22110491640377_3_alg».proof.Proof.KerBody0
import proofs.«419139_j22110491640377_3_alg».proof.Proof.KerBody1

noncomputable section

open scoped BigOperators

namespace Cert.KernelIdeal.Body

open Cert.KernelIdeal Cert.KernelIdeal.Gen Cert.TripleConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One grid point's two output blocks, entry by entry -/

/-- The first graph's rectangle of a two-graph node block places a piece's entry (0, n, j) at (0, n, j). -/
theorem emb_nodes0 (x : S1x256x512.Idx) : r0_3.emb x = ix3 (0 : Fin 2) (x 1 : Fin 256) (x 2 : Fin 512) := by
  funext a; apply Fin.ext
  match a with
  | ⟨0, _⟩ => show 0 + 1 * (x 0).val = 0; have h : (x 0).val < 1 := (x 0).isLt; omega
  | ⟨1, _⟩ => show 0 + 1 * (x 1).val = (x 1).val; omega
  | ⟨2, _⟩ => show 0 + 1 * (x 2).val = (x 2).val; omega

/-- The second graph's rectangle places it at (1, n, j). -/
theorem emb_nodes1 (x : S1x256x512.Idx) : r0_6.emb x = ix3 (1 : Fin 2) (x 1 : Fin 256) (x 2 : Fin 512) := by
  funext a; apply Fin.ext
  match a with
  | ⟨0, _⟩ => show 1 + 1 * (x 0).val = 1; have h : (x 0).val < 1 := (x 0).isLt; omega
  | ⟨1, _⟩ => show 0 + 1 * (x 1).val = (x 1).val; omega
  | ⟨2, _⟩ => show 0 + 1 * (x 2).val = (x 2).val; omega

/-- The same for the triple block: the first graph's rectangle, -/
theorem emb_triples0 (x : S1x512x512.Idx) : r0_4.emb x = ix3 (0 : Fin 2) (x 1 : Fin 512) (x 2 : Fin 512) := by
  funext a; apply Fin.ext
  match a with
  | ⟨0, _⟩ => show 0 + 1 * (x 0).val = 0; have h : (x 0).val < 1 := (x 0).isLt; omega
  | ⟨1, _⟩ => show 0 + 1 * (x 1).val = (x 1).val; omega
  | ⟨2, _⟩ => show 0 + 1 * (x 2).val = (x 2).val; omega

/-- and the second graph's. -/
theorem emb_triples1 (x : S1x512x512.Idx) : r0_7.emb x = ix3 (1 : Fin 2) (x 1 : Fin 512) (x 2 : Fin 512) := by
  funext a; apply Fin.ext
  match a with
  | ⟨0, _⟩ => show 1 + 1 * (x 0).val = 1; have h : (x 0).val < 1 := (x 0).isLt; omega
  | ⟨1, _⟩ => show 0 + 1 * (x 1).val = (x 1).val; omega
  | ⟨2, _⟩ => show 0 + 1 * (x 2).val = (x 2).val; omega

/-- An entry of a one-graph piece is entry (0, n, j). -/
theorem piece_idx {n1 n2 : Nat} (x : (⟨3, ![1, n1, n2]⟩ : Shape).Idx) : x = ix3 (0 : Fin 1) (x 1) (x 2) := by
  funext a
  match a with
  | ⟨0, _⟩ => exact Fin.ext (Nat.lt_one_iff.mp (x 0).isLt)
  | ⟨1, _⟩ => rfl
  | ⟨2, _⟩ => rfl

/-- The first graph's node piece at an entry, read where its rectangle places the entry. -/
theorem nodePiece0_at (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (x : S1x256x512.Idx) :
    nodePiece0 B x = nodeOut (bodyWeights B) (bodyGraph B (r0_3.emb x 0)) (r0_3.emb x 1) (r0_3.emb x 2) := by
  refine (congrArg (nodePiece0 B) (piece_idx x)).trans ?_
  refine (nodePiece0_apply B hs ho (x 1) (x 2)).trans ?_
  rw [emb_nodes0 x]

/-- The second graph's. -/
theorem nodePiece1_at (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (x : S1x256x512.Idx) :
    nodePiece1 B x = nodeOut (bodyWeights B) (bodyGraph B (r0_6.emb x 0)) (r0_6.emb x 1) (r0_6.emb x 2) := by
  refine (congrArg (nodePiece1 B) (piece_idx x)).trans ?_
  refine (nodePiece1_apply B hs ho (x 1) (x 2)).trans ?_
  rw [emb_nodes1 x]

/-- The first graph's triple piece at an entry, read where its rectangle places the entry. -/
theorem triplePiece0_at (B : Blocks) (hs : ∀ t : Fin 512, (B.x2 (ix3 (0 : Fin 2) (0 : Fin 1) t)).toNat < 256)
    (ho : ∀ t : Fin 512, (B.x3 (ix3 (0 : Fin 2) (0 : Fin 1) t)).toNat < 256) (x : S1x512x512.Idx) :
    triplePiece0 B x = edgeP (bodyWeights B) (bodyGraph B (r0_4.emb x 0)) (r0_4.emb x 1) (r0_4.emb x 2) := by
  refine (congrArg (triplePiece0 B) (piece_idx x)).trans ?_
  refine (triplePiece0_apply B hs ho (x 1) (x 2)).trans ?_
  rw [emb_triples0 x]

/-- The second graph's. -/
theorem triplePiece1_at (B : Blocks) (hs : ∀ t : Fin 512, (B.x2 (ix3 (1 : Fin 2) (0 : Fin 1) t)).toNat < 256)
    (ho : ∀ t : Fin 512, (B.x3 (ix3 (1 : Fin 2) (0 : Fin 1) t)).toNat < 256) (x : S1x512x512.Idx) :
    triplePiece1 B x = edgeP (bodyWeights B) (bodyGraph B (r0_7.emb x 0)) (r0_7.emb x 1) (r0_7.emb x 2) := by
  refine (congrArg (triplePiece1 B) (piece_idx x)).trans ?_
  refine (triplePiece1_apply B hs ho (x 1) (x 2)).trans ?_
  rw [emb_triples1 x]

/-- The node block a grid point leaves: entry (i, n, j) is the new vector of node n of the point's graph i. -/
theorem blockNodes (B : Blocks)
    (hs : ∀ (i : Fin 2) (t : Fin 512), (B.x2 (ix3 i (0 : Fin 1) t)).toNat < 256)
    (ho : ∀ (i : Fin 2) (t : Fin 512), (B.x3 (ix3 i (0 : Fin 1) t)).toNat < 256) (y : S2x256x512.Idx) :
    View.canon (Val := Elt Ideal) (s := S2x256x512) (e := .f32) [⟨r0_6, nodePiece1 B⟩, ⟨r0_3, nodePiece0 B⟩] y
      = nodeOut (bodyWeights B) (bodyGraph B (y 0)) (y 1) (y 2) := by
  refine View.canon_apply_of_pieces (Val := Elt Ideal) (S := S2x256x512) (e := .f32)
    (fun y : S2x256x512.Idx => nodeOut (bodyWeights B) (bodyGraph B (y 0)) (y 1) (y 2))
    [⟨r0_6, nodePiece1 B⟩, ⟨r0_3, nodePiece0 B⟩] ?_ y (cover0_17 (F := Ideal) (nodePiece1 B) (nodePiece0 B) y)
  intro p hp
  simp only [List.mem_cons, List.not_mem_nil, or_false] at hp
  rcases hp with rfl | rfl
  · exact fun x => nodePiece1_at B (hs 1) (ho 1) x
  · exact fun x => nodePiece0_at B (hs 0) (ho 0) x

/-- The triple block a grid point leaves: entry (i, t, j) is the new vector of triple t of the point's graph i. -/
theorem blockTriples (B : Blocks)
    (hs : ∀ (i : Fin 2) (t : Fin 512), (B.x2 (ix3 i (0 : Fin 1) t)).toNat < 256)
    (ho : ∀ (i : Fin 2) (t : Fin 512), (B.x3 (ix3 i (0 : Fin 1) t)).toNat < 256) (y : S2x512x512.Idx) :
    View.canon (Val := Elt Ideal) (s := S2x512x512) (e := .f32) [⟨r0_7, triplePiece1 B⟩, ⟨r0_4, triplePiece0 B⟩] y
      = edgeP (bodyWeights B) (bodyGraph B (y 0)) (y 1) (y 2) := by
  refine View.canon_apply_of_pieces (Val := Elt Ideal) (S := S2x512x512) (e := .f32)
    (fun y : S2x512x512.Idx => edgeP (bodyWeights B) (bodyGraph B (y 0)) (y 1) (y 2))
    [⟨r0_7, triplePiece1 B⟩, ⟨r0_4, triplePiece0 B⟩] ?_ y (cover0_18 (F := Ideal) (triplePiece1 B) (triplePiece0 B) y)
  intro p hp
  simp only [List.mem_cons, List.not_mem_nil, or_false] at hp
  rcases hp with rfl | rfl
  · exact fun x => triplePiece1_at B (hs 1) (ho 1) x
  · exact fun x => triplePiece0_at B (hs 0) (ho 0) x

/-! ## From the blocks to the arrays -/

/-- The seventeen blocks grid point `t` finds, bundled, give the node block as the canon of the two pieces. -/
theorem out17_at (c : Dev nD) (t : Fin cfg0.N) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      = View.canon [⟨r0_6, nodePiece1 (blocksAt m c t)⟩, ⟨r0_3, nodePiece0 (blocksAt m c t)⟩] := by
  have h := out17_eq (blocksAt m c t)
  dsimp only [blocksAt] at h
  exact h

/-- And the triple block. -/
theorem out18_at (c : Dev nD) (t : Fin cfg0.N) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      = View.canon [⟨r0_7, triplePiece1 (blocksAt m c t)⟩, ⟨r0_4, triplePiece0 (blocksAt m c t)⟩] := by
  have h := out18_eq (blocksAt m c t)
  dsimp only [blocksAt] at h
  exact h

/-- Under the precondition every subject id a grid point stages names a node; -/
theorem subj_lt (c : Dev nD) (hE : InRange (m ((c : Thread nD τ).loc main_arg2))) (t : Fin cfg0.N) (i : Fin 2) (k : Fin 512) :
    ((blocksAt m c t).x2 (ix3 i (0 : Fin 1) k)).toNat < 256 := by
  rw [subj_at m c t i k]; exact (hE (batchOf t i) k).1

/-- and every object id. -/
theorem obj_lt (c : Dev nD) (hE : InRange (m ((c : Thread nD τ).loc main_arg2))) (t : Fin cfg0.N) (i : Fin 2) (k : Fin 512) :
    ((blocksAt m c t).x3 (ix3 i (0 : Fin 1) k)).toNat < 256 := by
  rw [obj_at m c t i k]; exact (hE (batchOf t i) k).2

/-- Entry `y` of grid point `t`'s node block is the specification's node array at the entry `i` that lies `2t` graphs
    further along the batch. -/
theorem nodes_block_read (c : Dev nD) (hE : InRange (m ((c : Thread nD τ).loc main_arg2))) (t : Fin cfg0.N)
    (y : S2x256x512.Idx) (i : S64x256x512.Idx) (h0 : (i 0).val = 2 * t.val + (y 0).val) (h1 : (i 1).val = (y 1).val)
    (h2 : (i 2).val = (y 2).val) :
    View.canon (Val := Elt Ideal) (s := S2x256x512) (e := .f32)
        [⟨r0_6, nodePiece1 (blocksAt m c t)⟩, ⟨r0_3, nodePiece0 (blocksAt m c t)⟩] y
      = nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i := by
  refine (blockNodes (blocksAt m c t) (subj_lt m c hE t) (obj_lt m c hE t) y).trans ?_
  rw [weights_at m c t, graph_at m c t (y 0)]
  have g0 : batchOf t (y 0) = i 0 := Fin.ext h0.symm
  have g1 : y 1 = i 1 := Fin.ext h1.symm
  have g2 : y 2 = i 2 := Fin.ext h2.symm
  rw [g0, g1, g2]
  rfl

/-- The same for the triple block. -/
theorem triples_block_read (c : Dev nD) (hE : InRange (m ((c : Thread nD τ).loc main_arg2))) (t : Fin cfg0.N)
    (y : S2x512x512.Idx) (i : S64x512x512.Idx) (h0 : (i 0).val = 2 * t.val + (y 0).val) (h1 : (i 1).val = (y 1).val)
    (h2 : (i 2).val = (y 2).val) :
    View.canon (Val := Elt Ideal) (s := S2x512x512) (e := .f32)
        [⟨r0_7, triplePiece1 (blocksAt m c t)⟩, ⟨r0_4, triplePiece0 (blocksAt m c t)⟩] y
      = tripleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i := by
  refine (blockTriples (blocksAt m c t) (subj_lt m c hE t) (obj_lt m c hE t) y).trans ?_
  rw [weights_at m c t, graph_at m c t (y 0)]
  have g0 : batchOf t (y 0) = i 0 := Fin.ext h0.symm
  have g1 : y 1 = i 1 := Fin.ext h1.symm
  have g2 : y 2 = i 2 := Fin.ext h2.symm
  rw [g0, g1, g2]
  rfl

/-- The output windows' index maps, decided over the grid: point `t` holds block `t` along the batch axis, block 0 along
    the other two. -/
theorem idx_facts : ∀ t : Fin cfg0.N, win0_17.index t (0 : Fin 3) = t.val ∧ win0_17.index t (1 : Fin 3) = 0
    ∧ win0_17.index t (2 : Fin 3) = 0 ∧ win0_18.index t (0 : Fin 3) = t.val ∧ win0_18.index t (1 : Fin 3) = 0
    ∧ win0_18.index t (2 : Fin 3) = 0 :=
  (by decide +kernel : ∀ t : Fin grid0.N, _)

/-- What grid point `t` writes back to the node array is its block of the specification's node array. -/
theorem nodes_flushed (c : Dev nD) (hE : InRange (m ((c : Thread nD τ).loc main_arg2))) (t : Fin cfg0.N) :
    (dats m 0 c).flushed 17 t = ((cfg0.win 17).blk t).view.read (Elt Ideal) (nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed17, out17_at m c t]
  obtain ⟨e0, e1, e2, -, -, -⟩ := idx_facts t
  funext j
  refine nodes_block_read m c hE t ((cfg0.win 17).xinj (grid0.coords t) j) (((cfg0.win 17).blk t).view.emb j) ?_ ?_ ?_
  · show win0_17.index t (0 : Fin 3) * 2 + 1 * (j 0).val = 2 * t.val + (j 0).val
    rw [e0]; omega
  · show win0_17.index t (1 : Fin 3) * 256 + 1 * (j 1).val = (j 1).val
    rw [e1]; omega
  · show win0_17.index t (2 : Fin 3) * 512 + 1 * (j 2).val = (j 2).val
    rw [e2]; omega

/-- What grid point `t` writes back to the triple array is its block of the specification's triple array. -/
theorem triples_flushed (c : Dev nD) (hE : InRange (m ((c : Thread nD τ).loc main_arg2))) (t : Fin cfg0.N) :
    (dats m 0 c).flushed 18 t = ((cfg0.win 18).blk t).view.read (Elt Ideal) (tripleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed18, out18_at m c t]
  obtain ⟨-, -, -, e0, e1, e2⟩ := idx_facts t
  funext j
  refine triples_block_read m c hE t ((cfg0.win 18).xinj (grid0.coords t) j) (((cfg0.win 18).blk t).view.emb j) ?_ ?_ ?_
  · show win0_18.index t (0 : Fin 3) * 2 + 1 * (j 0).val = 2 * t.val + (j 0).val
    rw [e0]; omega
  · show win0_18.index t (1 : Fin 3) * 512 + 1 * (j 1).val = (j 1).val
    rw [e1]; omega
  · show win0_18.index t (2 : Fin 3) * 512 + 1 * (j 2).val = (j 2).val
    rw [e2]; omega

/-- An entry of the node array is in grid point `t`'s block iff each coordinate is in the block's range on its axis. -/
theorem mem_blk_nodes (t : Fin cfg0.N) (i : S64x256x512.Idx) :
    i ∈ ((cfg0.win 17).blk t).view.set ↔ ∀ a : Fin 3, win0_17.index t a * S2x256x512.size a ≤ (i a).val
      ∧ (i a).val < win0_17.index t a * S2x256x512.size a + S2x256x512.size a := by
  show i ∈ ((View.whole main_v24_0).slice (win0_17.rect t)).set ↔ _
  rw [View.set_slice_whole, Rect.mem_set_unit]
  exact Iff.rfl

/-- The same for the triple array. -/
theorem mem_blk_triples (t : Fin cfg0.N) (i : S64x512x512.Idx) :
    i ∈ ((cfg0.win 18).blk t).view.set ↔ ∀ a : Fin 3, win0_18.index t a * S2x512x512.size a ≤ (i a).val
      ∧ (i a).val < win0_18.index t a * S2x512x512.size a + S2x512x512.size a := by
  show i ∈ ((View.whole main_v24_1).slice (win0_18.rect t)).set ↔ _
  rw [View.set_slice_whole, Rect.mem_set_unit]
  exact Iff.rfl

/-- The grid point that holds graph `b` of the batch: `b / 2`. -/
def pointOf (b : Fin 64) : Fin cfg0.N := ⟨b.val / 2, by rw [show cfg0.N = 32 from N_0]; have := b.isLt; omega⟩

/-- Every entry of the node array is in the block of the grid point that holds its graph. -/
theorem nodes_cover (i : S64x256x512.Idx) :
    ∃ t : Fin cfg0.N, (cfg0.win 17).flush t = true ∧ i ∈ ((cfg0.win 17).blk t).view.set := by
  refine ⟨pointOf (i 0), flush0_17 _, ?_⟩
  rw [mem_blk_nodes]
  obtain ⟨e0, e1, e2, -, -, -⟩ := idx_facts (pointOf (i 0))
  have q : (pointOf (i 0)).val = (i 0).val / 2 := rfl
  have b0 : (i 0).val < 64 := (i 0).isLt
  have b1 : (i 1).val < 256 := (i 1).isLt
  have b2 : (i 2).val < 512 := (i 2).isLt
  intro a
  match a with
  | ⟨0, _⟩ =>
    show win0_17.index (pointOf (i 0)) (0 : Fin 3) * 2 ≤ (i 0).val ∧ (i 0).val < win0_17.index (pointOf (i 0)) (0 : Fin 3) * 2 + 2
    rw [e0, q]; omega
  | ⟨1, _⟩ =>
    show win0_17.index (pointOf (i 0)) (1 : Fin 3) * 256 ≤ (i 1).val ∧ (i 1).val < win0_17.index (pointOf (i 0)) (1 : Fin 3) * 256 + 256
    rw [e1]; omega
  | ⟨2, _⟩ =>
    show win0_17.index (pointOf (i 0)) (2 : Fin 3) * 512 ≤ (i 2).val ∧ (i 2).val < win0_17.index (pointOf (i 0)) (2 : Fin 3) * 512 + 512
    rw [e2]; omega

/-- Every entry of the triple array is in the block of the grid point that holds its graph. -/
theorem triples_cover (i : S64x512x512.Idx) :
    ∃ t : Fin cfg0.N, (cfg0.win 18).flush t = true ∧ i ∈ ((cfg0.win 18).blk t).view.set := by
  refine ⟨pointOf (i 0), flush0_18 _, ?_⟩
  rw [mem_blk_triples]
  obtain ⟨-, -, -, e0, e1, e2⟩ := idx_facts (pointOf (i 0))
  have q : (pointOf (i 0)).val = (i 0).val / 2 := rfl
  have b0 : (i 0).val < 64 := (i 0).isLt
  have b1 : (i 1).val < 512 := (i 1).isLt
  have b2 : (i 2).val < 512 := (i 2).isLt
  intro a
  match a with
  | ⟨0, _⟩ =>
    show win0_18.index (pointOf (i 0)) (0 : Fin 3) * 2 ≤ (i 0).val ∧ (i 0).val < win0_18.index (pointOf (i 0)) (0 : Fin 3) * 2 + 2
    rw [e0, q]; omega
  | ⟨1, _⟩ =>
    show win0_18.index (pointOf (i 0)) (1 : Fin 3) * 512 ≤ (i 1).val ∧ (i 1).val < win0_18.index (pointOf (i 0)) (1 : Fin 3) * 512 + 512
    rw [e1]; omega
  | ⟨2, _⟩ =>
    show win0_18.index (pointOf (i 0)) (2 : Fin 3) * 512 ≤ (i 2).val ∧ (i 2).val < win0_18.index (pointOf (i 0)) (2 : Fin 3) * 512 + 512
    rw [e2]; omega

/-- The node output array after the run. -/
theorem nodes_final (c : Dev nD) (hE : InRange (m ((c : Thread nD τ).loc main_arg2))) :
    (dats m 0 c).arrAt 17 cfg0.N = nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 17 (nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (fun t _ => nodes_flushed m c hE t) nodes_cover

/-- The triple output array after the run. -/
theorem triples_final (c : Dev nD) (hE : InRange (m ((c : Thread nD τ).loc main_arg2))) :
    (dats m 0 c).arrAt 18 cfg0.N = tripleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 18 (tripleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (fun t _ => triples_flushed m c hE t) triples_cover

/-- The kernel's run: it terminates with the two results at the specification's arrays and the arguments unchanged. -/
theorem run (hE : ∀ c : Dev nD, InRange (m ((c : Thread nD τ).loc main_arg2))) :
    θ_run defs (onTc (τ := τ) (main (F := Ideal))) ⟨m, fun _ => 0, ρ⟩ fun r => ∀ c : Dev nD,
      r.2.mem ((c : Thread nD τ).loc main_v24_0) = nodeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v24_1) = tripleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (nodes_final m c (hE c)), (h c).2.1.trans (triples_final m c (hE c)), (h c).2.2⟩)
    (Cert.KernelIdeal.Value.run_blocks m ρ)

end Cert.KernelIdeal.Body

end
-- ==== Proof.RefIndex.lean ====
/-
  The reference's two data-dependent reads, at an index: the gather of a node's vector by a triple's subject (or
  object) id, and the accumulating scatter of triple values onto node rows by those ids. Each is stated over the printed
  dimension numbers, for id words that name nodes.
-/
import proofs.«419139_j22110491640377_3_alg».proof.Proof.Gen.ReferenceIdeal
import proofs.«419139_j22110491640377_3_alg».proof.Proof.Spec
import Idealize.ShloMosaic.Lib.ValueIdx
import Idealize.ShloMosaic.PureOps.Ideal.Laws

noncomputable section

open scoped BigOperators

namespace Cert.ReferenceIdeal.Index

open Cert.ReferenceIdeal Cert.ReferenceIdeal.Gen Idealize.ShloMosaic Idealize.ShloMosaic.ValueIdx

/-- The gather's dimension numbers. -/
private abbrev gd := gather_S64x256x512_S64x512x1_S64x512x512_2_1_0_0_1_2_11512

/-- A word below 2³¹ reads the same signed and unsigned. -/
theorem toInt_eq_toNat {a : BitVec 32} (ha : a.toNat < 2 ^ 31) : a.toInt = (a.toNat : Int) := by
  rw [BitVec.toInt_eq_msb_cond, BitVec.msb_eq_false_iff_two_mul_lt.mpr (by omega)]
  simp

/-- A word below 256 read signed, then as a natural, is its value. -/
theorem toInt_toNat_of_lt {a : BitVec 32} (ha : a.toNat < 256) : a.toInt.toNat = a.toNat := by
  rw [toInt_eq_toNat (by omega), Int.toNat_natCast]

/-- The gather at (graph `b`, triple `t`, feature `d`): the node row the triple's start word names, when it names one. -/
theorem gather_apply {α : Type} (x : S64x256x512.Idx → α) (idx : IVec S64x512x1 32) (b : Fin 64) (t d : Fin 512)
    (h : (idx (ix3 b t (0 : Fin 1))).toNat < 256) :
    Host.gather gather_S64x256x512_S64x512x1_S64x512x512_2_1_0_0_1_2_11512 x idx (ix3 b t d)
      = x (ix3 b (⟨(idx (ix3 b t (0 : Fin 1))).toNat, h⟩ : Fin 256) d) := by
  unfold Host.gather
  congr 1
  funext a
  refine Fin.ext ?_
  match a with
  | ⟨0, _⟩ =>
    show gd.start (ix3 b t d) idx 0 + gd.batchCoord (ix3 b t d) 0 + gd.offCoord (ix3 b t d) 0 = b.val
    have hm : (0 : Fin 3) ∈ gd.operandBatchingDims := List.mem_singleton.mpr rfl
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, _⟩ =>
    show gd.start (ix3 b t d) idx 1 + gd.batchCoord (ix3 b t d) 1 + gd.offCoord (ix3 b t d) 1 = (idx (ix3 b t (0 : Fin 1))).toNat
    have hc : (1 : Fin 3) ∈ gd.collapsedSliceDims := List.mem_singleton.mpr rfl
    have hs : (1 : Fin 3) ∈ gd.startIndexMap := List.mem_singleton.mpr rfl
    have hnb : (1 : Fin 3) ∉ gd.operandBatchingDims := by decide
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hs]
    have hsi : gd.siIdx (ix3 b t d) ⟨List.idxOf (1 : Fin 3) gd.startIndexMap, List.idxOf_lt_length_iff.2 hs⟩
        = ix3 b t (0 : Fin 1) := by
      funext c; refine Fin.ext ?_
      match c with
      | ⟨0, _⟩ => rfl
      | ⟨1, _⟩ => rfl
      | ⟨2, _⟩ => rfl
    rw [hsi, toInt_toNat_of_lt h]
    show min (idx (ix3 b t (0 : Fin 1))).toNat (256 - 1) = _
    omega
  | ⟨2, _⟩ =>
    show gd.start (ix3 b t d) idx 2 + gd.batchCoord (ix3 b t d) 2 + gd.offCoord (ix3 b t d) 2 = d.val
    have hnb : (2 : Fin 3) ∉ gd.operandBatchingDims := by decide
    have hns : (2 : Fin 3) ∉ gd.startIndexMap := by decide
    have hk : (2 : Fin 3) ∈ gd.sKept := (GatherDims.mem_sKept _ _).mpr ⟨by decide, hnb⟩
    rw [GatherDims.batchCoord_eq_zero _ _ _ hnb]
    unfold GatherDims.start GatherDims.offCoord
    rw [dif_neg hns, dif_pos hk]
    simp only [Nat.zero_add, Nat.add_zero]
    rfl

/-- The word of a graph number reads, signed, that number. -/
theorem toInt_ofNat_graph (b : Fin 64) : (BitVec.ofNat 32 b.val).toInt = (b.val : Int) := by
  have e : (BitVec.ofNat 32 b.val).toNat = b.val := by
    rw [BitVec.toNat_ofNat]; exact Nat.mod_eq_of_lt (by have := b.isLt; omega)
  rw [toInt_eq_toNat (by rw [e]; have := b.isLt; omega), e]

/-- The row scatter's dimension numbers. -/
private abbrev sr := scatter_S64x256x512_S64x512x2_S64x512x512_2_01_01_2

/-- The index pair of update (`b'`, `t`, `h'`) is read at (`b'`, `t`, ·). -/
theorem sr_siIdx (b' : Fin 64) (t h' : Fin 512) (c : Fin 2) (hc : c.val < sr.scatterDimsToOperandDims.length) :
    sr.siIdx (ix3 b' t h') ⟨c.val, hc⟩ = ix3 b' t c := by
  funext a; refine Fin.ext ?_
  match a with
  | ⟨0, _⟩ => rfl
  | ⟨1, _⟩ => rfl
  | ⟨2, _⟩ => rfl

theorem sr_start0 (idx : IVec S64x512x2 32) (b' : Fin 64) (t h' : Fin 512) :
    sr.start (ix3 b' t h') idx 0 = (idx (ix3 b' t (0 : Fin 2))).toInt := by
  have hm : (0 : Fin 3) ∈ sr.scatterDimsToOperandDims := by decide
  unfold ScatterDims.start
  rw [dif_pos hm]
  exact congrArg (fun i => (idx i).toInt) (sr_siIdx b' t h' 0 _)

theorem sr_start1 (idx : IVec S64x512x2 32) (b' : Fin 64) (t h' : Fin 512) :
    sr.start (ix3 b' t h') idx 1 = (idx (ix3 b' t (1 : Fin 2))).toInt := by
  have hm : (1 : Fin 3) ∈ sr.scatterDimsToOperandDims := by decide
  unfold ScatterDims.start
  rw [dif_pos hm]
  exact congrArg (fun i => (idx i).toInt) (sr_siIdx b' t h' 1 _)

theorem sr_start2 (idx : IVec S64x512x2 32) (b' : Fin 64) (t h' : Fin 512) :
    sr.start (ix3 b' t h') idx 2 = 0 := by
  have hm : (2 : Fin 3) ∉ sr.scatterDimsToOperandDims := by decide
  unfold ScatterDims.start
  rw [dif_neg hm]

theorem sr_window0 (b' : Fin 64) (t h' : Fin 512) : sr.window (ix3 b' t h') 0 = 0 := by
  have hm : (0 : Fin 3) ∉ sr.sKept := by decide
  unfold ScatterDims.window
  rw [dif_neg hm]

theorem sr_window1 (b' : Fin 64) (t h' : Fin 512) : sr.window (ix3 b' t h') 1 = 0 := by
  have hm : (1 : Fin 3) ∉ sr.sKept := by decide
  unfold ScatterDims.window
  rw [dif_neg hm]

theorem sr_window2 (b' : Fin 64) (t h' : Fin 512) : sr.window (ix3 b' t h') 2 = h'.val := by
  have hm : (2 : Fin 3) ∈ sr.sKept := by decide
  unfold ScatterDims.window
  rw [dif_pos hm]
  rfl

/-- Where update (`b'`, `t`, `h'`) lands: row (`b'`, the node its second index word names), column `h'`. -/
theorem sr_resultIdx (idx : IVec S64x512x2 32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (b' : Fin 64) (t h' : Fin 512) :
    sr.resultIdx? (ix3 b' t h') idx
      = some (ix3 b' (⟨(idx (ix3 b' t (1 : Fin 2))).toNat, hn b' t⟩ : Fin 256) h') := by
  have e0 : sr.start (ix3 b' t h') idx 0 + (sr.window (ix3 b' t h') 0 : Int) = (b'.val : Int) := by
    rw [sr_start0, sr_window0, hb, toInt_ofNat_graph]; simp
  have e1 : sr.start (ix3 b' t h') idx 1 + (sr.window (ix3 b' t h') 1 : Int)
      = ((idx (ix3 b' t (1 : Fin 2))).toNat : Int) := by
    rw [sr_start1, sr_window1, toInt_eq_toNat (by have := hn b' t; omega)]; simp
  have e2 : sr.start (ix3 b' t h') idx 2 + (sr.window (ix3 b' t h') 2 : Int) = (h'.val : Int) := by
    rw [sr_start2, sr_window2]; simp
  have H : ∀ a, 0 ≤ sr.start (ix3 b' t h') idx a + sr.window (ix3 b' t h') a ∧
      sr.start (ix3 b' t h') idx a + sr.window (ix3 b' t h') a < S64x256x512.size a := by
    intro a
    match a with
    | ⟨0, _⟩ =>
      show 0 ≤ sr.start (ix3 b' t h') idx 0 + (sr.window (ix3 b' t h') 0 : Int) ∧
        sr.start (ix3 b' t h') idx 0 + (sr.window (ix3 b' t h') 0 : Int) < ((64 : Nat) : Int)
      rw [e0]; have := b'.isLt; omega
    | ⟨1, _⟩ =>
      show 0 ≤ sr.start (ix3 b' t h') idx 1 + (sr.window (ix3 b' t h') 1 : Int) ∧
        sr.start (ix3 b' t h') idx 1 + (sr.window (ix3 b' t h') 1 : Int) < ((256 : Nat) : Int)
      rw [e1]; have := hn b' t; omega
    | ⟨2, _⟩ =>
      show 0 ≤ sr.start (ix3 b' t h') idx 2 + (sr.window (ix3 b' t h') 2 : Int) ∧
        sr.start (ix3 b' t h') idx 2 + (sr.window (ix3 b' t h') 2 : Int) < ((512 : Nat) : Int)
      rw [e2]; have := h'.isLt; omega
  unfold ScatterDims.resultIdx?
  rw [dif_pos H]
  congr 1
  funext a; refine Fin.ext ?_
  match a with
  | ⟨0, _⟩ =>
    show (sr.start (ix3 b' t h') idx 0 + (sr.window (ix3 b' t h') 0 : Int)).toNat = b'.val
    rw [e0]; simp
  | ⟨1, _⟩ =>
    show (sr.start (ix3 b' t h') idx 1 + (sr.window (ix3 b' t h') 1 : Int)).toNat = (idx (ix3 b' t (1 : Fin 2))).toNat
    rw [e1]; simp
  | ⟨2, _⟩ =>
    show (sr.start (ix3 b' t h') idx 2 + (sr.window (ix3 b' t h') 2 : Int)).toNat = h'.val
    rw [e2]; simp

/-- An update lands on (`b`, `n`, `h`) exactly when it is a triple of graph `b` whose second index word names `n`, at
    column `h`. -/
theorem sr_resultIdx_iff (idx : IVec S64x512x2 32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (j : S64x512x512.Idx) (b : Fin 64) (n : Fin 256) (h : Fin 512) :
    sr.resultIdx? j idx = some (ix3 b n h)
      ↔ j 0 = b ∧ (idx (ix3 b (j 1) (1 : Fin 2))).toNat = n.val ∧ j 2 = h := by
  obtain ⟨b', t, h', rfl⟩ : ∃ (b' : Fin 64) (t h' : Fin 512), j = ix3 b' t h' := ⟨_, _, _, eq_ix3 j⟩
  rw [sr_resultIdx idx hb hn]
  show _ ↔ b' = b ∧ (idx (ix3 b t (1 : Fin 2))).toNat = n.val ∧ h' = h
  constructor
  · intro e
    have e' := Option.some.inj e
    have h0 : b' = b := congrFun e' (0 : Fin 3)
    have h1 : (⟨(idx (ix3 b' t (1 : Fin 2))).toNat, hn b' t⟩ : Fin 256) = n := congrFun e' (1 : Fin 3)
    have h2 : h' = h := congrFun e' (2 : Fin 3)
    subst h0
    exact ⟨rfl, congrArg Fin.val h1, h2⟩
  · rintro ⟨rfl, h1, rfl⟩
    have e : (⟨(idx (ix3 b' t (1 : Fin 2))).toNat, hn b' t⟩ : Fin 256) = n := Fin.ext h1
    rw [e]

/-- The updates landing on (`b`, `n`, `h`), summed: the sum over the triples of graph `b` that name `n`. -/
theorem sr_sum (idx : IVec S64x512x2 32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (f : S64x512x512.Idx → EReal) (b : Fin 64) (n : Fin 256) (h : Fin 512)
    [DecidablePred fun j : S64x512x512.Idx => sr.resultIdx? j idx = some (ix3 b n h)] :
    ∑ j ∈ Finset.univ.filter (fun j : S64x512x512.Idx => sr.resultIdx? j idx = some (ix3 b n h)), f j
      = ∑ t : Fin 512, if (idx (ix3 b t (1 : Fin 2))).toNat = n.val then f (ix3 b t h) else 0 := by
  rw [← Finset.sum_filter]
  symm
  refine Finset.sum_nbij' (fun t => ix3 b t h) (fun j => j 1) ?_ ?_ ?_ ?_ ?_
  · intro t ht
    rw [Finset.mem_filter] at ht ⊢
    exact ⟨Finset.mem_univ _, (sr_resultIdx_iff idx hb hn _ b n h).mpr ⟨rfl, ht.2, rfl⟩⟩
  · intro j hj
    rw [Finset.mem_filter] at hj
    exact Finset.mem_filter.mpr ⟨Finset.mem_univ _, ((sr_resultIdx_iff idx hb hn j b n h).mp hj.2).2.1⟩
  · intro t _; rfl
  · intro j hj
    rw [Finset.mem_filter] at hj
    obtain ⟨h0, _, h2⟩ := (sr_resultIdx_iff idx hb hn j b n h).mp hj.2
    rw [← h0, ← h2]; exact (eq_ix3 j).symm
  · intro t _; rfl

/-- The accumulating scatter of triple rows onto node rows, at (graph `b`, node `n`, feature `h`): the operand there plus the
    updates of the triples of graph `b` whose index pair is (`b`, `n`). -/
theorem scatterAdd_rows (x : FVec Ideal S64x256x512 .f32) (idx : IVec S64x512x2 32) (upd : FVec Ideal S64x512x512 .f32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (b : Fin 64) (n : Fin 256) (h : Fin 512) :
    Host.scatterAdd (F := Ideal) scatter_S64x256x512_S64x512x2_S64x512x512_2_01_01_2 x idx upd (ix3 b n h)
      = (x (ix3 b n h) : EReal) + ∑ t : Fin 512, if (idx (ix3 b t (1 : Fin 2))).toNat = n.val then (upd (ix3 b t h) : EReal) else 0 := by
  show Ideal.hostScatterAdd sr x idx upd (ix3 b n h) = _
  unfold Ideal.hostScatterAdd
  exact congrArg (fun s => (x (ix3 b n h) : EReal) + s) (sr_sum idx hb hn upd b n h)

/-- The count scatter's dimension numbers. -/
private abbrev sc := scatter_S64x256_S64x512x2_S64x512_n_01_01_2

/-- The index pair of update (`b'`, `t`) is read at (`b'`, `t`, ·). -/
theorem sc_siIdx (b' : Fin 64) (t : Fin 512) (c : Fin 2) (hc : c.val < sc.scatterDimsToOperandDims.length) :
    sc.siIdx (ix2 b' t) ⟨c.val, hc⟩ = ix3 b' t c := by
  funext a; refine Fin.ext ?_
  match a with
  | ⟨0, _⟩ => rfl
  | ⟨1, _⟩ => rfl
  | ⟨2, _⟩ => rfl

theorem sc_start0 (idx : IVec S64x512x2 32) (b' : Fin 64) (t : Fin 512) :
    sc.start (ix2 b' t) idx 0 = (idx (ix3 b' t (0 : Fin 2))).toInt := by
  have hm : (0 : Fin 2) ∈ sc.scatterDimsToOperandDims := by decide
  unfold ScatterDims.start
  rw [dif_pos hm]
  exact congrArg (fun i => (idx i).toInt) (sc_siIdx b' t 0 _)

theorem sc_start1 (idx : IVec S64x512x2 32) (b' : Fin 64) (t : Fin 512) :
    sc.start (ix2 b' t) idx 1 = (idx (ix3 b' t (1 : Fin 2))).toInt := by
  have hm : (1 : Fin 2) ∈ sc.scatterDimsToOperandDims := by decide
  unfold ScatterDims.start
  rw [dif_pos hm]
  exact congrArg (fun i => (idx i).toInt) (sc_siIdx b' t 1 _)

theorem sc_window0 (b' : Fin 64) (t : Fin 512) : sc.window (ix2 b' t) 0 = 0 := by
  have hm : (0 : Fin 2) ∉ sc.sKept := by decide
  unfold ScatterDims.window
  rw [dif_neg hm]

theorem sc_window1 (b' : Fin 64) (t : Fin 512) : sc.window (ix2 b' t) 1 = 0 := by
  have hm : (1 : Fin 2) ∉ sc.sKept := by decide
  unfold ScatterDims.window
  rw [dif_neg hm]

/-- Where update (`b'`, `t`) lands: (`b'`, the node its second index word names). -/
theorem sc_resultIdx (idx : IVec S64x512x2 32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (b' : Fin 64) (t : Fin 512) :
    sc.resultIdx? (ix2 b' t) idx
      = some (ix2 b' (⟨(idx (ix3 b' t (1 : Fin 2))).toNat, hn b' t⟩ : Fin 256)) := by
  have e0 : sc.start (ix2 b' t) idx 0 + (sc.window (ix2 b' t) 0 : Int) = (b'.val : Int) := by
    rw [sc_start0, sc_window0, hb, toInt_ofNat_graph]; simp
  have e1 : sc.start (ix2 b' t) idx 1 + (sc.window (ix2 b' t) 1 : Int)
      = ((idx (ix3 b' t (1 : Fin 2))).toNat : Int) := by
    rw [sc_start1, sc_window1, toInt_eq_toNat (by have := hn b' t; omega)]; simp
  have H : ∀ a, 0 ≤ sc.start (ix2 b' t) idx a + sc.window (ix2 b' t) a ∧
      sc.start (ix2 b' t) idx a + sc.window (ix2 b' t) a < S64x256.size a := by
    intro a
    match a with
    | ⟨0, _⟩ =>
      show 0 ≤ sc.start (ix2 b' t) idx 0 + (sc.window (ix2 b' t) 0 : Int) ∧
        sc.start (ix2 b' t) idx 0 + (sc.window (ix2 b' t) 0 : Int) < ((64 : Nat) : Int)
      rw [e0]; have := b'.isLt; omega
    | ⟨1, _⟩ =>
      show 0 ≤ sc.start (ix2 b' t) idx 1 + (sc.window (ix2 b' t) 1 : Int) ∧
        sc.start (ix2 b' t) idx 1 + (sc.window (ix2 b' t) 1 : Int) < ((256 : Nat) : Int)
      rw [e1]; have := hn b' t; omega
  unfold ScatterDims.resultIdx?
  rw [dif_pos H]
  congr 1
  funext a; refine Fin.ext ?_
  match a with
  | ⟨0, _⟩ =>
    show (sc.start (ix2 b' t) idx 0 + (sc.window (ix2 b' t) 0 : Int)).toNat = b'.val
    rw [e0]; simp
  | ⟨1, _⟩ =>
    show (sc.start (ix2 b' t) idx 1 + (sc.window (ix2 b' t) 1 : Int)).toNat = (idx (ix3 b' t (1 : Fin 2))).toNat
    rw [e1]; simp

/-- An update lands on (`b`, `n`) exactly when it is a triple of graph `b` whose second index word names `n`. -/
theorem sc_resultIdx_iff (idx : IVec S64x512x2 32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (j : S64x512.Idx) (b : Fin 64) (n : Fin 256) :
    sc.resultIdx? j idx = some (ix2 b n) ↔ j 0 = b ∧ (idx (ix3 b (j 1) (1 : Fin 2))).toNat = n.val := by
  obtain ⟨b', t, rfl⟩ : ∃ (b' : Fin 64) (t : Fin 512), j = ix2 b' t := ⟨_, _, eq_ix2 j⟩
  rw [sc_resultIdx idx hb hn]
  show _ ↔ b' = b ∧ (idx (ix3 b t (1 : Fin 2))).toNat = n.val
  constructor
  · intro e
    have e' := Option.some.inj e
    have h0 : b' = b := congrFun e' (0 : Fin 2)
    have h1 : (⟨(idx (ix3 b' t (1 : Fin 2))).toNat, hn b' t⟩ : Fin 256) = n := congrFun e' (1 : Fin 2)
    subst h0
    exact ⟨rfl, congrArg Fin.val h1⟩
  · rintro ⟨rfl, h1⟩
    have e : (⟨(idx (ix3 b' t (1 : Fin 2))).toNat, hn b' t⟩ : Fin 256) = n := Fin.ext h1
    rw [e]

/-- The updates landing on (`b`, `n`), summed: the sum over the triples of graph `b` that name `n`. -/
theorem sc_sum (idx : IVec S64x512x2 32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (f : S64x512.Idx → EReal) (b : Fin 64) (n : Fin 256)
    [DecidablePred fun j : S64x512.Idx => sc.resultIdx? j idx = some (ix2 b n)] :
    ∑ j ∈ Finset.univ.filter (fun j : S64x512.Idx => sc.resultIdx? j idx = some (ix2 b n)), f j
      = ∑ t : Fin 512, if (idx (ix3 b t (1 : Fin 2))).toNat = n.val then f (ix2 b t) else 0 := by
  rw [← Finset.sum_filter]
  symm
  refine Finset.sum_nbij' (fun t => ix2 b t) (fun j => j 1) ?_ ?_ ?_ ?_ ?_
  · intro t ht
    rw [Finset.mem_filter] at ht ⊢
    exact ⟨Finset.mem_univ _, (sc_resultIdx_iff idx hb hn _ b n).mpr ⟨rfl, ht.2⟩⟩
  · intro j hj
    rw [Finset.mem_filter] at hj
    exact Finset.mem_filter.mpr ⟨Finset.mem_univ _, ((sc_resultIdx_iff idx hb hn j b n).mp hj.2).2⟩
  · intro t _; rfl
  · intro j hj
    rw [Finset.mem_filter] at hj
    obtain ⟨h0, _⟩ := (sc_resultIdx_iff idx hb hn j b n).mp hj.2
    rw [← h0]; exact (eq_ix2 j).symm
  · intro t _; rfl

/-- The same for the scatter of one number per triple onto one number per node (the incidence counts). -/
theorem scatterAdd_counts (x : FVec Ideal S64x256 .f32) (idx : IVec S64x512x2 32) (upd : FVec Ideal S64x512 .f32)
    (hb : ∀ (b : Fin 64) (t : Fin 512), idx (ix3 b t (0 : Fin 2)) = BitVec.ofNat 32 b.val)
    (hn : ∀ (b : Fin 64) (t : Fin 512), (idx (ix3 b t (1 : Fin 2))).toNat < 256)
    (b : Fin 64) (n : Fin 256) :
    Host.scatterAdd (F := Ideal) scatter_S64x256_S64x512x2_S64x512_n_01_01_2 x idx upd (ix2 b n)
      = (x (ix2 b n) : EReal) + ∑ t : Fin 512, if (idx (ix3 b t (1 : Fin 2))).toNat = n.val then (upd (ix2 b t) : EReal) else 0 := by
  show Ideal.hostScatterAdd sc x idx upd (ix2 b n) = _
  unfold Ideal.hostScatterAdd
  exact congrArg (fun s => (x (ix2 b n) : EReal) + s) (sc_sum idx hb hn upd b n)

end Cert.ReferenceIdeal.Index

end
-- ==== Proof.RefEdges.lean ====
/-
  The reference's first network, stage by stage at an index: the hidden layer over the concatenated
  [subject | triple | object] vectors is the specification's (the contraction over 1536 splits in its three blocks; the two
  gathers read the subject's and the object's node rows), and the three column slices of the second layer are the new
  subject candidates, triple vectors and object candidates.
-/
import proofs.«419139_j22110491640377_3_alg».proof.Proof.RefRead
import proofs.«419139_j22110491640377_3_alg».proof.Proof.RefIndex
import proofs.«419139_j22110491640377_3_alg».proof.Proof.Spec
import proofs.«419139_j22110491640377_3_alg».proof.Proof.SumLaws
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.Stages

open Cert.ReferenceIdeal Cert.ReferenceIdeal.Read Cert.TripleConv
open Idealize.ShloMosaic Idealize.ShloMosaic.ValueIdx

variable (x0 : Nodes) (x1 : Triples) (x2 : Edges) (x3 : Mat 1536 512) (x4 : Row 512) (x5 : Mat 512 1536) (x6 : Row 1536)
  (x7 : Mat 512 512) (x8 : Row 512) (x9 : Mat 512 512) (x10 : Row 512)

namespace Edges

/-! ## Node id words -/

/-- A word below 256 is not negative. -/
theorem slt_zero_of_lt (w : BitVec 32) (h : w.toNat < 256) : IntOp.cmpi .slt w 0#32 = 0#1 := by
  refine eq_zero_of_ne_one fun e => ?_
  have e' := IntOp.cmpi_slt.1 e
  rw [StableHlo.Predicate.toInt_eq_toNat_of_lt (a := w) (by omega)] at e'
  have z : (0#32 : BitVec 32).toInt = 0 := by decide
  rw [z] at e'
  omega

/-- A word below 256 is at least 0. -/
theorem sge_zero_of_lt (w : BitVec 32) (h : w.toNat < 256) : IntOp.cmpi .sge w 0#32 = 1#1 := by
  refine IntOp.cmpi_sge.2 ?_
  rw [StableHlo.Predicate.toInt_eq_toNat_of_lt (a := w) (by omega)]
  have z : (0#32 : BitVec 32).toInt = 0 := by decide
  rw [z]
  omega

/-- A word below 256 is at most 255. -/
theorem sle_255_of_lt (w : BitVec 32) (h : w.toNat < 256) : IntOp.cmpi .sle w 255#32 = 1#1 := by
  refine IntOp.cmpi_sle.2 ?_
  rw [StableHlo.Predicate.toInt_eq_toNat_of_lt (a := w) (by omega)]
  have z : (255#32 : BitVec 32).toInt = 255 := by decide
  rw [z]
  omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- An `and`-reduction from 1 of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The id columns -/

/-- The subject id of triple `t` of graph `b`, as the gather's start word. -/
theorem v4_apply (b : Fin 64) (t : Fin 512) :
    val_main_v4 (F := Ideal) x2 (ix3 b t (0 : Fin 1)) = x2 (ix3 b t (0 : Fin 3)) := by
  rw [val_main_v4_apply, val_main_v1_apply, val_main_v0_apply]
  refine congrArg x2 (funext fun a => Fin.ext ?_)
  have hb : b.val < 64 := b.isLt
  have ht : t.val < 512 := t.isLt
  match a with
  | ⟨0, _⟩ => show (b.val * 512 + t.val) / 512 = b.val; omega
  | ⟨1, _⟩ => show (b.val * 512 + t.val) / 1 % 512 = t.val; omega
  | ⟨2, _⟩ => rfl

/-- The object id of triple `t` of graph `b`, as the gather's start word. -/
theorem v6_apply (b : Fin 64) (t : Fin 512) :
    val_main_v6 (F := Ideal) x2 (ix3 b t (0 : Fin 1)) = x2 (ix3 b t (2 : Fin 3)) := by
  rw [val_main_v6_apply, val_main_v3_apply, val_main_v2_apply]
  refine congrArg x2 (funext fun a => Fin.ext ?_)
  have hb : b.val < 64 := b.isLt
  have ht : t.val < 512 := t.isLt
  match a with
  | ⟨0, _⟩ => show (b.val * 512 + t.val) / 512 = b.val; omega
  | ⟨1, _⟩ => show (b.val * 512 + t.val) / 1 % 512 = t.val; omega
  | ⟨2, _⟩ => rfl

/-- An id word that names a node passes the index normalisation unchanged (subject). -/
theorem call0_v4_apply (b : Fin 64) (t : Fin 512) (h : (x2 (ix3 b t (0 : Fin 3))).toNat < 256) :
    val_main_call0_v4 (F := Ideal) x2 (ix3 b t (0 : Fin 1)) = x2 (ix3 b t (0 : Fin 3)) := by
  rw [val_main_call0_v4_apply, val_main_call0_v1_apply, val_main_call0_v0_apply, val_main_call0_c_apply, v4_apply,
    slt_zero_of_lt _ h, select_zero]

/-- An id word that names a node passes the index normalisation unchanged (object). -/
theorem call1_v4_apply (b : Fin 64) (t : Fin 512) (h : (x2 (ix3 b t (2 : Fin 3))).toNat < 256) :
    val_main_call1_v4 (F := Ideal) x2 (ix3 b t (0 : Fin 1)) = x2 (ix3 b t (2 : Fin 3)) := by
  rw [val_main_call1_v4_apply, val_main_call1_v1_apply, val_main_call1_v0_apply, val_main_call1_c_apply, v6_apply,
    slt_zero_of_lt _ h, select_zero]

/-- The in-bounds mask of a subject id that names a node. -/
theorem call0_v10_apply (b : Fin 64) (t : Fin 512) (h : (x2 (ix3 b t (0 : Fin 3))).toNat < 256) :
    val_main_call0_v10 (F := Ideal) x2 (ix3 b t (0 : Fin 1)) = 1#1 := by
  rw [val_main_call0_v10_apply, val_main_call0_v6_apply, val_main_call0_v9_apply, val_main_call0_v5_apply,
    val_main_call0_c_2_apply, val_main_call0_v8_apply, val_main_call0_v7_apply, val_main_call0_c_1_apply,
    call0_v4_apply x2 b t h, sge_zero_of_lt _ h, sle_255_of_lt _ h]
  rfl

/-- The in-bounds mask of an object id that names a node. -/
theorem call1_v10_apply (b : Fin 64) (t : Fin 512) (h : (x2 (ix3 b t (2 : Fin 3))).toNat < 256) :
    val_main_call1_v10 (F := Ideal) x2 (ix3 b t (0 : Fin 1)) = 1#1 := by
  rw [val_main_call1_v10_apply, val_main_call1_v6_apply, val_main_call1_v9_apply, val_main_call1_v5_apply,
    val_main_call1_c_2_apply, val_main_call1_v8_apply, val_main_call1_v7_apply, val_main_call1_c_1_apply,
    call1_v4_apply x2 b t h, sge_zero_of_lt _ h, sle_255_of_lt _ h]
  rfl

/-- Every index of a [64, 512, 1] array is (b, t, 0). -/
theorem eq_ix3_unit (i : (⟨3, ![64, 512, 1]⟩ : Shape).Idx) : i = ix3 (i 0) (i 1) (0 : Fin 1) := by
  funext a
  match a with
  | ⟨0, _⟩ => rfl
  | ⟨1, _⟩ => rfl
  | ⟨2, _⟩ => exact Fin.ext (by have h2 : (i 2).val < 1 := (i 2).isLt; show (i 2).val = 0; omega)

/-- Under the precondition the subject ids' reduced in-bounds mask is 1 everywhere. -/
theorem call0_v11_apply (hE : InRange x2) (j : S64x512.Idx) : val_main_call0_v11 (F := Ideal) x2 j = 1#1 := by
  unfold val_main_call0_v11
  refine reduce_andi_ones _ _ _ _ (fun i => ?_) (fun k => rfl) j
  rw [eq_ix3_unit i]
  exact call0_v10_apply x2 _ _ (hE _ _).1

/-- Under the precondition the object ids' reduced in-bounds mask is 1 everywhere. -/
theorem call1_v11_apply (hE : InRange x2) (j : S64x512.Idx) : val_main_call1_v11 (F := Ideal) x2 j = 1#1 := by
  unfold val_main_call1_v11
  refine reduce_andi_ones _ _ _ _ (fun i => ?_) (fun k => rfl) j
  rw [eq_ix3_unit i]
  exact call1_v10_apply x2 _ _ (hE _ _).2

/-! ## The two gathers -/

/-- The subject gather: the node row the triple's subject id names. -/
theorem v5_apply (hE : InRange x2) (b : Fin 64) (t d : Fin 512) :
    val_main_v5 (F := Ideal) x0 x2 (ix3 b t d) = x0 (ix3 b (node (x2 (ix3 b t (0 : Fin 3)))) d) := by
  have h := (hE b t).1
  rw [val_main_v5_apply, val_main_call0_v13_apply, call0_v11_apply x2 hE, select_one]
  unfold val_main_call0_v12
  have h' : (val_main_call0_v4 (F := Ideal) x2 (ix3 b t (0 : Fin 1))).toNat < 256 := by
    rw [call0_v4_apply x2 b t h]; exact h
  refine (Index.gather_apply x0 (val_main_call0_v4 (F := Ideal) x2) b t d h').trans ?_
  refine congrArg (fun n : Fin 256 => x0 (ix3 b n d)) (Fin.ext ?_)
  show (val_main_call0_v4 (F := Ideal) x2 (ix3 b t (0 : Fin 1))).toNat = (node (x2 (ix3 b t (0 : Fin 3)))).val
  rw [call0_v4_apply x2 b t h, node_val h]

/-- The object gather: the node row the triple's object id names. -/
theorem v7_apply (hE : InRange x2) (b : Fin 64) (t d : Fin 512) :
    val_main_v7 (F := Ideal) x0 x2 (ix3 b t d) = x0 (ix3 b (node (x2 (ix3 b t (2 : Fin 3)))) d) := by
  have h := (hE b t).2
  rw [val_main_v7_apply, val_main_call1_v13_apply, call1_v11_apply x2 hE, select_one]
  unfold val_main_call1_v12
  have h' : (val_main_call1_v4 (F := Ideal) x2 (ix3 b t (0 : Fin 1))).toNat < 256 := by
    rw [call1_v4_apply x2 b t h]; exact h
  refine (Index.gather_apply x0 (val_main_call1_v4 (F := Ideal) x2) b t d h').trans ?_
  refine congrArg (fun n : Fin 256 => x0 (ix3 b n d)) (Fin.ext ?_)
  show (val_main_call1_v4 (F := Ideal) x2 (ix3 b t (0 : Fin 1))).toNat = (node (x2 (ix3 b t (2 : Fin 3)))).val
  rw [call1_v4_apply x2 b t h, node_val h]

/-! ## The concatenation [subject | triple | object] -/

/-- Columns 0–511 of the concatenation are the subject rows. -/
theorem v8_lo (b : Fin 64) (t d : Fin 512) :
    val_main_v8 (F := Ideal) x0 x1 x2 (ix3 b t (lo d)) = val_main_v5 (F := Ideal) x0 x2 (ix3 b t d) := by
  unfold val_main_v8
  refine concatenate_apply_piece _ _ _ (ix3 b t (lo d)) 0 (by show (0 : Nat) < 3; omega) S64x512x512 _ rfl rfl 0 rfl (ix3 b t d)
    (fun c hc => ?_) ?_
  · match c with
    | ⟨0, _⟩ => rfl
    | ⟨1, _⟩ => rfl
    | ⟨2, _⟩ => exact absurd rfl hc
  · show 0 + d.val = d.val
    omega

/-- Columns 512–1023 of the concatenation are the triple rows. -/
theorem v8_mid (b : Fin 64) (t d : Fin 512) :
    val_main_v8 (F := Ideal) x0 x1 x2 (ix3 b t (mid d)) = x1 (ix3 b t d) := by
  unfold val_main_v8
  refine concatenate_apply_piece _ _ _ (ix3 b t (mid d)) 1 (by show (1 : Nat) < 3; omega) S64x512x512 _ rfl rfl 512 rfl (ix3 b t d)
    (fun c hc => ?_) ?_
  · match c with
    | ⟨0, _⟩ => rfl
    | ⟨1, _⟩ => rfl
    | ⟨2, _⟩ => exact absurd rfl hc
  · show 512 + d.val = 512 + d.val
    rfl

/-- Columns 1024–1535 of the concatenation are the object rows. -/
theorem v8_hi (b : Fin 64) (t d : Fin 512) :
    val_main_v8 (F := Ideal) x0 x1 x2 (ix3 b t (hi d)) = val_main_v7 (F := Ideal) x0 x2 (ix3 b t d) := by
  unfold val_main_v8
  refine concatenate_apply_piece _ _ _ (ix3 b t (hi d)) 2 (by show (2 : Nat) < 3; omega) S64x512x512 _ rfl rfl 1024 rfl (ix3 b t d)
    (fun c hc => ?_) ?_
  · match c with
    | ⟨0, _⟩ => rfl
    | ⟨1, _⟩ => rfl
    | ⟨2, _⟩ => exact absurd rfl hc
  · show 1024 + d.val = 1024 + d.val
    rfl

/-! ## The first layer -/

/-- The contraction over 1536, by its three blocks. -/
theorem v9_apply (hE : InRange x2) (b : Fin 64) (t h : Fin 512) :
    val_main_v9 (F := Ideal) x0 x1 x2 x3 (ix3 b t h)
      = (∑ d : Fin 512, x0 (ix3 b (node (x2 (ix3 b t (0 : Fin 3)))) d) * x3 (ix2 (lo d) h))
        + (∑ d : Fin 512, x1 (ix3 b t d) * x3 (ix2 (mid d) h))
        + (∑ d : Fin 512, x0 (ix3 b (node (x2 (ix3 b t (2 : Fin 3)))) d) * x3 (ix2 (hi d) h)) := by
  rw [val_main_v9_apply]
  have el : ∀ k : Fin 1536, lidx_main_v9 (ix3 b t h) k = ix3 b t k := fun k => funext fun a => Fin.ext (by
    match a with
    | ⟨0, _⟩ => rfl
    | ⟨1, _⟩ => rfl
    | ⟨2, _⟩ => rfl)
  have er : ∀ k : Fin 1536, ridx_main_v9 (ix3 b t h) k = ix2 k h := fun k => funext fun a => Fin.ext (by
    match a with
    | ⟨0, _⟩ => rfl
    | ⟨1, _⟩ => rfl)
  refine (Finset.sum_congr rfl fun k _ => by rw [el k, er k]).trans ?_
  refine (sum_split3 fun k : Fin 1536 => val_main_v8 (F := Ideal) x0 x1 x2 (ix3 b t k) * x3 (ix2 k h)).trans ?_
  refine congrArg₂ (· + ·) (congrArg₂ (· + ·) ?_ ?_) ?_
  · exact Finset.sum_congr rfl fun d _ => by rw [v8_lo, v5_apply x0 x2 hE]
  · exact Finset.sum_congr rfl fun d _ => by rw [v8_mid]
  · exact Finset.sum_congr rfl fun d _ => by rw [v8_hi, v7_apply x0 x2 hE]

/-- The first layer's bias, broadcast over graphs and triples. -/
theorem v11_apply (b : Fin 64) (t h : Fin 512) : val_main_v11 (F := Ideal) x4 (ix3 b t h) = x4 (ix1 h) := by
  rw [val_main_v11_apply, val_main_v10_apply]
  exact congrArg x4 (funext fun a => Fin.ext (by
    match a with
    | ⟨0, _⟩ => rfl))

end Edges

open Edges

/-- The first hidden layer (after its ReLU). -/
theorem hidden_apply (hE : InRange x2) (b : Fin 64) (t h : Fin 512) :
    val_main_v13 (F := Ideal) x0 x1 x2 x3 x4 (ix3 b t h) = hidden (weightsOf x3 x4 x5 x6 x7 x8 x9 x10) (graphOf x0 x1 x2 b) t h := by
  rw [val_main_v13_apply, val_main_v12_apply, val_main_call2_v0_apply, val_main_call2_cst_apply, v11_apply,
    v9_apply x0 x1 x2 x3 hE, Ideal.maximumf_def, Ideal.addf_def, Ideal.ofBits_def, Ideal.ofBits_zero_f32]
  rfl

namespace Edges

/-! ## The second layer -/

/-- The second layer at column `c` of its 1536 (after its ReLU). -/
theorem v18_apply (hE : InRange x2) (b : Fin 64) (t : Fin 512) (c : Fin 1536) :
    val_main_v18 (F := Ideal) x0 x1 x2 x3 x4 x5 x6 (ix3 b t c)
      = max ((∑ h : Fin 512, hidden (weightsOf x3 x4 x5 x6 x7 x8 x9 x10) (graphOf x0 x1 x2 b) t h * x5 (ix2 h c))
          + x6 (ix1 c)) 0 := by
  rw [val_main_v18_apply, val_main_v17_apply, val_main_call3_v0_apply, val_main_call3_cst_apply, val_main_v16_apply,
    val_main_v15_apply, val_main_v14_apply, Ideal.maximumf_def, Ideal.addf_def, Ideal.ofBits_def, Ideal.ofBits_zero_f32]
  have el : ∀ k : Fin 512, lidx_main_v14 (ix3 b t c) k = ix3 b t k := fun k => funext fun a => Fin.ext (by
    match a with
    | ⟨0, _⟩ => rfl
    | ⟨1, _⟩ => rfl
    | ⟨2, _⟩ => rfl)
  have er : ∀ k : Fin 512, ridx_main_v14 (ix3 b t c) k = ix2 k c := fun k => funext fun a => Fin.ext (by
    match a with
    | ⟨0, _⟩ => rfl
    | ⟨1, _⟩ => rfl)
  have eb : idx_main_v15 (idx_main_v16 (ix3 b t c)) = ix1 c := funext fun a => Fin.ext (by
    match a with
    | ⟨0, _⟩ => rfl)
  rw [eb]
  refine congrArg (fun s : EReal => max (s + x6 (ix1 c)) 0) ?_
  exact Finset.sum_congr rfl fun k _ => by
    rw [el k, er k, hidden_apply x0 x1 x2 x3 x4 x5 x6 x7 x8 x9 x10 hE]

end Edges

/-- The new subject candidates: columns 0–511 of the second layer (after its ReLU). -/
theorem edgeS_apply (hE : InRange x2) (b : Fin 64) (t j : Fin 512) :
    val_main_v19 (F := Ideal) x0 x1 x2 x3 x4 x5 x6 (ix3 b t j) = edgeS (weightsOf x3 x4 x5 x6 x7 x8 x9 x10) (graphOf x0 x1 x2 b) t j := by
  have e : idx_main_v19 (ix3 b t j) = ix3 b t (lo j) := funext fun a => Fin.ext (by
    match a with
    | ⟨0, _⟩ => rfl
    | ⟨1, _⟩ => rfl
    | ⟨2, _⟩ => rfl)
  rw [val_main_v19_apply, e, v18_apply x0 x1 x2 x3 x4 x5 x6 x7 x8 x9 x10 hE]
  rfl

/-- The new triple vectors: columns 512–1023. -/
theorem edgeP_apply (hE : InRange x2) (b : Fin 64) (t j : Fin 512) :
    val_main_v20 (F := Ideal) x0 x1 x2 x3 x4 x5 x6 (ix3 b t j) = edgeP (weightsOf x3 x4 x5 x6 x7 x8 x9 x10) (graphOf x0 x1 x2 b) t j := by
  have e : idx_main_v20 (ix3 b t j) = ix3 b t (mid j) := funext fun a => Fin.ext (by
    match a with
    | ⟨0, _⟩ => rfl
    | ⟨1, _⟩ => rfl
    | ⟨2, _⟩ => rfl)
  rw [val_main_v20_apply, e, v18_apply x0 x1 x2 x3 x4 x5 x6 x7 x8 x9 x10 hE]
  rfl

/-- The new object candidates: columns 1024–1535. -/
theorem edgeO_apply (hE : InRange x2) (b : Fin 64) (t j : Fin 512) :
    val_main_v21 (F := Ideal) x0 x1 x2 x3 x4 x5 x6 (ix3 b t j) = edgeO (weightsOf x3 x4 x5 x6 x7 x8 x9 x10) (graphOf x0 x1 x2 b) t j := by
  have e : idx_main_v21 (ix3 b t j) = ix3 b t (hi j) := funext fun a => Fin.ext (by
    match a with
    | ⟨0, _⟩ => rfl
    | ⟨1, _⟩ => rfl
    | ⟨2, _⟩ => rfl)
  rw [val_main_v21_apply, e, v18_apply x0 x1 x2 x3 x4 x5 x6 x7 x8 x9 x10 hE]
  rfl

end Cert.ReferenceIdeal.Stages

end
-- ==== Proof.RefNodes.lean ====
/-
  The reference's pooling and second network, stage by stage at an index, and its two results as whole arrays: the two
  accumulating scatters collect at each node the candidates of the triples it occurs in, the two scatters of ones count
  them, and the quotient goes through the second network.
-/
import proofs.«419139_j22110491640377_3_alg».proof.Proof.RefEdges

noncomputable section

open scoped BigOperators

namespace Cert.ReferenceIdeal.Stages

open Cert.ReferenceIdeal Cert.ReferenceIdeal.Read Cert.TripleConv
open Idealize.ShloMosaic Idealize.ShloMosaic.ValueIdx

variable (x0 : Nodes) (x1 : Triples) (x2 : Edges) (x3 : Mat 1536 512) (x4 : Row 512) (x5 : Mat 512 1536) (x6 : Row 1536)
  (x7 : Mat 512 512) (x8 : Row 512) (x9 : Mat 512 512) (x10 : Row 512)

namespace Pool

/-! ## The index pairs

Each scatter's index array joins two columns: the number of the graph and the node id of the triple. Both columns pass a
"negative? then add the extent" normalisation, which leaves a word below 256 as it is. -/

/-- A word below 256 is not negative as a signed number, so a select on "w < 0" keeps it. -/
theorem select_nonneg (w c : BitVec 32) (hw : w.toNat < 256) :
    Scalar.select (IntOp.cmpi .slt w 0#32) (IntOp.addi w c) w = w := by
  have hne : ¬ (IntOp.cmpi .slt w 0#32 = 1#1) := by
    rw [IntOp.cmpi_slt]
    have e : w.toInt = (w.toNat : Int) := by
      rw [BitVec.toInt_eq_toNat_cond, if_pos (by omega)]
    rw [e]; simp
  exact if_neg hne

/-- The number of a graph, as a word, is below 256. -/
theorem ofNat_lt (b : Fin 64) : (BitVec.ofNat 32 b.val).toNat < 256 := by
  rw [BitVec.toNat_ofNat]
  have := b.isLt
  omega

/-- The subject id of triple t of graph b: column 0 of the edge table. -/
theorem subjWord (b : Fin 64) (t : Fin 512) : val_main_v1 (F := Ideal) x2 (ix2 b t) = x2 (ix3 b t (0 : Fin 3)) := by
  rw [val_main_v1_apply, val_main_v0_apply]
  congr 1
  funext a
  apply Fin.ext
  match a with
  | ⟨0, _⟩ => show (b.val * 512 + t.val) / 512 = b.val; have := t.isLt; omega
  | ⟨1, _⟩ => show (b.val * 512 + t.val) / 1 % 512 = t.val; have := t.isLt; omega
  | ⟨2, _⟩ => rfl

/-- The object id of triple t of graph b: column 2 of the edge table. -/
theorem objWord (b : Fin 64) (t : Fin 512) : val_main_v3 (F := Ideal) x2 (ix2 b t) = x2 (ix3 b t (2 : Fin 3)) := by
  rw [val_main_v3_apply, val_main_v2_apply]
  congr 1
  funext a
  apply Fin.ext
  match a with
  | ⟨0, _⟩ => show (b.val * 512 + t.val) / 512 = b.val; have := t.isLt; omega
  | ⟨1, _⟩ => show (b.val * 512 + t.val) / 1 % 512 = t.val; have := t.isLt; omega
  | ⟨2, _⟩ => rfl

/-- The normalised graph number is the graph number (four copies, one per scatter). -/
theorem batch29_apply (b : Fin 64) : val_main_v29 (F := Ideal) (ix2 b (0 : Fin 1)) = BitVec.ofNat 32 b.val := by
  rw [val_main_v29_apply, val_main_v26_apply, val_main_v28_apply, val_main_v25_apply, val_main_c_apply, val_main_v23_apply,
    val_main_v22_apply]
  exact select_nonneg _ _ (ofNat_lt b)

theorem batch44_apply (b : Fin 64) : val_main_v44 (F := Ideal) (ix2 b (0 : Fin 1)) = BitVec.ofNat 32 b.val := by
  rw [val_main_v44_apply, val_main_v41_apply, val_main_v43_apply, val_main_v40_apply, val_main_c_3_apply, val_main_v23_apply,
    val_main_v22_apply]
  exact select_nonneg _ _ (ofNat_lt b)

theorem batch61_apply (b : Fin 64) : val_main_v61 (F := Ideal) (ix2 b (0 : Fin 1)) = BitVec.ofNat 32 b.val := by
  rw [val_main_v61_apply, val_main_v58_apply, val_main_v60_apply, val_main_v57_apply, val_main_c_9_apply, val_main_v23_apply,
    val_main_v22_apply]
  exact select_nonneg _ _ (ofNat_lt b)

theorem batch76_apply (b : Fin 64) : val_main_v76 (F := Ideal) (ix2 b (0 : Fin 1)) = BitVec.ofNat 32 b.val := by
  rw [val_main_v76_apply, val_main_v73_apply, val_main_v75_apply, val_main_v72_apply, val_main_c_13_apply, val_main_v23_apply,
    val_main_v22_apply]
  exact select_nonneg _ _ (ofNat_lt b)

/-- The normalised subject id is the subject id, for ids in range (two copies). -/
theorem subj34_apply (hE : InRange x2) (b : Fin 64) (t : Fin 512) :
    val_main_v34 (F := Ideal) x2 (ix2 b t) = x2 (ix3 b t (0 : Fin 3)) := by
  rw [val_main_v34_apply, val_main_v31_apply, val_main_v33_apply, val_main_v30_apply, val_main_c_1_apply, subjWord]
  exact select_nonneg _ _ (hE b t).1

theorem subj66_apply (hE : InRange x2) (b : Fin 64) (t : Fin 512) :
    val_main_v66 (F := Ideal) x2 (ix2 b t) = x2 (ix3 b t (0 : Fin 3)) := by
  rw [val_main_v66_apply, val_main_v63_apply, val_main_v65_apply, val_main_v62_apply, val_main_c_11_apply, subjWord]
  exact select_nonneg _ _ (hE b t).1

/-- The normalised object id is the object id, for ids in range (two copies). -/
theorem obj49_apply (hE : InRange x2) (b : Fin 64) (t : Fin 512) :
    val_main_v49 (F := Ideal) x2 (ix2 b t) = x2 (ix3 b t (2 : Fin 3)) := by
  rw [val_main_v49_apply, val_main_v46_apply, val_main_v48_apply, val_main_v45_apply, val_main_c_5_apply, objWord]
  exact select_nonneg _ _ (hE b t).2

theorem obj81_apply (hE : InRange x2) (b : Fin 64) (t : Fin 512) :
    val_main_v81 (F := Ideal) x2 (ix2 b t) = x2 (ix3 b t (2 : Fin 3)) := by
  rw [val_main_v81_apply, val_main_v78_apply, val_main_v80_apply, val_main_v77_apply, val_main_c_15_apply, objWord]
  exact select_nonneg _ _ (hE b t).2

/-- Column 0 of two [64, 512, 1] columns joined along the last axis is the first column. -/
theorem pair_col0 (p q : (⟨S64x512x1, .i32⟩ : BufTy).Contents (Elt Ideal)) (b : Fin 64) (t : Fin 512) :
    concatenate S64x512x2 2 [⟨S64x512x1, p⟩, ⟨S64x512x1, q⟩] Gen.concatenates_S64x512x1_S64x512x1_S64x512x2_d2
      (ix3 b t (0 : Fin 2)) = p (ix3 b t (0 : Fin 1)) := by
  refine concatenate_pair_apply_left (2 : Fin 3) p q
    Gen.concatenates_S64x512x1_S64x512x1_S64x512x2_d2 (ix3 b t (0 : Fin 2)) rfl (ix3 b t (0 : Fin 1)) ?_
  intro a
  match a with
  | ⟨0, _⟩ => rfl
  | ⟨1, _⟩ => rfl
  | ⟨2, _⟩ => rfl

/-- Column 1 is the second column. -/
theorem pair_col1 (p q : (⟨S64x512x1, .i32⟩ : BufTy).Contents (Elt Ideal)) (b : Fin 64) (t : Fin 512) :
    concatenate S64x512x2 2 [⟨S64x512x1, p⟩, ⟨S64x512x1, q⟩] Gen.concatenates_S64x512x1_S64x512x1_S64x512x2_d2
      (ix3 b t (1 : Fin 2)) = q (ix3 b t (0 : Fin 1)) := by
  refine concatenate_pair_apply_right (2 : Fin 3) p q
    Gen.concatenates_S64x512x1_S64x512x1_S64x512x2_d2 (ix3 b t (1 : Fin 2)) rfl rfl (ix3 b t (0 : Fin 1)) ?_ ?_
  · intro a ha
    match a, ha with
    | ⟨0, _⟩, _ => rfl
    | ⟨1, _⟩, _ => rfl
    | ⟨2, _⟩, ha => exact absurd rfl ha
  · rfl

/-- The four index arrays: column 0 is the number of the graph, column 1 the subject (or object) id. -/
theorem pairS_c0 (b : Fin 64) (t : Fin 512) :
    val_main_v38 (F := Ideal) x2 (ix3 b t (0 : Fin 2)) = BitVec.ofNat 32 b.val := by
  unfold val_main_v38
  refine (pair_col0 _ _ b t).trans ?_
  rw [val_main_v36_apply, val_main_v35_apply]
  exact batch29_apply b

theorem pairS_c1 (hE : InRange x2) (b : Fin 64) (t : Fin 512) :
    val_main_v38 (F := Ideal) x2 (ix3 b t (1 : Fin 2)) = x2 (ix3 b t (0 : Fin 3)) := by
  unfold val_main_v38
  refine (pair_col1 _ _ b t).trans ?_
  rw [val_main_v37_apply]
  exact subj34_apply x2 hE b t

theorem pairO_c0 (b : Fin 64) (t : Fin 512) :
    val_main_v53 (F := Ideal) x2 (ix3 b t (0 : Fin 2)) = BitVec.ofNat 32 b.val := by
  unfold val_main_v53
  refine (pair_col0 _ _ b t).trans ?_
  rw [val_main_v51_apply, val_main_v50_apply]
  exact batch44_apply b

theorem pairO_c1 (hE : InRange x2) (b : Fin 64) (t : Fin 512) :
    val_main_v53 (F := Ideal) x2 (ix3 b t (1 : Fin 2)) = x2 (ix3 b t (2 : Fin 3)) := by
  unfold val_main_v53
  refine (pair_col1 _ _ b t).trans ?_
  rw [val_main_v52_apply]
  exact obj49_apply x2 hE b t

theorem cntS_c0 (b : Fin 64) (t : Fin 512) :
    val_main_v70 (F := Ideal) x2 (ix3 b t (0 : Fin 2)) = BitVec.ofNat 32 b.val := by
  unfold val_main_v70
  refine (pair_col0 _ _ b t).trans ?_
  rw [val_main_v68_apply, val_main_v67_apply]
  exact batch61_apply b

theorem cntS_c1 (hE : InRange x2) (b : Fin 64) (t : Fin 512) :
    val_main_v70 (F := Ideal) x2 (ix3 b t (1 : Fin 2)) = x2 (ix3 b t (0 : Fin 3)) := by
  unfold val_main_v70
  refine (pair_col1 _ _ b t).trans ?_
  rw [val_main_v69_apply]
  exact subj66_apply x2 hE b t

theorem cntO_c0 (b : Fin 64) (t : Fin 512) :
    val_main_v85 (F := Ideal) x2 (ix3 b t (0 : Fin 2)) = BitVec.ofNat 32 b.val := by
  unfold val_main_v85
  refine (pair_col0 _ _ b t).trans ?_
  rw [val_main_v83_apply, val_main_v82_apply]
  exact batch76_apply b

theorem cntO_c1 (hE : InRange x2) (b : Fin 64) (t : Fin 512) :
    val_main_v85 (F := Ideal) x2 (ix3 b t (1 : Fin 2)) = x2 (ix3 b t (2 : Fin 3)) := by
  unfold val_main_v85
  refine (pair_col1 _ _ b t).trans ?_
  rw [val_main_v84_apply]
  exact obj81_apply x2 hE b t

/-! ## The scatters -/

/-- An id word below 256 equals the number of a node exactly when it names that node. -/
theorem word_eq_iff {w : BitVec 32} (hw : w.toNat < 256) (n : Fin 256) : w.toNat = n.val ↔ node w = n := by
  rw [Fin.ext_iff, node_val hw]

/-- The single-precision word 0x3F800000 is the number 1. -/
theorem one_f32 : (FloatOps.ofBits FTy.f32 0x3F800000#32 : Ideal .f32) = 1 := by
  show Ideal.ofBits .f32 0x3F800000#32 = 1
  simp [Ideal.ofBits, Ideal.ieee, -EReal.coe_mul]; norm_num

/-- The first accumulating scatter, onto zeros: the subject candidates of the triples whose subject is the node. -/
theorem v39_apply (hE : InRange x2) (b : Fin 64) (n : Fin 256) (h : Fin 512) :
    val_main_v39 (F := Ideal) x0 x1 x2 x3 x4 x5 x6 (ix3 b n h)
      = ∑ t, if (graphOf x0 x1 x2 b).s t = n then edgeS (weightsOf x3 x4 x5 x6 x7 x8 x9 x10) (graphOf x0 x1 x2 b) t h else 0 := by
  unfold val_main_v39
  refine (Index.scatterAdd_rows (val_main_v24 (F := Ideal)) (val_main_v38 (F := Ideal) x2)
    (val_main_v19 (F := Ideal) x0 x1 x2 x3 x4 x5 x6) (pairS_c0 x2)
    (fun b t => by rw [pairS_c1 x2 hE b t]; exact (hE b t).1) b n h).trans ?_
  rw [val_main_v24_apply, val_main_cst_apply]
  have z : (FloatOps.ofBits FTy.f32 0#32 : Ideal .f32) = 0 := Ideal.ofBits_zero_f32
  rw [z, zero_add]
  refine Finset.sum_congr rfl fun t _ => ?_
  rw [pairS_c1 x2 hE b t, edgeS_apply x0 x1 x2 x3 x4 x5 x6 x7 x8 x9 x10 hE b t h]
  exact if_congr (word_eq_iff (hE b t).1 n) rfl rfl

/-- The first scatter of ones, onto zeros: in how many triples the node is the subject. -/
theorem v71_apply (hE : InRange x2) (b : Fin 64) (n : Fin 256) :
    val_main_v71 (F := Ideal) x2 (ix2 b n) = ∑ t, if (graphOf x0 x1 x2 b).s t = n then (1 : EReal) else 0 := by
  unfold val_main_v71
  refine (Index.scatterAdd_counts (val_main_v56 (F := Ideal)) (val_main_v70 (F := Ideal) x2) (val_main_v55 (F := Ideal))
    (cntS_c0 x2) (fun b t => by rw [cntS_c1 x2 hE b t]; exact (hE b t).1) b n).trans ?_
  rw [val_main_v56_apply, val_main_cst_8_apply]
  have z : (FloatOps.ofBits FTy.f32 0#32 : Ideal .f32) = 0 := Ideal.ofBits_zero_f32
  rw [z, zero_add]
  refine Finset.sum_congr rfl fun t _ => ?_
  rw [cntS_c1 x2 hE b t, val_main_v55_apply, val_main_cst_7_apply, one_f32]
  exact if_congr (word_eq_iff (hE b t).1 n) rfl rfl

/-- The second scatter of ones adds in how many triples the node is the object. -/
theorem v86_apply (hE : InRange x2) (b : Fin 64) (n : Fin 256) :
    val_main_v86 (F := Ideal) x2 (ix2 b n)
      = (∑ t, if (graphOf x0 x1 x2 b).s t = n then (1 : EReal) else 0) + ∑ t, if (graphOf x0 x1 x2 b).o t = n then (1 : EReal) else 0 := by
  unfold val_main_v86
  refine (Index.scatterAdd_counts (val_main_v71 (F := Ideal) x2) (val_main_v85 (F := Ideal) x2) (val_main_v55 (F := Ideal))
    (cntO_c0 x2) (fun b t => by rw [cntO_c1 x2 hE b t]; exact (hE b t).2) b n).trans ?_
  rw [v71_apply x0 x1 x2 hE b n]
  congr 1
  refine Finset.sum_congr rfl fun t _ => ?_
  rw [cntO_c1 x2 hE b t, val_main_v55_apply, val_main_cst_7_apply, one_f32]
  exact if_congr (word_eq_iff (hE b t).2 n) rfl rfl

end Pool

/-- What the two accumulating scatters leave at a node. -/
theorem gathered_apply (hE : InRange x2) (b : Fin 64) (n : Fin 256) (h : Fin 512) :
    val_main_v54 (F := Ideal) x0 x1 x2 x3 x4 x5 x6 (ix3 b n h) = gathered (weightsOf x3 x4 x5 x6 x7 x8 x9 x10) (graphOf x0 x1 x2 b) n h := by
  unfold val_main_v54
  refine (Index.scatterAdd_rows (val_main_v39 (F := Ideal) x0 x1 x2 x3 x4 x5 x6) (val_main_v53 (F := Ideal) x2)
    (val_main_v21 (F := Ideal) x0 x1 x2 x3 x4 x5 x6) (Pool.pairO_c0 x2)
    (fun b t => by rw [Pool.pairO_c1 x2 hE b t]; exact (hE b t).2) b n h).trans ?_
  rw [Pool.v39_apply x0 x1 x2 x3 x4 x5 x6 x7 x8 x9 x10 hE b n h]
  unfold gathered
  congr 1
  refine Finset.sum_congr rfl fun t _ => ?_
  rw [Pool.pairO_c1 x2 hE b t, edgeO_apply x0 x1 x2 x3 x4 x5 x6 x7 x8 x9 x10 hE b t h]
  exact if_congr (Pool.word_eq_iff (hE b t).2 n) rfl rfl

/-- The incidence count, clamped below at 1. -/
theorem degree_apply (hE : InRange x2) (b : Fin 64) (n : Fin 256) :
    val_main_v88 (F := Ideal) x2 (ix2 b n) = degree (graphOf x0 x1 x2 b) n := by
  rw [val_main_v88_apply, Pool.v86_apply x0 x1 x2 hE b n, val_main_v87_apply, val_main_cst_17_apply, Pool.one_f32]
  rfl

/-- The average. -/
theorem pooled_apply (hE : InRange x2) (b : Fin 64) (n : Fin 256) (h : Fin 512) :
    val_main_v91 (F := Ideal) x0 x1 x2 x3 x4 x5 x6 (ix3 b n h) = pooled (weightsOf x3 x4 x5 x6 x7 x8 x9 x10) (graphOf x0 x1 x2 b) n h := by
  have e : idx_main_v89 (idx_main_v90 (ix3 b n h)) = ix2 b n :=
    funext fun a => Fin.ext (by match a with | ⟨0, _⟩ => rfl | ⟨1, _⟩ => rfl)
  rw [val_main_v91_apply, gathered_apply x0 x1 x2 x3 x4 x5 x6 x7 x8 x9 x10 hE b n h, val_main_v90_apply, val_main_v89_apply, e,
    degree_apply x0 x1 x2 hE b n]
  rfl

/-- The second network's hidden layer (after its ReLU). -/
theorem hidden2_apply (hE : InRange x2) (b : Fin 64) (n : Fin 256) (k : Fin 512) :
    val_main_v96 (F := Ideal) x0 x1 x2 x3 x4 x5 x6 x7 x8 (ix3 b n k) = hidden2 (weightsOf x3 x4 x5 x6 x7 x8 x9 x10) (graphOf x0 x1 x2 b) n k := by
  have z : (FloatOps.ofBits FTy.f32 0#32 : Ideal .f32) = 0 := Ideal.ofBits_zero_f32
  rw [val_main_v96_apply, val_main_v95_apply, val_main_v92_apply, val_main_v94_apply, val_main_v93_apply, val_main_call4_v0_apply,
    val_main_call4_cst_apply, z]
  unfold hidden2
  show max ((∑ j : Fin 512, _) + _) 0 = _
  refine congrArg₂ (fun u v : EReal => max (u + v) 0) ?_ ?_
  · refine Finset.sum_congr rfl fun j _ => ?_
    have el : lidx_main_v92 (ix3 b n k) j = ix3 b n j :=
      funext fun a => Fin.ext (by match a with | ⟨0, _⟩ => rfl | ⟨1, _⟩ => rfl | ⟨2, _⟩ => rfl)
    have er : ridx_main_v92 (ix3 b n k) j = ix2 j k :=
      funext fun a => Fin.ext (by match a with | ⟨0, _⟩ => rfl | ⟨1, _⟩ => rfl)
    rw [el, er, pooled_apply x0 x1 x2 x3 x4 x5 x6 x7 x8 x9 x10 hE b n j]
    rfl
  · show x8 _ = x8 (ix1 k)
    congr 1
    funext a
    match a with
    | ⟨0, _⟩ => rfl

/-- The second network's result at a node: the new node vector. -/
theorem nodeOut_apply (hE : InRange x2) (b : Fin 64) (n : Fin 256) (j : Fin 512) :
    val_main_v101 (F := Ideal) x0 x1 x2 x3 x4 x5 x6 x7 x8 x9 x10 (ix3 b n j) = nodeOut (weightsOf x3 x4 x5 x6 x7 x8 x9 x10) (graphOf x0 x1 x2 b) n j := by
  have z : (FloatOps.ofBits FTy.f32 0#32 : Ideal .f32) = 0 := Ideal.ofBits_zero_f32
  rw [val_main_v101_apply, val_main_v100_apply, val_main_v97_apply, val_main_v99_apply, val_main_v98_apply, val_main_call5_v0_apply,
    val_main_call5_cst_apply, z]
  unfold nodeOut
  show max ((∑ k : Fin 512, _) + _) 0 = _
  refine congrArg₂ (fun u v : EReal => max (u + v) 0) ?_ ?_
  · refine Finset.sum_congr rfl fun k _ => ?_
    have el : lidx_main_v97 (ix3 b n j) k = ix3 b n k :=
      funext fun a => Fin.ext (by match a with | ⟨0, _⟩ => rfl | ⟨1, _⟩ => rfl | ⟨2, _⟩ => rfl)
    have er : ridx_main_v97 (ix3 b n j) k = ix2 k j :=
      funext fun a => Fin.ext (by match a with | ⟨0, _⟩ => rfl | ⟨1, _⟩ => rfl)
    rw [el, er, hidden2_apply x0 x1 x2 x3 x4 x5 x6 x7 x8 x9 x10 hE b n k]
    rfl
  · show x10 _ = x10 (ix1 j)
    congr 1
    funext a
    match a with
    | ⟨0, _⟩ => rfl

/-- The reference's first result is the specification's node array. -/
theorem nodes_eq (hE : InRange x2) :
    val_main_v101 (F := Ideal) x0 x1 x2 x3 x4 x5 x6 x7 x8 x9 x10 = nodeArr x0 x1 x2 x3 x4 x5 x6 x7 x8 x9 x10 := by
  funext i
  rw [eq_ix3 i]
  exact nodeOut_apply x0 x1 x2 x3 x4 x5 x6 x7 x8 x9 x10 hE (i 0) (i 1) (i 2)

/-- The reference's second result is the specification's triple array. -/
theorem triples_eq (hE : InRange x2) :
    val_main_v20 (F := Ideal) x0 x1 x2 x3 x4 x5 x6 = tripleArr x0 x1 x2 x3 x4 x5 x6 x7 x8 x9 x10 := by
  funext i
  rw [eq_ix3 i]
  exact edgeP_apply x0 x1 x2 x3 x4 x5 x6 x7 x8 x9 x10 hE (i 0) (i 1) (i 2)

end Cert.ReferenceIdeal.Stages

end
-- ==== Proof.lean ====
/-
  The certificate: a fused kernel for one layer of graph convolution over scene-graph triples computes, on the extended
  reals, the same two arrays as its reference.

  Both programs take a batch of 64 graphs (256 node vectors and 512 triple vectors each, and a table of (subject,
  predicate, object) ids) and the parameters of two small networks, and return the new node vectors and the new triple
  vectors (Proof/Spec.lean states them as functions of the arguments). The kernel replaces the reference's gather of the
  subject's and object's node vectors by a product with a 0/1 matrix, its scatter-add by a product with the transposed
  0/1 matrix, and the contraction over the concatenated 1536 features by three contractions over 512; on the extended
  reals `0 · x = 0` and `1 · x = x` hold for every `x` and sums may be regrouped, so the two agree wherever every subject
  and object id names one of the 256 nodes — which the precondition states (outside that range the reference's gather
  fills with NaN or wraps a negative id around, and the kernel's compare contributes nothing).

  The kernel's side: each grid point stages two graphs, the stored pieces are the specification's functions of the
  staged blocks (Proof/KerBody0.lean, KerBody1.lean over the operations of KerOps.lean), the blocks are the argument
  arrays' (KerGlue.lean), and the 32 points' blocks cover the result arrays (KerValue.lean). The reference's side: its
  run read stage by stage (RefEdges.lean, RefNodes.lean over the reads of RefIndex.lean). The kernel's idealization
  rewrote nothing, so `preserves` has no conjunct.
-/
import proofs.«419139_j22110491640377_3_alg».proof.Defs
import proofs.«419139_j22110491640377_3_alg».proof.Proof.Gen.Kernel
import proofs.«419139_j22110491640377_3_alg».proof.Proof.Gen.Kernel.Frame
import proofs.«419139_j22110491640377_3_alg».proof.Proof.Gen.KernelIdeal
import proofs.«419139_j22110491640377_3_alg».proof.Proof.Gen.KernelIdeal.Frame
import proofs.«419139_j22110491640377_3_alg».proof.Proof.Gen.KernelIdeal.Value
import proofs.«419139_j22110491640377_3_alg».proof.Proof.Gen.ReferenceIdeal
import proofs.«419139_j22110491640377_3_alg».proof.Proof.Gen.Pre_finite_inputs
import proofs.«419139_j22110491640377_3_alg».proof.Proof.RefRun
import proofs.«419139_j22110491640377_3_alg».proof.Proof.RefRunEq
import proofs.«419139_j22110491640377_3_alg».proof.Proof.PreRange
import proofs.«419139_j22110491640377_3_alg».proof.Proof.KerValue
import proofs.«419139_j22110491640377_3_alg».proof.Proof.RefNodes
import Idealize.ShloMosaic.Adequacy
import Idealize.ShloMosaic.Init

noncomputable section

namespace Cert.Proof

open Idealize.ShloMosaic Idealize.SL.Sem Cert.TripleConv

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, under the precondition, both programs end with the specification's
    node array and triple array of the arguments. -/
theorem algebraic : Cert.algebraic_KernelIdeal_ReferenceIdeal := by
  intro m ρ m' ρ' hpre hagree
  have hE : ∀ c : Dev Cert.KernelIdeal.nD, InRange (m ((c.tc : Thread Cert.KernelIdeal.nD Cert.KernelIdeal.τ).loc Cert.KernelIdeal.main_arg2)) := fun c =>
    PreRange.inRange _ _ _ _ _ _ _ _ _ _ _ (hpre c)
  refine ⟨fun c => nodeArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), fun c => tripleArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Body.run m ρ hE, ?_⟩
  refine (θ_run Cert.ReferenceIdeal.defs _ _).mono (fun r h c => ⟨?_, ?_, (h c).2.2⟩)
    (Cert.ReferenceIdeal.Value.run (F := Ideal) m' ρ')
  · have hE' : InRange (m' ((c.tc : Thread Cert.ReferenceIdeal.nD Cert.ReferenceIdeal.τ).loc Cert.ReferenceIdeal.main_arg2)) := by rw [(hagree c).2.2.1]; exact hE c
    refine (h c).1.trans ?_
    rw [Cert.ReferenceIdeal.Read.val_main_v101_eq,
      Cert.ReferenceIdeal.Stages.nodes_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) hE']
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  · have hE' : InRange (m' ((c.tc : Thread Cert.ReferenceIdeal.nD Cert.ReferenceIdeal.τ).loc Cert.ReferenceIdeal.main_arg2)) := by rw [(hagree c).2.2.1]; exact hE c
    refine (h c).2.1.trans ?_
    rw [Cert.ReferenceIdeal.Read.val_main_v20_eq,
      Cert.ReferenceIdeal.Stages.triples_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) hE']
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
